-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S100000 : Shape := ⟨1, ![100000]⟩
abbrev S1x100 : Shape := ⟨2, ![1, 100]⟩
abbrev S100 : Shape := ⟨1, ![100]⟩
abbrev S100x100 : Shape := ⟨2, ![100, 100]⟩
abbrev S100x8 : Shape := ⟨2, ![100, 8]⟩
abbrev S8 : Shape := ⟨1, ![8]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x100 : S_.BroadcastsInDim S1x100 (![] : Fin 0 → Fin S1x100.rank)
  reducesTo_S1x100_S_d0_1 : S1x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x8 : S_.BroadcastsInDim S100x8 (![] : Fin 0 → Fin S100x8.rank)
  reducesTo_S100x8_S_d0_1 : S100x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S100x8 .f32) (main_arg10 : FVec F S8 .f32) (main_v33 : IVec S_ 1) : IVec S_ 1 :=
  let main_v34 : FVec F S100x8 .f32 := Host.absf main_arg9
  let main_cst_12 : FVec F S_ .f32 := constant S_ .f32 0x7F800000#32
  let main_v35 : FVec F S100x8 .f32 := broadcastInDim S100x8 ![] bcast_S_S100x8 main_cst_12
  let main_v36 : IVec S100x8 1 := cmpf .olt main_v34 main_v35
  let main_c_13 : IVec S_ 1 := constantI S_ 1 1#1
  let main_v37 : IVec S_ 1 := (fun x v => Host.reduce IntOp.andi x v reducesTo_S100x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg6 : FVec F S100 .f32) (main_arg7 : FVec F S100x100 .f32) (main_arg8 : FVec F S100 .f32) (main_arg9 : FVec F S100x8 .f32) (main_arg10 : FVec F S8 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg6
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x100 .f32 := Host.absf main_arg7
  let main_cst_8 : FVec F S_ .f32 := constant S_ .f32 0x7F800000#32
  let main_v25 : FVec F S100x100 .f32 := broadcastInDim S100x100 ![] bcast_S_S100x100 main_cst_8
  let main_v26 : IVec S100x100 1 := cmpf .olt main_v24 main_v25
  let main_c_9 : IVec S_ 1 := constantI S_ 1 1#1
  let main_v27 : IVec S_ 1 := (fun x v => Host.reduce IntOp.andi x v reducesTo_S100x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_arg10 main_v33

def fn {F : FTy → Type} [FloatOps F] (main_arg0 : FVec F S100000x1 .f32) (main_arg1 : IVec S2x1600000 32) (main_arg2 : IVec S100000 32) (main_arg3 : FVec F S1x100 .f32) (main_arg4 : FVec F S100 .f32) (main_arg5 : FVec F S100x100 .f32) (main_arg6 : FVec F S100 .f32) (main_arg7 : FVec F S100x100 .f32) (main_arg8 : FVec F S100 .f32) (main_arg9 : FVec F S100x8 .f32) (main_arg10 : FVec F S8 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x100 .f32 := Host.absf main_arg3
  let main_cst_0 : FVec F S_ .f32 := constant S_ .f32 0x7F800000#32
  let main_v5 : FVec F S1x100 .f32 := broadcastInDim S1x100 ![] bcast_S_S1x100 main_cst_0
  let main_v6 : IVec S1x100 1 := cmpf .olt main_v4 main_v5
  let main_c_1 : IVec S_ 1 := constantI S_ 1 1#1
  let main_v7 : IVec S_ 1 := (fun x v => Host.reduce IntOp.andi x v reducesTo_S1x100_S_d0_1 h_S_) main_v6 main_c_1
  let main_v8 : IVec S_ 1 := andi main_v3 main_v7
  let main_v9 : FVec F S100 .f32 := Host.absf main_arg4
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg5
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg6 main_arg7 main_arg8 main_arg9 main_arg10 main_v13 main_v16
-- ==== Kernel.lean ====
abbrev S100000x1 : Shape := ⟨2, ![100000, 1]⟩
abbrev S2x1600000 : Shape := ⟨2, ![2, 1600000]⟩
abbrev S100000 : Shape := ⟨1, ![100000]⟩
abbrev S1x100 : Shape := ⟨2, ![1, 100]⟩
abbrev S100 : Shape := ⟨1, ![100]⟩
abbrev S100x100 : Shape := ⟨2, ![100, 100]⟩
abbrev S100x8 : Shape := ⟨2, ![100, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x100 : Shape := ⟨2, ![100000, 100]⟩
abbrev S10000x1 : Shape := ⟨2, ![10000, 1]⟩
abbrev S10000x100 : Shape := ⟨2, ![10000, 100]⟩
abbrev S1700000x100 : Shape := ⟨2, ![1700000, 100]⟩
abbrev S128 : Shape := ⟨1, ![128]⟩
abbrev S128x1 : Shape := ⟨2, ![128, 1]⟩
abbrev S1x8 : Shape := ⟨2, ![1, 8]⟩
abbrev S128x8 : Shape := ⟨2, ![128, 8]⟩
abbrev S5000x100 : Shape := ⟨2, ![5000, 100]⟩
abbrev S5000x1 : Shape := ⟨2, ![5000, 1]⟩
abbrev S128x100 : Shape := ⟨2, ![128, 100]⟩
abbrev S5000x128 : Shape := ⟨2, ![5000, 128]⟩

abbrev nBuf : Space → Nat
  | .hbm => 112
  | .vmem => 23
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S100000, .i32⟩
  | .hbm, ⟨3, _⟩ => ⟨S1x100, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S100x8, .f32⟩
  | .hbm, ⟨10, _⟩ => ⟨S8, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S_, .f32⟩
  | .hbm, ⟨56, _⟩ => ⟨S100000, .f32⟩
  | .hbm, ⟨57, _⟩ => ⟨S1700000x1, .i32⟩
  | .hbm, ⟨58, _⟩ => ⟨S100000, .f32⟩
  | .hbm, ⟨59, _⟩ => ⟨S100000x1, .f32⟩
  | .hbm, ⟨60, _⟩ => ⟨S1x100, .f32⟩
  | .hbm, ⟨61, _⟩ => ⟨S100000x100, .bf16⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x100, .bf16⟩
  | .hbm, ⟨71, _⟩ => ⟨S1700000x100, .f32⟩
  | .hbm, ⟨72, _⟩ => ⟨S1700000x1, .f32⟩
  | .hbm, ⟨73, _⟩ => ⟨S1700000x100, .f32⟩
  | .hbm, ⟨74, _⟩ => ⟨S1700000x100, .f32⟩
  | .hbm, ⟨75, _⟩ => ⟨S_, .f32⟩
  | .hbm, ⟨76, _⟩ => ⟨S100000x100, .f32⟩
  | .hbm, ⟨77, _⟩ => ⟨S1700000x1, .i32⟩
  | .hbm, ⟨78, _⟩ => ⟨S100000x100, .f32⟩
  | .hbm, ⟨79, _⟩ => ⟨S1x100, .f32⟩
  | .hbm, ⟨80, _⟩ => ⟨S100000x100, .bf16⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x100, .bf16⟩
  | .hbm, ⟨90, _⟩ => ⟨S1700000x100, .f32⟩
  | .hbm, ⟨91, _⟩ => ⟨S1700000x1, .f32⟩
  | .hbm, ⟨92, _⟩ => ⟨S1700000x100, .f32⟩
  | .hbm, ⟨93, _⟩ => ⟨S1700000x100, .f32⟩
  | .hbm, ⟨94, _⟩ => ⟨S_, .f32⟩
  | .hbm, ⟨95, _⟩ => ⟨S100000x100, .f32⟩
  | .hbm, ⟨96, _⟩ => ⟨S1700000x1, .i32⟩
  | .hbm, ⟨97, _⟩ => ⟨S100000x100, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S128, .f32⟩
  | .hbm, ⟨102, _⟩ => ⟨S100000x1, .i32⟩
  | .hbm, ⟨103, _⟩ => ⟨S128, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S1x100, .f32⟩
  | .hbm, ⟨108, _⟩ => ⟨S100000x1, .i32⟩
  | .hbm, ⟨109, _⟩ => ⟨S128x1, .f32⟩
  | .hbm, ⟨110, _⟩ => ⟨S1x8, .f32⟩
  | .hbm, ⟨111, _⟩ => ⟨S128x8, .f32⟩
  | .local _ .vmem, ⟨0, _⟩ => ⟨S10000x1, .f32⟩
  | .local _ .vmem, ⟨1, _⟩ => ⟨S10000x1, .f32⟩
  | .local _ .vmem, ⟨2, _⟩ => ⟨S1x100, .f32⟩
  | .local _ .vmem, ⟨3, _⟩ => ⟨S1x100, .f32⟩
  | .local _ .vmem, ⟨4, _⟩ => ⟨S100x100, .f32⟩
  | .local _ .vmem, ⟨5, _⟩ => ⟨S10000x100, .bf16⟩
  | .local _ .vmem, ⟨6, _⟩ => ⟨S10000x100, .bf16⟩
  | .local _ .vmem, ⟨7, _⟩ => ⟨S10000x100, .f32⟩
  | .local _ .vmem, ⟨8, _⟩ => ⟨S10000x100, .f32⟩
  | .local _ .vmem, ⟨9, _⟩ => ⟨S1x100, .f32⟩
  | .local _ .vmem, ⟨10, _⟩ => ⟨S100x100, .f32⟩
  | .local _ .vmem, ⟨11, _⟩ => ⟨S10000x100, .bf16⟩
  | .local _ .vmem, ⟨12, _⟩ => ⟨S10000x100, .bf16⟩
  | .local _ .vmem, ⟨13, _⟩ => ⟨S5000x100, .f32⟩
  | .local _ .vmem, ⟨14, _⟩ => ⟨S5000x100, .f32⟩
  | .local _ .vmem, ⟨15, _⟩ => ⟨S1x100, .f32⟩
  | .local _ .vmem, ⟨16, _⟩ => ⟨S5000x1, .i32⟩
  | .local _ .vmem, ⟨17, _⟩ => ⟨S5000x1, .i32⟩
  | .local _ .vmem, ⟨18, _⟩ => ⟨S128x1, .f32⟩
  | .local _ .vmem, ⟨19, _⟩ => ⟨S100x8, .f32⟩
  | .local _ .vmem, ⟨20, _⟩ => ⟨S1x8, .f32⟩
  | .local _ .vmem, ⟨21, _⟩ => ⟨S128x8, .f32⟩
  | .local _ .vmem, ⟨22, _⟩ => ⟨S128x100, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x100 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x100 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_10 : BitVec 32 := 0#32
  let v26 : BitVec 1 := Scalar.cmpi .ne v25 c0_i32_10
  v26

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S100x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000x1_S100000 : S100000x1.ShapeCasts S100000
  shapeCasts_S100000_S100000x1 : S100000.ShapeCasts S100000x1
  shapeCasts_S100_S1x100 : S100.ShapeCasts S1x100
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x100_S1x100_0_0 : ∀ a, (![0, 0] : Fin 2 → Nat) a + S1x100.size a ≤ S1x100.size a
  h_S1x100 : 0 < S1x100.numel
  broadcasts_S10000x1_S10000x100 : S10000x1.Broadcasts S10000x100
  broadcasts_S1x100_S10000x100 : S1x100.Broadcasts S10000x100
  shapeCasts_S1x100_S1x100 : S1x100.ShapeCasts S1x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  inb_S10000x100_S10000x100_0_0 : ∀ a, (![0, 0] : Fin 2 → Nat) a + S10000x100.size a ≤ S10000x100.size a
  h_S10000x100 : 0 < S10000x100.numel
  packedbf16_S10000x100_S10000x100_0_0 : (Rect.unit (s := S10000x100) ![0, 0] S10000x100.size inb_S10000x100_S10000x100_0_0).PackedRows (EltTy.packing .bf16)
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  shapeCasts_S10000x100_S10000x100 : S10000x100.ShapeCasts S10000x100
  bcast_S_S128 : S_.BroadcastsInDim S128 (![] : Fin 0 → Fin S128.rank)
  bcast_S100000_S100000x1_0 : S100000.BroadcastsInDim S100000x1 (![0] : Fin 1 → Fin S100000x1.rank)
  shapeCasts_S128_S128x1 : S128.ShapeCasts S128x1
  shapeCasts_S8_S1x8 : S8.ShapeCasts S1x8
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  broadcasts_S1x100_S5000x100 : S1x100.Broadcasts S5000x100
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x100 : S128x1.Broadcasts S128x100
  inb_S100x8_S100x8_0_0 : ∀ a, (![0, 0] : Fin 2 → Nat) a + S100x8.size a ≤ S100x8.size a
  h_S100x8 : 0 < S100x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S128x8 : S1x8.Broadcasts S128x8
  inb_S128x8_S128x8_0_0 : ∀ a, (![0, 0] : Fin 2 → Nat) a + S128x8.size a ≤ S128x8.size a
  h_S128x8 : 0 < S128x8.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x100_S100x100_S10000x100_1_0_0_1_n_n_wf : DotDims.WF S10000x100 S100x100 S10000x100 [1] [0] [0] [1] [] []
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1
  scatter_S128_S100000x1_S100000_n_0_0_1_wf : ScatterDims.WF S128 S100000x1 S100000 [] [0] [0] 1
  dot_S5000x128_S5000x100_S128x100_0_0_1_1_n_n_wf : DotDims.WF S5000x128 S5000x100 S128x100 [0] [0] [1] [1] [] []
  dot_S128x100_S100x8_S128x8_1_0_0_1_n_n_wf : DotDims.WF S128x100 S100x8 S128x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x100.size a ≤ S1x100.size a
  hwx0_1 : ∀ i : grid0.Coords, EltTy.bits .f32 = 32 ∨ (Rect.block (s := S1x100) S1x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x100.size a ≤ S100x100.size a
  hwx0_3 : ∀ i : grid0.Coords, EltTy.bits .f32 = 32 ∨ (Rect.block (s := S100x100) S100x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x100.size a ≤ S100000x100.size a
  hwx0_4 : ∀ i : grid0.Coords, EltTy.bits .bf16 = 32 ∨ (Rect.block (s := S100000x100) S10000x100.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S100000x100.size a
  hwx1_0 : ∀ i : grid1.Coords, EltTy.bits .f32 = 32 ∨ (Rect.block (s := S100000x100) S10000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x100.size a ≤ S1x100.size a
  hwx1_1 : ∀ i : grid1.Coords, EltTy.bits .f32 = 32 ∨ (Rect.block (s := S1x100) S1x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x100.size a ≤ S100x100.size a
  hwx1_2 : ∀ i : grid1.Coords, EltTy.bits .f32 = 32 ∨ (Rect.block (s := S100x100) S100x100.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x100.size a ≤ S100000x100.size a
  hwx1_3 : ∀ i : grid1.Coords, EltTy.bits .bf16 = 32 ∨ (Rect.block (s := S100000x100) S10000x100.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x100.size a ≤ S100000x100.size a
  hwx2_0 : ∀ i : grid2.Coords, EltTy.bits .f32 = 32 ∨ (Rect.block (s := S100000x100) S5000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x100.size a ≤ S1x100.size a
  hwx2_1 : ∀ i : grid2.Coords, EltTy.bits .f32 = 32 ∨ (Rect.block (s := S1x100) S1x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .i32 = 32 ∨ (Rect.block (s := S100000x1) S5000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S100x8.size a ≤ S100x8.size a
  hwx2_4 : ∀ i : grid2.Coords, EltTy.bits .f32 = 32 ∨ (Rect.block (s := S100x8) S100x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x8.size a ≤ S1x8.size a
  hwx2_5 : ∀ i : grid2.Coords, EltTy.bits .f32 = 32 ∨ (Rect.block (s := S1x8) S1x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x8.size a ≤ S128x8.size a
  hwx2_6 : ∀ i : grid2.Coords, EltTy.bits .f32 = 32 ∨ (Rect.block (s := S128x8) S128x8.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x100_S100x100_S10000x100_1_0_0_1_n_n : DotDims S10000x100 S100x100 S10000x100 where
  lhsContracting := [1]
  rhsContracting := [0]
  lhsNonContracting := [0]
  rhsNonContracting := [1]
  lhsBatch := []
  rhsBatch := []
  wf := dot_S10000x100_S100x100_S10000x100_1_0_0_1_n_n_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S5000x128_S5000x100_S128x100_0_0_1_1_n_n : DotDims S5000x128 S5000x100 S128x100 where
  lhsContracting := [0]
  rhsContracting := [0]
  lhsNonContracting := [1]
  rhsNonContracting := [1]
  lhsBatch := []
  rhsBatch := []
  wf := dot_S5000x128_S5000x100_S128x100_0_0_1_1_n_n_wf
def dot_S128x100_S100x8_S128x8_1_0_0_1_n_n : DotDims S128x100 S100x8 S128x8 where
  lhsContracting := [1]
  rhsContracting := [0]
  lhsNonContracting := [0]
  rhsNonContracting := [1]
  lhsBatch := []
  rhsBatch := []
  wf := dot_S128x100_S100x8_S128x8_1_0_0_1_n_n_wf

abbrev win0_0 : Pipeline.Window sig grid0 :=
  Pipeline.Window.ofSpec (Memref.whole main_v39) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S10000x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v55) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S100x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S10000x100.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v71) S5000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S1x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v80) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S100x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S1x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v82) S128x8.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x1 : Shape := ⟨2, ![100000, 1]⟩
abbrev S2x1600000 : Shape := ⟨2, ![2, 1600000]⟩
abbrev S100000 : Shape := ⟨1, ![100000]⟩
abbrev S1x100 : Shape := ⟨2, ![1, 100]⟩
abbrev S100 : Shape := ⟨1, ![100]⟩
abbrev S100x100 : Shape := ⟨2, ![100, 100]⟩
abbrev S100x8 : Shape := ⟨2, ![100, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x100 : Shape := ⟨2, ![100000, 100]⟩
abbrev S1700000x100 : Shape := ⟨2, ![1700000, 100]⟩
abbrev S128x100 : Shape := ⟨2, ![128, 100]⟩
abbrev S128 : Shape := ⟨1, ![128]⟩
abbrev S128x1 : Shape := ⟨2, ![128, 1]⟩
abbrev S128x8 : Shape := ⟨2, ![128, 8]⟩
abbrev S1x8 : Shape := ⟨2, ![1, 8]⟩

abbrev nBuf : Space → Nat
  | .hbm => 130
  | .vmem => 0
  | .smem => 0
  | _ => 0

abbrev hbmTy0_0 (i : Nat) : BufTy := match i % 128 with
  | 0 => ⟨S100000x1, .f32⟩
  | 1 => ⟨S2x1600000, .i32⟩
  | 2 => ⟨S100000, .i32⟩
  | 3 => ⟨S1x100, .f32⟩
  | 4 => ⟨S100, .f32⟩
  | 5 => ⟨S100x100, .f32⟩
  | 6 => ⟨S100, .f32⟩
  | 7 => ⟨S100x100, .f32⟩
  | 8 => ⟨S100, .f32⟩
  | 9 => ⟨S100x8, .f32⟩
  | 10 => ⟨S8, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S100000x100, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x100, .f32⟩
  | 54 => ⟨S1700000x1, .f32⟩
  | 55 => ⟨S1700000x100, .f32⟩
  | 56 => ⟨S1700000x100, .f32⟩
  | 57 => ⟨S_, .f32⟩
  | 58 => ⟨S100000x100, .f32⟩
  | 59 => ⟨S1700000x1, .i32⟩
  | 60 => ⟨S100000x100, .f32⟩
  | 61 => ⟨S1x100, .f32⟩
  | 62 => ⟨S100000x100, .f32⟩
  | 63 => ⟨S100000x100, .f32⟩
  | 64 => ⟨S_, .f32⟩
  | 65 => ⟨S100000x100, .f32⟩
  | 66 => ⟨S100000x100, .f32⟩
  | 67 => ⟨S100000x100, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x100, .f32⟩
  | 77 => ⟨S1700000x1, .f32⟩
  | 78 => ⟨S1700000x100, .f32⟩
  | 79 => ⟨S1700000x100, .f32⟩
  | 80 => ⟨S_, .f32⟩
  | 81 => ⟨S100000x100, .f32⟩
  | 82 => ⟨S1700000x1, .i32⟩
  | 83 => ⟨S100000x100, .f32⟩
  | 84 => ⟨S1x100, .f32⟩
  | 85 => ⟨S100000x100, .f32⟩
  | 86 => ⟨S100000x100, .f32⟩
  | 87 => ⟨S_, .f32⟩
  | 88 => ⟨S100000x100, .f32⟩
  | 89 => ⟨S100000x100, .f32⟩
  | 90 => ⟨S100000x100, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x100, .f32⟩
  | 100 => ⟨S1700000x1, .f32⟩
  | 101 => ⟨S1700000x100, .f32⟩
  | 102 => ⟨S1700000x100, .f32⟩
  | 103 => ⟨S_, .f32⟩
  | 104 => ⟨S100000x100, .f32⟩
  | 105 => ⟨S1700000x1, .i32⟩
  | 106 => ⟨S100000x100, .f32⟩
  | 107 => ⟨S1x100, .f32⟩
  | 108 => ⟨S100000x100, .f32⟩
  | 109 => ⟨S100000x100, .f32⟩
  | 110 => ⟨S_, .f32⟩
  | 111 => ⟨S128x100, .f32⟩
  | 112 => ⟨S100000x1, .i32⟩
  | 113 => ⟨S128x100, .f32⟩
  | 114 => ⟨S_, .f32⟩
  | 115 => ⟨S100000, .f32⟩
  | 116 => ⟨S_, .f32⟩
  | 117 => ⟨S128, .f32⟩
  | 118 => ⟨S100000x1, .i32⟩
  | 119 => ⟨S128, .f32⟩
  | 120 => ⟨S_, .f32⟩
  | 121 => ⟨S128, .f32⟩
  | 122 => ⟨S128, .f32⟩
  | 123 => ⟨S128x1, .f32⟩
  | 124 => ⟨S128x100, .f32⟩
  | 125 => ⟨S128x100, .f32⟩
  | 126 => ⟨S128x8, .f32⟩
  | 127 => ⟨S1x8, .f32⟩
  | _ => ⟨S100000x1, .f32⟩

abbrev hbmTy0_1 (i : Nat) : BufTy := match i % 128 with
  | 0 => ⟨S128x8, .f32⟩
  | 1 => ⟨S128x8, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S_S128x100 : S_.BroadcastsInDim S128x100 (![] : Fin 0 → Fin S128x100.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x100_0_1 : S128x1.BroadcastsInDim S128x100 (![0, 1] : Fin 2 → Fin S128x100.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x100_S100000x100_1_0_0_1_n_n_wf : DotDims.WF S100000x1 S1x100 S100000x100 [1] [0] [0] [1] [] []
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1
  dot_S100000x100_S100x100_S100000x100_1_0_0_1_n_n_wf : DotDims.WF S100000x100 S100x100 S100000x100 [1] [0] [0] [1] [] []
  scatter_S128x100_S100000x1_S100000x100_1_0_0_1_wf : ScatterDims.WF S128x100 S100000x1 S100000x100 [1] [0] [0] 1
  scatter_S128_S100000x1_S100000_n_0_0_1_wf : ScatterDims.WF S128 S100000x1 S100000 [] [0] [0] 1
  dot_S128x100_S100x8_S128x8_1_0_0_1_n_n_wf : DotDims.WF S128x100 S100x8 S128x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x100_S100000x100_1_0_0_1_n_n : DotDims S100000x1 S1x100 S100000x100 where
  lhsContracting := [1]
  rhsContracting := [0]
  lhsNonContracting := [0]
  rhsNonContracting := [1]
  lhsBatch := []
  rhsBatch := []
  wf := dot_S100000x1_S1x100_S100000x100_1_0_0_1_n_n_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf
def dot_S100000x100_S100x100_S100000x100_1_0_0_1_n_n : DotDims S100000x100 S100x100 S100000x100 where
  lhsContracting := [1]
  rhsContracting := [0]
  lhsNonContracting := [0]
  rhsNonContracting := [1]
  lhsBatch := []
  rhsBatch := []
  wf := dot_S100000x100_S100x100_S100000x100_1_0_0_1_n_n_wf
def scatter_S128x100_S100000x1_S100000x100_1_0_0_1 : ScatterDims S128x100 S100000x1 S100000x100 where
  updateWindowDims := [1]
  insertedWindowDims := [0]
  scatterDimsToOperandDims := [0]
  indexVectorDim := 1
  wf := scatter_S128x100_S100000x1_S100000x100_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x100_S100x8_S128x8_1_0_0_1_n_n : DotDims S128x100 S100x8 S128x8 where
  lhsContracting := [1]
  rhsContracting := [0]
  lhsNonContracting := [0]
  rhsNonContracting := [1]
  lhsBatch := []
  rhsBatch := []
  wf := dot_S128x100_S100x8_S128x8_1_0_0_1_n_n_wf

class Facts : Prop extends Facts₀ where

variable [Facts]
-- ==== Proof.BitsExpand.lean ====
/- The class-A half of the frame for REGION 0 (custom_call 0, the first fused transform layer) of the program's
   @main, stated at a PARAMETER V: the TensorCore's buffer contents when the region is entered. Each window's block
   at a grid point read off its array; what the body leaves in the output window's staging buffer, as the canonical
   contents of its one whole-block store over the skeleton's payload of the four loaded input blocks; the body's
   triple; the pipeline's proof data; and the body obligation at every grid point. Generic in the float model F. -/
import proofs.«429599_j46402826666302_2_alg».proof.Proof.Gen.Kernel.Launch
import proofs.«429599_j46402826666302_2_alg».proof.Proof.Gen.Kernel.Skeleton
import proofs.«429599_j46402826666302_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axes
set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0 (pipeline 0), at the entry contents V -/

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is V's (hA) and whose body leaves the block in place (hafter): an input the body leaves in place
    holds what a fetch there would put (unfetched, the index has not moved); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1 (constant block index: fetched at the first point only, in place ever after). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2 (constant block index). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same of input window 3 (constant block index). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S10000x1 := Rect.unit (s := S10000x1) ![0, 0] S10000x1.size inb_S10000x1_S10000x1_0_0
abbrev r0_1 : Rect S1x100 := Rect.unit (s := S1x100) ![0, 0] S1x100.size inb_S1x100_S1x100_0_0
abbrev r0_2 : Rect S100x100 := Rect.unit (s := S100x100) ![0, 0] S100x100.size inb_S100x100_S100x100_0_0
abbrev r0_3 : Rect S10000x100 := Rect.unit (s := S10000x100) ![0, 0] S10000x100.size inb_S10000x100_S10000x100_0_0

/-! ## What the body leaves in the output window's buffer -/

/-- Window 4's staging buffer after the body, from the input windows' blocks: its one store as a piece, the
    payload the skeleton's over what the four loads read. -/
def out0_4 (x0 : Vec F S10000x1 .f32) (x1 : Vec F S1x100 .f32) (x2 : Vec F S1x100 .f32) (x3 : Vec F S100x100 .f32) : Vec F S10000x100 .bf16 :=
  View.canon [⟨r0_3, k0_pay1 (View.ld x0 r0_0) (View.ld x1 r0_1) (View.ld x2 r0_1) (View.ld x3 r0_2)⟩]

/-- The store's rectangle is the whole buffer (checked by evaluation), so it covers it. -/
theorem cover0_4 (p0 : Vec F S10000x100 .bf16) (y : S10000x100.Idx) :
    ∃ pc ∈ ([⟨r0_3, p0⟩] : List (View.Piece (Elt F) S10000x100 .bf16)), y ∈ pc.1.set :=
  View.cover_of_tiled [⟨r0_3, p0⟩] S10000x100.size (by rfl) y

/-! ## The body's triple -/

set_option maxHeartbeats 1000000 in
/-- The kernel body on whole staging memrefs, the inputs' at read contents xW and the output's at anything, runs to
    the continuation holding the inputs' as they were and the output's at out0_4 of the inputs': the printed function
    is its skeleton, whose loads read the inputs' contents and whose one store overwrites the whole output buffer
    (what it read of that buffer beforehand is unused). -/
theorem sound_kernel0 (c : Dev nD) (E : Set ℕ) (i : grid0.Coords) (arg0 : Memref sig .tc .vmem S10000x1 .f32) (harg0 : arg0.IsWhole) (arg1 : Memref sig .tc .vmem S1x100 .f32) (harg1 : arg1.IsWhole) (arg2 : Memref sig .tc .vmem S1x100 .f32) (harg2 : arg2.IsWhole) (arg3 : Memref sig .tc .vmem S100x100 .f32) (harg3 : arg3.IsWhole) (arg4 : Memref sig .tc .vmem S10000x100 .bf16) (harg4 : arg4.IsWhole)
    (x0 : Vec F S10000x1 .f32) (x1 : Vec F S1x100 .f32) (x2 : Vec F S1x100 .f32) (x3 : Vec F S100x100 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__fused_transform_layer1_kernel i arg0 harg0 arg1 harg1 arg2 harg2 arg3 harg3 arg4 harg4) K := by
  simp only [cc0__fused_transform_layer1_kernel_eq_skeleton]; unfold cc0__fused_transform_layer1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them (V); after the body at point t
    each input's buffer at its block and the output's at out0_4 of the input blocks; the invariant the class's
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (before0_W), so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Frame

end
-- ==== Proof.BitsTransform.lean ====
/- The class-A half of the frame for REGION 1 (custom_call 1, the second fused transform layer) of the program's
   @main, stated at a PARAMETER V: the TensorCore's buffer contents when the region is entered. Each window's block
   at a grid point read off its array; what the body leaves in the output window's staging buffer, as the canonical
   contents of its one whole-block store over the skeleton's payload of the three loaded input blocks; the body's
   triple; the pipeline's proof data; and the body obligation at every grid point. Generic in the float model F. -/
import proofs.«429599_j46402826666302_2_alg».proof.Proof.Gen.Kernel.Launch
import proofs.«429599_j46402826666302_2_alg».proof.Proof.Gen.Kernel.Skeleton
import proofs.«429599_j46402826666302_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axes
set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 1 of @main: custom_call 1 (pipeline 1), at the entry contents V -/

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is V's (hA) and whose body leaves the block in place (hafter): an input the body leaves in place
    holds what a fetch there would put (unfetched, the index has not moved); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (constant block index: fetched at the first point only, in place ever after). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (constant block index). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_0 : Rect S10000x100 := Rect.unit (s := S10000x100) ![0, 0] S10000x100.size inb_S10000x100_S10000x100_0_0
abbrev r1_1 : Rect S1x100 := Rect.unit (s := S1x100) ![0, 0] S1x100.size inb_S1x100_S1x100_0_0
abbrev r1_2 : Rect S100x100 := Rect.unit (s := S100x100) ![0, 0] S100x100.size inb_S100x100_S100x100_0_0

/-! ## What the body leaves in the output window's buffer -/

/-- Window 3's staging buffer after the body, from the input windows' blocks: its one store as a piece, the
    payload the skeleton's over what the three loads read. -/
def out1_3 (x0 : Vec F S10000x100 .f32) (x1 : Vec F S1x100 .f32) (x2 : Vec F S100x100 .f32) : Vec F S10000x100 .bf16 :=
  View.canon [⟨r1_0, k1_pay1 (View.ld x0 r1_0) (View.ld x1 r1_1) (View.ld x2 r1_2)⟩]

/-- The store's rectangle is the whole buffer (checked by evaluation), so it covers it. -/
theorem cover1_3 (p0 : Vec F S10000x100 .bf16) (y : S10000x100.Idx) :
    ∃ pc ∈ ([⟨r1_0, p0⟩] : List (View.Piece (Elt F) S10000x100 .bf16)), y ∈ pc.1.set :=
  View.cover_of_tiled [⟨r1_0, p0⟩] S10000x100.size (by rfl) y

/-! ## The body's triple -/

set_option maxHeartbeats 1000000 in
/-- The kernel body on whole staging memrefs, the inputs' at read contents xW and the output's at anything, runs to
    the continuation holding the inputs' as they were and the output's at out1_3 of the inputs': the printed function
    is its skeleton, whose loads read the inputs' contents and whose one store overwrites the whole output buffer
    (what it read of that buffer beforehand is unused). -/
theorem sound_kernel1 (c : Dev nD) (E : Set ℕ) (i : grid1.Coords) (arg0 : Memref sig .tc .vmem S10000x100 .f32) (harg0 : arg0.IsWhole) (arg1 : Memref sig .tc .vmem S1x100 .f32) (harg1 : arg1.IsWhole) (arg2 : Memref sig .tc .vmem S100x100 .f32) (harg2 : arg2.IsWhole) (arg3 : Memref sig .tc .vmem S10000x100 .bf16) (harg3 : arg3.IsWhole)
    (x0 : Vec F S10000x100 .f32) (x1 : Vec F S1x100 .f32) (x2 : Vec F S100x100 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__fused_transform_kernel i arg0 harg0 arg1 harg1 arg2 harg2 arg3 harg3) K := by
  simp only [cc1__fused_transform_kernel_eq_skeleton]; unfold cc1__fused_transform_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them (V); after the body at point t
    each input's buffer at its block and the output's at out1_3 of the input blocks; the invariant the class's
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (before1_W), so the body's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Frame

end
-- ==== Proof.BitsPoolRuns.lean ====
/- The frame of region 2 (the pooled linear kernel, a grid of 20 points, one scratch accumulator carried between points):
   what its three control cases share — the body's branch conditions decided over the grid, where the output window is
   idle, the staging and scratch memrefs, the region invariant with the scratch as an owned memref. -/
import proofs.«429599_j46402826666302_2_alg».proof.Proof.Gen.Kernel.Launch
import proofs.«429599_j46402826666302_2_alg».proof.Proof.Gen.Kernel.Skeleton
import proofs.«429599_j46402826666302_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Regions

/-! ## The body's branch conditions -/

/-- The condition of the body's first conditional, from the grid coordinate (the skeleton's scalar chain). -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)

/-- The condition of the body's second conditional. -/
abbrev cond2_1 (i : grid2.Coords) : Prop := k2_cond2 i = 1#1
/-- It holds at the last point only — decided over the grid. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- At the point of case A the output window is idle: the case stores nothing into it. -/
theorem idleAt2_6_A : ∀ t : Fin cfg2.N, cond2_0 (grid2.coords t) → ¬cond2_1 (grid2.coords t) → cfg2.idle 6 (grid2.coords t) = true := by decide +kernel
/-- At the point of case A the pipeline does not write the output's block back. -/
theorem noFlush2_6_A : ∀ t : Fin cfg2.N, cond2_0 (grid2.coords t) → ¬cond2_1 (grid2.coords t) → (cfg2.win 6).flush t = false := by decide +kernel
/-- At the points of case B the output window is idle. -/
theorem idleAt2_6_B : ∀ t : Fin cfg2.N, ¬cond2_0 (grid2.coords t) → ¬cond2_1 (grid2.coords t) → cfg2.idle 6 (grid2.coords t) = true := by decide +kernel
/-- At the points of case B the pipeline does not write the output's block back. -/
theorem noFlush2_6_B : ∀ t : Fin cfg2.N, ¬cond2_0 (grid2.coords t) → ¬cond2_1 (grid2.coords t) → (cfg2.win 6).flush t = false := by decide +kernel
/-- At the point of case C the output window is live: the case stores into it. -/
theorem liveAt2_6_C : ∀ t : Fin cfg2.N, ¬cond2_0 (grid2.coords t) → cond2_1 (grid2.coords t) → cfg2.idle 6 (grid2.coords t) = false := by decide +kernel

/-! ## The staging and scratch memrefs -/

/-- The staging buffer of output window 6, through which its contents are stated. -/
abbrev VO2_6 : View sig .tc .vmem S128x8 .f32 := (Memref.whole cc2_stg6_0 : Memref sig .tc .vmem S128x8 .f32).view
/-- Each window's current staging memref at point `t`, spelled as the pipeline passes it, and its wholeness. -/
abbrev ms2_0 (t : Fin cfg2.N) : Memref sig .tc .vmem S5000x100 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x100 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S100x8 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x8 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x8 .f32 := win2_6.stage (cfg2.slots t 6)
abbrev hs2_6 (t : Fin cfg2.N) : (ms2_6 t).IsWhole := hstage2_6 ((cfg2.slots t 6).cast nbuf2_6)
/-- The scratch operand: a whole scoped buffer of the kernel's own, passed beside the windows. -/
abbrev scM2_0 : Memref sig .tc .vmem S128x100 .f32 := Memref.whole cc2_scratch0
/-- The scratch the kernel carries between points, as a view: what it holds is stated through it. -/
abbrev VS2_0 : View sig .tc .vmem S128x100 .f32 := scM2_0.view

/-! ## The region invariant -/

/-- The core's scoped buffers that belong to the other two regions (their staging buffers), each whole at some contents: the
    body neither reads nor writes them. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- Separating conjunction is associative, as an equation. -/
theorem sep_assoc_eq2 (P Q R : sProp 𝕄) : iprop((P ∗ Q) ∗ R) = iprop(P ∗ Q ∗ R) := equiv_iff.mp ⟨BI.sep_assoc, BI.sep_assoc'⟩

/-- The region invariant with the scratch operand as a memref owned at some contents, beside the other regions' buffers and the
    generator register: what the body obligation hands the run and takes back. -/
theorem PhiA2_eq (c : Dev nD) :
    (Pipeline.ΦA spec2 c : sProp 𝕄)
      = iprop(iprop(rest2 (F := F) c ∗ (∃ d, owns (c : Thread nD τ) scM2_0 fullShare d)) ∗ (∃ r, prngReg c r)) := by
  unfold Pipeline.ΦA; rw [scopedRest2_eq]; unfold rest2; simp only [scM2_0, owns_whole, sep_assoc_eq2]; try rfl

end Cert.Kernel.Frame

end
-- ==== Proof.BitsPoolRunA.lean ====
/- The frame of region 2: the whole-body run of the kernel in one control case (the body's triple over its skeleton; the
   pieces each buffer ends with are the witness). -/
import proofs.«429599_j46402826666302_2_alg».proof.Proof.BitsPoolRuns

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the carried scratch, as pieces (last first), IN CASE A
    (the first conditional taken, the second not: the grid's first point), WITH the proof that on whole staging memrefs — the
    inputs' at their contents, the output's (no store: idle at the case's points) at contents handed back untouched, the scratch at
    anything — the body runs to the continuation holding the inputs' as they were and the scratch with its pieces written. -/
noncomputable def kernelRun2_A (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) :
    Σ' (L6 : List (View.Piece (Elt F) S128x8 .f32)), { LS0 : List (View.Piece (Elt F) S128x100 .f32) //
      ∀ (xi6 : Vec F S128x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7 arg8 harg8) K } := by
  refine ⟨[], ?_, fun xi6 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.Kernel.Frame

end
-- ==== Proof.BitsPoolRunB.lean ====
/- The frame of region 2: the whole-body run of the kernel in one control case (the body's triple over its skeleton; the
   pieces each buffer ends with are the witness). -/
import proofs.«429599_j46402826666302_2_alg».proof.Proof.BitsPoolRunA

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The same IN CASE B (neither conditional taken: the points strictly between the first and the last): the scratch
    enters at the contents the point before left, the output is idle. -/
noncomputable def kernelRun2_B (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) :
    Σ' (L6 : List (View.Piece (Elt F) S128x8 .f32)), { LS0 : List (View.Piece (Elt F) S128x100 .f32) //
      ∀ (xi6 : Vec F S128x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7 arg8 harg8) K } := by
  refine ⟨[], ?_, fun xi6 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.Kernel.Frame

end
-- ==== Proof.BitsPoolRunC.lean ====
/- The frame of region 2: the whole-body run of the kernel in one control case (the body's triple over its skeleton; the
   pieces each buffer ends with are the witness). -/
import proofs.«429599_j46402826666302_2_alg».proof.Proof.BitsPoolRunB

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The same IN CASE C (the first conditional not taken, the second taken: the grid's last point): the scratch enters at the
    contents the point before left, the output's memref at anything, and leaves with its pieces written. -/
noncomputable def kernelRun2_C (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) :
    Σ' (L6 : List (View.Piece (Elt F) S128x8 .f32)), { LS0 : List (View.Piece (Elt F) S128x100 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7 arg8 harg8) K } := by
  refine ⟨?_, ?_, fun E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Frame

end
-- ==== Proof.BitsPoolData.lean ====
/- The frame of region 2: what the output window and the carried scratch hold, per control case (the runs' pieces read back)
   and point by point (the accumulation), the region invariant point by point, and the pipeline's proof data. -/
import proofs.«429599_j46402826666302_2_alg».proof.Proof.BitsPoolRunC

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into output window 6 (the window is idle at its points and not written back there): no pieces —
    a placeholder (junk read back) that nothing consults. -/
def out2_A_6 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) : Vec F S128x8 .f32 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4 x5).1)

/-- Case A's pieces for the scratch, which the kernel carries between points, cover it (whole-buffer stores). -/
theorem scover2_A_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (y : S128x100.Idx) :
    ∃ pc ∈ (kernelRun2_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).2.1 S128x100.size (by sl_kernel_rfl) y

/-- What case A leaves in the scratch: its pieces read back over junk. -/
def sout2_A_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) : Vec F S128x100 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4 x5).2.1)

/-- Case B stores nothing into output window 6 (the window is idle at its points and not written back there): no pieces —
    a placeholder (junk read back) that nothing consults. -/
def out2_B_6 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) : Vec F S128x8 .f32 :=
  VO2_6.read (Elt F) (VO2_6.writes (Elt F) VO2_6.junk (kernelRun2_B c i arg1 harg1 arg2 harg2 arg3 harg3 arg4 harg4 arg5 harg5 arg6 harg6 arg7 harg7 arg8 harg8 hc0 hc1 x0 x1 x2 x3 x4 x5 xs0).1)

/-- Case B's pieces for the scratch, which the kernel carries between points, cover it (whole-buffer stores). -/
theorem scover2_B_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) (y : S128x100.Idx) :
    ∃ pc ∈ (kernelRun2_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 x5 xs0).2.1 S128x100.size (by sl_kernel_rfl) y

/-- What case B leaves in the scratch: its pieces read back over junk. -/
def sout2_B_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) : Vec F S128x100 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 x5 xs0).2.1)

/-- Case C's pieces for output window 6 tile its block (one store of the whole block), so they cover it. -/
theorem cover2_C_6 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) (y : S128x8.Idx) :
    ∃ pc ∈ (kernelRun2_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).1 S128x8.size (by sl_kernel_rfl) y

/-- What case C leaves in output window 6's staging buffer: its pieces read back over junk. -/
def out2_C_6 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) : Vec F S128x8 .f32 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 x5 xs0).1)

/-- Case C's pieces for the scratch, which the kernel carries between points, cover it (whole-buffer stores). -/
theorem scover2_C_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) (y : S128x100.Idx) :
    ∃ pc ∈ (kernelRun2_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).2.1 S128x100.size (by sl_kernel_rfl) y

/-- What case C leaves in the scratch: its pieces read back over junk. -/
def sout2_C_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) : Vec F S128x100 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 x5 xs0).2.1)

section Regions
-- the TensorCore's buffer contents when the region is entered: the parameter the region's half is stated at
variable (V : (c : Dev nD) → (b : Ref sig .tc) → Buf (Elt F) ((c : Thread nD τ).loc b))

/-! ## What the output and the scratch hold after each point -/

/-- THE ACCUMULATION. What output window 6's staging buffer and the scratch the kernel carries between points hold after the body at
    position `n` (a pair: the output, then the scratch): the case the closed forms select at `n`, run at the point's memrefs and
    input blocks, the scratch entering at what this leaves at `n - 1`. An assignment of the conditions no point meets is no case. -/
def outsAt2 (c : Dev nD) : (n : ℕ) → n < cfg2.N → Vec F S128x8 .f32 × Vec F S128x100 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 20 = 0 then
      if h1 : (n + 1) % 20 = 19 then
        False.elim (by have hN : n + 1 < 20 := lt_of_lt_of_eq hn (show cfg2.N = 20 from N_2); omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 20 = 19 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- `outsAt2` at a point of case A: that case's contents. -/
theorem outsAt2_A (c : Dev nD) (t : Fin cfg2.N) (h0 : t.val % 20 = 0) (h1 : ¬t.val % 20 = 19) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 20 = 0) (h1 : ¬t.val % 20 = 19) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 20 = 0) (h1 : t.val % 20 = 19) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point the class's (every scoped buffer that is no staging buffer
    of the region at anything, the generator register at some state); afterwards the other regions' buffers at anything, the carried
    scratch at what the point before left in it (`outsAt2`'s second component), and the generator register at some state. -/
def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(rest2 (F := F) c ∗ owns (c : Thread nD τ) scM2_0 fullShare ((outsAt2 V c n hn).2)) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(rest2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- Input window 0's current staging buffer holds its block at every point, fetched there or not, for ANY proof data whose
    array is `V`'s and whose body leaves the block in place (unfetched, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof data whose
    array is `V`'s and whose body leaves the block in place (unfetched, the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof data whose
    array is `V`'s and whose body leaves the block in place (unfetched, the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof data whose
    array is `V`'s and whose body leaves the block in place (unfetched, the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof data whose
    array is `V`'s and whose body leaves the block in place (unfetched, the block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for ANY proof data whose
    array is `V`'s and whose body leaves the block in place (unfetched, the block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The proof data of the region's pipeline on core `c`: the arrays as the region finds them (`V`); after the body at point `t`
    each input's buffer at its block and the output's at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

end Regions

end Cert.Kernel.Frame

end
-- ==== Proof.BitsPoolBody.lean ====
/- The frame of region 2: the body obligation of its pipeline at a generic point (the point's control case selected by the
   closed forms, that case's run applied, the carried scratch handed over and taken back through the invariant), and the
   invariant's two ends. -/
import proofs.«429599_j46402826666302_2_alg».proof.Proof.BitsPoolData

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which case the point is in; so that case's run
    applies; the invariant hands the body the carried scratch at what the point before left (at anything at the first point) beside
    the other regions' buffers and the generator register, and takes the scratch back at this point's contents (its pieces cover it);
    the output window is handed back untouched where it is idle and at its covering pieces at the last point; the core owes nothing
    throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 20 = 0
  · by_cases h1 : t.val % 20 = 19
    · exfalso; omega
    · rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · exfalso; omega
  · by_cases h1 : t.val % 20 = 19
    · rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover2_C_6 c _ _ _ _ _ _ _ _ _ _ _ _ _ _ _ _ _ _ _ _ _ _ _ _ _ _)
    · rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Regions

end Cert.Kernel.Frame

end
-- ==== Proof.BitsRun.lean ====
/- THE RUN of the frame proof of the program: @main is three stretches of host operations and three kernel regions
   (stretch 0, region 0, stretch 1, region 1, stretch 2, region 2; nothing after region 2). The buffer contents at
   every boundary between two items as a fold from the launch memory (a stretch's operations applied in order; a
   region's arrays at what its write-backs leave, every other buffer as entered); each argument array read back
   through the fold to its launch contents; every pipeline's proof data at its region's entry contents; a host
   segment per stretch and a region segment per kernel region over the thread state "every unscoped buffer at the
   boundary's contents, the generator register at some state, nothing owed"; the several-region launch over them;
   and the frame claim at any float model F. Regions 0 and 1 keep the class invariant (the scoped rest and the
   generator register, untouched); region 2 carries a scratch between grid points inside its own invariant, entered
   from the class invariant and giving it back at the end. -/
import proofs.«429599_j46402826666302_2_alg».proof.Proof.Gen.Kernel.Launch
import proofs.«429599_j46402826666302_2_alg».proof.Proof.Gen.Kernel.Skeleton
import proofs.«429599_j46402826666302_2_alg».proof.Proof.Gen.Kernel.Points
import proofs.«429599_j46402826666302_2_alg».proof.Proof.Gen.Kernel.Regions
import proofs.«429599_j46402826666302_2_alg».proof.Proof.BitsExpand
import proofs.«429599_j46402826666302_2_alg».proof.Proof.BitsTransform
import proofs.«429599_j46402826666302_2_alg».proof.Proof.BitsPoolBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships among the program's references recurse past the default depth
set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses under which the arrays and the unscoped rest rejoin. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A reference `hostOps0` does not write holds after the stretch what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses under which the arrays and the unscoped rest rejoin. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A reference `hostOps1` does not write holds after the stretch what it held before. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses under which the arrays and the unscoped rest rejoin. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A reference `hostOps2` does not write holds after the stretch what it held before. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-! ## The arguments end as launched: no host operation writes one, and a region reads it through an input window
    (handing the array back as entered) or bypasses it, so the fold at an argument's buffer walks back to the launch
    memory -/

/-- `main_arg0` ends as launched: no host operation writes it; every region bypasses it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- `main_arg1` ends as launched: no host operation writes it; every region bypasses it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg2` ends as launched: no host operation writes it; every region bypasses it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- `main_arg3` ends as launched: no host operation writes it; region 0 reads it through its input window 1 and hands it back as entered; the other regions bypass it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of m ρ c main_arg3 (by decide)
    _ = m ((c : Thread nD τ).loc main_arg3) := rfl

/-- `main_arg4` ends as launched: no host operation writes it; every region bypasses it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- `main_arg5` ends as launched: no host operation writes it; region 0 reads it through its input window 3 and hands it back as entered; the other regions bypass it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := W1_of m ρ c main_arg5 (by decide)
    _ = m ((c : Thread nD τ).loc main_arg5) := rfl

/-- `main_arg6` ends as launched: no host operation writes it; every region bypasses it. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` ends as launched: no host operation writes it; region 1 reads it through its input window 2 and hands it back as entered; the other regions bypass it. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := (W4_arr m ρ c 2).trans (((dat1 (V3 m ρ) c).arrAt_in 2 rfl _).trans (A_eq1 (V3 m ρ) c 2))
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- `main_arg8` ends as launched: no host operation writes it; every region bypasses it. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- `main_arg9` ends as launched: no host operation writes it; region 2 reads it through its input window 4 and hands it back as entered; the other regions bypass it. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := (W6_arr m ρ c 4).trans (((dat2 (V5 m ρ) c).arrAt_in 4 rfl _).trans (A_eq2 (V5 m ρ) c 4))
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-- `main_arg10` ends as launched: no host operation writes it; every region bypasses it. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-- The result array ends at what region 2's write-backs leave in its output window's array. -/
theorem W6_result (c : Dev nD) : W6 m ρ c (Proc.devRef .tc main_v82) = (dat2 (V5 m ρ) c).arrAt 6 cfg2.N :=
  W6_arr m ρ c 6

/-! # The proof data family and the thread state -/

/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post` is
    then those references at the stretch's operations applied to `W c`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the launch's chain ends at it BESIDE the core owing nothing): every
    unscoped buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! # The regions as segments -/

-- a library lemma stated over the pinned configuration unifies with the printed one only when unification may
-- unfold plain definitions in a metavariable's type
set_option backward.isDefEq.respectTransparency.types false in
/-- REGION 0 (custom_call 0) over the thread state: entered from every unscoped buffer at `W1`, left at `W2`
    (what the next segment is entered from). Its arrays split out of the unscoped buffers and put back at the
    exit contents; the generator register into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 (custom_call 1) over the thread state: entered from every unscoped buffer at `W3`, left at `W4`
    (what the next segment is entered from). Its arrays split out of the unscoped buffers and put back at the
    exit contents; the generator register into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 (custom_call 2) over the thread state: entered from every unscoped buffer at `W5`, left at `W6`
    (what the launch reads at the end). Its arrays split out of the unscoped buffers and put back at the
    exit contents; the generator register and the scoped rest into the region's own invariant at its first point and out of it at its last (the carried scratch's contents named inside, forgotten at the end); nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m ρ 2 c).Φ 0 from hin2 (V5 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 6 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: @main is the chain of its items, and the segments' run is the chain of their
    fragments, which are those items one by one. -/
theorem main_run (c : Dev nD) : main (F := F) c = Pipeline.Seg.run (segs m ρ) := by
  rw [main_chain c, Pipeline.Seg.run_eq_chain]
  rfl

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's every unscoped buffer holds the last
    boundary's contents `W6`: the several-region launch over the segments, the last thread state read against the
    final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- THE FRAME: at the compiled mesh, from any memory with zero counters, every weakly fair execution of @main on the
    TensorCores terminates, nothing faulting, and every final state has the eleven argument arrays as launched: each
    argument's buffer is an unscoped buffer, read at the last boundary's contents, which the fold walks back to the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (run_all m ρ)

end Cert.Kernel.Frame

end
-- ==== Proof.IdealExpand.lean ====
/- The class-A half of the frame for REGION 0 (custom_call 0, the first fused transform layer) of the program's
   @main, stated at a PARAMETER V: the TensorCore's buffer contents when the region is entered. Each window's block
   at a grid point read off its array; what the body leaves in the output window's staging buffer, as the canonical
   contents of its one whole-block store over the skeleton's payload of the four loaded input blocks; the body's
   triple; the pipeline's proof data; and the body obligation at every grid point. Generic in the float model F. -/
import proofs.«429599_j46402826666302_2_alg».proof.Proof.Gen.KernelIdeal.Launch
import proofs.«429599_j46402826666302_2_alg».proof.Proof.Gen.KernelIdeal.Skeleton
import proofs.«429599_j46402826666302_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axes
set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0 (pipeline 0), at the entry contents V -/

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is V's (hA) and whose body leaves the block in place (hafter): an input the body leaves in place
    holds what a fetch there would put (unfetched, the index has not moved); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1 (constant block index: fetched at the first point only, in place ever after). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2 (constant block index). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same of input window 3 (constant block index). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S10000x1 := Rect.unit (s := S10000x1) ![0, 0] S10000x1.size inb_S10000x1_S10000x1_0_0
abbrev r0_1 : Rect S1x100 := Rect.unit (s := S1x100) ![0, 0] S1x100.size inb_S1x100_S1x100_0_0
abbrev r0_2 : Rect S100x100 := Rect.unit (s := S100x100) ![0, 0] S100x100.size inb_S100x100_S100x100_0_0
abbrev r0_3 : Rect S10000x100 := Rect.unit (s := S10000x100) ![0, 0] S10000x100.size inb_S10000x100_S10000x100_0_0

/-! ## What the body leaves in the output window's buffer -/

/-- Window 4's staging buffer after the body, from the input windows' blocks: its one store as a piece, the
    payload the skeleton's over what the four loads read. -/
def out0_4 (x0 : Vec F S10000x1 .f32) (x1 : Vec F S1x100 .f32) (x2 : Vec F S1x100 .f32) (x3 : Vec F S100x100 .f32) : Vec F S10000x100 .bf16 :=
  View.canon [⟨r0_3, k0_pay1 (View.ld x0 r0_0) (View.ld x1 r0_1) (View.ld x2 r0_1) (View.ld x3 r0_2)⟩]

/-- The store's rectangle is the whole buffer (checked by evaluation), so it covers it. -/
theorem cover0_4 (p0 : Vec F S10000x100 .bf16) (y : S10000x100.Idx) :
    ∃ pc ∈ ([⟨r0_3, p0⟩] : List (View.Piece (Elt F) S10000x100 .bf16)), y ∈ pc.1.set :=
  View.cover_of_tiled [⟨r0_3, p0⟩] S10000x100.size (by rfl) y

/-! ## The body's triple -/

set_option maxHeartbeats 1000000 in
/-- The kernel body on whole staging memrefs, the inputs' at read contents xW and the output's at anything, runs to
    the continuation holding the inputs' as they were and the output's at out0_4 of the inputs': the printed function
    is its skeleton, whose loads read the inputs' contents and whose one store overwrites the whole output buffer
    (what it read of that buffer beforehand is unused). -/
theorem sound_kernel0 (c : Dev nD) (E : Set ℕ) (i : grid0.Coords) (arg0 : Memref sig .tc .vmem S10000x1 .f32) (harg0 : arg0.IsWhole) (arg1 : Memref sig .tc .vmem S1x100 .f32) (harg1 : arg1.IsWhole) (arg2 : Memref sig .tc .vmem S1x100 .f32) (harg2 : arg2.IsWhole) (arg3 : Memref sig .tc .vmem S100x100 .f32) (harg3 : arg3.IsWhole) (arg4 : Memref sig .tc .vmem S10000x100 .bf16) (harg4 : arg4.IsWhole)
    (x0 : Vec F S10000x1 .f32) (x1 : Vec F S1x100 .f32) (x2 : Vec F S1x100 .f32) (x3 : Vec F S100x100 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__fused_transform_layer1_kernel i arg0 harg0 arg1 harg1 arg2 harg2 arg3 harg3 arg4 harg4) K := by
  simp only [cc0__fused_transform_layer1_kernel_eq_skeleton]; unfold cc0__fused_transform_layer1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them (V); after the body at point t
    each input's buffer at its block and the output's at out0_4 of the input blocks; the invariant the class's
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (before0_W), so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Frame

end
-- ==== Proof.IdealTransform.lean ====
/- The class-A half of the frame for REGION 1 (custom_call 1, the second fused transform layer) of the program's
   @main, stated at a PARAMETER V: the TensorCore's buffer contents when the region is entered. Each window's block
   at a grid point read off its array; what the body leaves in the output window's staging buffer, as the canonical
   contents of its one whole-block store over the skeleton's payload of the three loaded input blocks; the body's
   triple; the pipeline's proof data; and the body obligation at every grid point. Generic in the float model F. -/
import proofs.«429599_j46402826666302_2_alg».proof.Proof.Gen.KernelIdeal.Launch
import proofs.«429599_j46402826666302_2_alg».proof.Proof.Gen.KernelIdeal.Skeleton
import proofs.«429599_j46402826666302_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axes
set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 1 of @main: custom_call 1 (pipeline 1), at the entry contents V -/

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is V's (hA) and whose body leaves the block in place (hafter): an input the body leaves in place
    holds what a fetch there would put (unfetched, the index has not moved); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (constant block index: fetched at the first point only, in place ever after). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (constant block index). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_0 : Rect S10000x100 := Rect.unit (s := S10000x100) ![0, 0] S10000x100.size inb_S10000x100_S10000x100_0_0
abbrev r1_1 : Rect S1x100 := Rect.unit (s := S1x100) ![0, 0] S1x100.size inb_S1x100_S1x100_0_0
abbrev r1_2 : Rect S100x100 := Rect.unit (s := S100x100) ![0, 0] S100x100.size inb_S100x100_S100x100_0_0

/-! ## What the body leaves in the output window's buffer -/

/-- Window 3's staging buffer after the body, from the input windows' blocks: its one store as a piece, the
    payload the skeleton's over what the three loads read. -/
def out1_3 (x0 : Vec F S10000x100 .f32) (x1 : Vec F S1x100 .f32) (x2 : Vec F S100x100 .f32) : Vec F S10000x100 .bf16 :=
  View.canon [⟨r1_0, k1_pay1 (View.ld x0 r1_0) (View.ld x1 r1_1) (View.ld x2 r1_2)⟩]

/-- The store's rectangle is the whole buffer (checked by evaluation), so it covers it. -/
theorem cover1_3 (p0 : Vec F S10000x100 .bf16) (y : S10000x100.Idx) :
    ∃ pc ∈ ([⟨r1_0, p0⟩] : List (View.Piece (Elt F) S10000x100 .bf16)), y ∈ pc.1.set :=
  View.cover_of_tiled [⟨r1_0, p0⟩] S10000x100.size (by rfl) y

/-! ## The body's triple -/

set_option maxHeartbeats 1000000 in
/-- The kernel body on whole staging memrefs, the inputs' at read contents xW and the output's at anything, runs to
    the continuation holding the inputs' as they were and the output's at out1_3 of the inputs': the printed function
    is its skeleton, whose loads read the inputs' contents and whose one store overwrites the whole output buffer
    (what it read of that buffer beforehand is unused). -/
theorem sound_kernel1 (c : Dev nD) (E : Set ℕ) (i : grid1.Coords) (arg0 : Memref sig .tc .vmem S10000x100 .f32) (harg0 : arg0.IsWhole) (arg1 : Memref sig .tc .vmem S1x100 .f32) (harg1 : arg1.IsWhole) (arg2 : Memref sig .tc .vmem S100x100 .f32) (harg2 : arg2.IsWhole) (arg3 : Memref sig .tc .vmem S10000x100 .bf16) (harg3 : arg3.IsWhole)
    (x0 : Vec F S10000x100 .f32) (x1 : Vec F S1x100 .f32) (x2 : Vec F S100x100 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__fused_transform_kernel i arg0 harg0 arg1 harg1 arg2 harg2 arg3 harg3) K := by
  simp only [cc1__fused_transform_kernel_eq_skeleton]; unfold cc1__fused_transform_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them (V); after the body at point t
    each input's buffer at its block and the output's at out1_3 of the input blocks; the invariant the class's
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (before1_W), so the body's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Frame

end
-- ==== Proof.IdealPoolRuns.lean ====
/- The frame of region 2 (the pooled linear kernel, a grid of 20 points, one scratch accumulator carried between points):
   what its three control cases share — the body's branch conditions decided over the grid, where the output window is
   idle, the staging and scratch memrefs, the region invariant with the scratch as an owned memref. -/
import proofs.«429599_j46402826666302_2_alg».proof.Proof.Gen.KernelIdeal.Launch
import proofs.«429599_j46402826666302_2_alg».proof.Proof.Gen.KernelIdeal.Skeleton
import proofs.«429599_j46402826666302_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Regions

/-! ## The body's branch conditions -/

/-- The condition of the body's first conditional, from the grid coordinate (the skeleton's scalar chain). -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)

/-- The condition of the body's second conditional. -/
abbrev cond2_1 (i : grid2.Coords) : Prop := k2_cond2 i = 1#1
/-- It holds at the last point only — decided over the grid. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- At the point of case A the output window is idle: the case stores nothing into it. -/
theorem idleAt2_6_A : ∀ t : Fin cfg2.N, cond2_0 (grid2.coords t) → ¬cond2_1 (grid2.coords t) → cfg2.idle 6 (grid2.coords t) = true := by decide +kernel
/-- At the point of case A the pipeline does not write the output's block back. -/
theorem noFlush2_6_A : ∀ t : Fin cfg2.N, cond2_0 (grid2.coords t) → ¬cond2_1 (grid2.coords t) → (cfg2.win 6).flush t = false := by decide +kernel
/-- At the points of case B the output window is idle. -/
theorem idleAt2_6_B : ∀ t : Fin cfg2.N, ¬cond2_0 (grid2.coords t) → ¬cond2_1 (grid2.coords t) → cfg2.idle 6 (grid2.coords t) = true := by decide +kernel
/-- At the points of case B the pipeline does not write the output's block back. -/
theorem noFlush2_6_B : ∀ t : Fin cfg2.N, ¬cond2_0 (grid2.coords t) → ¬cond2_1 (grid2.coords t) → (cfg2.win 6).flush t = false := by decide +kernel
/-- At the point of case C the output window is live: the case stores into it. -/
theorem liveAt2_6_C : ∀ t : Fin cfg2.N, ¬cond2_0 (grid2.coords t) → cond2_1 (grid2.coords t) → cfg2.idle 6 (grid2.coords t) = false := by decide +kernel

/-! ## The staging and scratch memrefs -/

/-- The staging buffer of output window 6, through which its contents are stated. -/
abbrev VO2_6 : View sig .tc .vmem S128x8 .f32 := (Memref.whole cc2_stg6_0 : Memref sig .tc .vmem S128x8 .f32).view
/-- Each window's current staging memref at point `t`, spelled as the pipeline passes it, and its wholeness. -/
abbrev ms2_0 (t : Fin cfg2.N) : Memref sig .tc .vmem S5000x100 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x100 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S100x8 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x8 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x8 .f32 := win2_6.stage (cfg2.slots t 6)
abbrev hs2_6 (t : Fin cfg2.N) : (ms2_6 t).IsWhole := hstage2_6 ((cfg2.slots t 6).cast nbuf2_6)
/-- The scratch operand: a whole scoped buffer of the kernel's own, passed beside the windows. -/
abbrev scM2_0 : Memref sig .tc .vmem S128x100 .f32 := Memref.whole cc2_scratch0
/-- The scratch the kernel carries between points, as a view: what it holds is stated through it. -/
abbrev VS2_0 : View sig .tc .vmem S128x100 .f32 := scM2_0.view

/-! ## The region invariant -/

/-- The core's scoped buffers that belong to the other two regions (their staging buffers), each whole at some contents: the
    body neither reads nor writes them. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- Separating conjunction is associative, as an equation. -/
theorem sep_assoc_eq2 (P Q R : sProp 𝕄) : iprop((P ∗ Q) ∗ R) = iprop(P ∗ Q ∗ R) := equiv_iff.mp ⟨BI.sep_assoc, BI.sep_assoc'⟩

/-- The region invariant with the scratch operand as a memref owned at some contents, beside the other regions' buffers and the
    generator register: what the body obligation hands the run and takes back. -/
theorem PhiA2_eq (c : Dev nD) :
    (Pipeline.ΦA spec2 c : sProp 𝕄)
      = iprop(iprop(rest2 (F := F) c ∗ (∃ d, owns (c : Thread nD τ) scM2_0 fullShare d)) ∗ (∃ r, prngReg c r)) := by
  unfold Pipeline.ΦA; rw [scopedRest2_eq]; unfold rest2; simp only [scM2_0, owns_whole, sep_assoc_eq2]; try rfl

end Cert.KernelIdeal.Frame

end
-- ==== Proof.IdealPoolRunA.lean ====
/- The frame of region 2: the whole-body run of the kernel in one control case (the body's triple over its skeleton; the
   pieces each buffer ends with are the witness). -/
import proofs.«429599_j46402826666302_2_alg».proof.Proof.IdealPoolRuns

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the carried scratch, as pieces (last first), IN CASE A
    (the first conditional taken, the second not: the grid's first point), WITH the proof that on whole staging memrefs — the
    inputs' at their contents, the output's (no store: idle at the case's points) at contents handed back untouched, the scratch at
    anything — the body runs to the continuation holding the inputs' as they were and the scratch with its pieces written. -/
noncomputable def kernelRun2_A (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) :
    Σ' (L6 : List (View.Piece (Elt F) S128x8 .f32)), { LS0 : List (View.Piece (Elt F) S128x100 .f32) //
      ∀ (xi6 : Vec F S128x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7 arg8 harg8) K } := by
  refine ⟨[], ?_, fun xi6 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.Frame

end
-- ==== Proof.IdealPoolRunB.lean ====
/- The frame of region 2: the whole-body run of the kernel in one control case (the body's triple over its skeleton; the
   pieces each buffer ends with are the witness). -/
import proofs.«429599_j46402826666302_2_alg».proof.Proof.IdealPoolRunA

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The same IN CASE B (neither conditional taken: the points strictly between the first and the last): the scratch
    enters at the contents the point before left, the output is idle. -/
noncomputable def kernelRun2_B (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) :
    Σ' (L6 : List (View.Piece (Elt F) S128x8 .f32)), { LS0 : List (View.Piece (Elt F) S128x100 .f32) //
      ∀ (xi6 : Vec F S128x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7 arg8 harg8) K } := by
  refine ⟨[], ?_, fun xi6 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.Frame

end
-- ==== Proof.IdealPoolRunC.lean ====
/- The frame of region 2: the whole-body run of the kernel in one control case (the body's triple over its skeleton; the
   pieces each buffer ends with are the witness). -/
import proofs.«429599_j46402826666302_2_alg».proof.Proof.IdealPoolRunB

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The same IN CASE C (the first conditional not taken, the second taken: the grid's last point): the scratch enters at the
    contents the point before left, the output's memref at anything, and leaves with its pieces written. -/
noncomputable def kernelRun2_C (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) :
    Σ' (L6 : List (View.Piece (Elt F) S128x8 .f32)), { LS0 : List (View.Piece (Elt F) S128x100 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7 arg8 harg8) K } := by
  refine ⟨?_, ?_, fun E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Frame

end
-- ==== Proof.IdealPoolData.lean ====
/- The frame of region 2: what the output window and the carried scratch hold, per control case (the runs' pieces read back)
   and point by point (the accumulation), the region invariant point by point, and the pipeline's proof data. -/
import proofs.«429599_j46402826666302_2_alg».proof.Proof.IdealPoolRunC

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into output window 6 (the window is idle at its points and not written back there): no pieces —
    a placeholder (junk read back) that nothing consults. -/
def out2_A_6 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) : Vec F S128x8 .f32 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4 x5).1)

/-- Case A's pieces for the scratch, which the kernel carries between points, cover it (whole-buffer stores). -/
theorem scover2_A_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (y : S128x100.Idx) :
    ∃ pc ∈ (kernelRun2_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).2.1 S128x100.size (by sl_kernel_rfl) y

/-- What case A leaves in the scratch: its pieces read back over junk. -/
def sout2_A_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) : Vec F S128x100 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4 x5).2.1)

/-- Case B stores nothing into output window 6 (the window is idle at its points and not written back there): no pieces —
    a placeholder (junk read back) that nothing consults. -/
def out2_B_6 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) : Vec F S128x8 .f32 :=
  VO2_6.read (Elt F) (VO2_6.writes (Elt F) VO2_6.junk (kernelRun2_B c i arg1 harg1 arg2 harg2 arg3 harg3 arg4 harg4 arg5 harg5 arg6 harg6 arg7 harg7 arg8 harg8 hc0 hc1 x0 x1 x2 x3 x4 x5 xs0).1)

/-- Case B's pieces for the scratch, which the kernel carries between points, cover it (whole-buffer stores). -/
theorem scover2_B_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) (y : S128x100.Idx) :
    ∃ pc ∈ (kernelRun2_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 x5 xs0).2.1 S128x100.size (by sl_kernel_rfl) y

/-- What case B leaves in the scratch: its pieces read back over junk. -/
def sout2_B_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) : Vec F S128x100 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 x5 xs0).2.1)

/-- Case C's pieces for output window 6 tile its block (one store of the whole block), so they cover it. -/
theorem cover2_C_6 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) (y : S128x8.Idx) :
    ∃ pc ∈ (kernelRun2_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).1 S128x8.size (by sl_kernel_rfl) y

/-- What case C leaves in output window 6's staging buffer: its pieces read back over junk. -/
def out2_C_6 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) : Vec F S128x8 .f32 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 x5 xs0).1)

/-- Case C's pieces for the scratch, which the kernel carries between points, cover it (whole-buffer stores). -/
theorem scover2_C_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) (y : S128x100.Idx) :
    ∃ pc ∈ (kernelRun2_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).2.1 S128x100.size (by sl_kernel_rfl) y

/-- What case C leaves in the scratch: its pieces read back over junk. -/
def sout2_C_0 (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) : Vec F S128x100 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 x5 xs0).2.1)

section Regions
-- the TensorCore's buffer contents when the region is entered: the parameter the region's half is stated at
variable (V : (c : Dev nD) → (b : Ref sig .tc) → Buf (Elt F) ((c : Thread nD τ).loc b))

/-! ## What the output and the scratch hold after each point -/

/-- THE ACCUMULATION. What output window 6's staging buffer and the scratch the kernel carries between points hold after the body at
    position `n` (a pair: the output, then the scratch): the case the closed forms select at `n`, run at the point's memrefs and
    input blocks, the scratch entering at what this leaves at `n - 1`. An assignment of the conditions no point meets is no case. -/
def outsAt2 (c : Dev nD) : (n : ℕ) → n < cfg2.N → Vec F S128x8 .f32 × Vec F S128x100 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 20 = 0 then
      if h1 : (n + 1) % 20 = 19 then
        False.elim (by have hN : n + 1 < 20 := lt_of_lt_of_eq hn (show cfg2.N = 20 from N_2); omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 20 = 19 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- `outsAt2` at a point of case A: that case's contents. -/
theorem outsAt2_A (c : Dev nD) (t : Fin cfg2.N) (h0 : t.val % 20 = 0) (h1 : ¬t.val % 20 = 19) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 20 = 0) (h1 : ¬t.val % 20 = 19) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 20 = 0) (h1 : t.val % 20 = 19) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point the class's (every scoped buffer that is no staging buffer
    of the region at anything, the generator register at some state); afterwards the other regions' buffers at anything, the carried
    scratch at what the point before left in it (`outsAt2`'s second component), and the generator register at some state. -/
def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(rest2 (F := F) c ∗ owns (c : Thread nD τ) scM2_0 fullShare ((outsAt2 V c n hn).2)) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(rest2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- Input window 0's current staging buffer holds its block at every point, fetched there or not, for ANY proof data whose
    array is `V`'s and whose body leaves the block in place (unfetched, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof data whose
    array is `V`'s and whose body leaves the block in place (unfetched, the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof data whose
    array is `V`'s and whose body leaves the block in place (unfetched, the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof data whose
    array is `V`'s and whose body leaves the block in place (unfetched, the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof data whose
    array is `V`'s and whose body leaves the block in place (unfetched, the block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for ANY proof data whose
    array is `V`'s and whose body leaves the block in place (unfetched, the block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The proof data of the region's pipeline on core `c`: the arrays as the region finds them (`V`); after the body at point `t`
    each input's buffer at its block and the output's at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

end Regions

end Cert.KernelIdeal.Frame

end
-- ==== Proof.IdealPoolBody.lean ====
/- The frame of region 2: the body obligation of its pipeline at a generic point (the point's control case selected by the
   closed forms, that case's run applied, the carried scratch handed over and taken back through the invariant), and the
   invariant's two ends. -/
import proofs.«429599_j46402826666302_2_alg».proof.Proof.IdealPoolData

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which case the point is in; so that case's run
    applies; the invariant hands the body the carried scratch at what the point before left (at anything at the first point) beside
    the other regions' buffers and the generator register, and takes the scratch back at this point's contents (its pieces cover it);
    the output window is handed back untouched where it is idle and at its covering pieces at the last point; the core owes nothing
    throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 20 = 0
  · by_cases h1 : t.val % 20 = 19
    · exfalso; omega
    · rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · exfalso; omega
  · by_cases h1 : t.val % 20 = 19
    · rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover2_C_6 c _ _ _ _ _ _ _ _ _ _ _ _ _ _ _ _ _ _ _ _ _ _ _ _ _ _)
    · rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Regions

end Cert.KernelIdeal.Frame

end
-- ==== Proof.IdealRun.lean ====
/- THE RUN of the frame proof of the program: @main is three stretches of host operations and three kernel regions
   (stretch 0, region 0, stretch 1, region 1, stretch 2, region 2; nothing after region 2). The buffer contents at
   every boundary between two items as a fold from the launch memory (a stretch's operations applied in order; a
   region's arrays at what its write-backs leave, every other buffer as entered); each argument array read back
   through the fold to its launch contents; every pipeline's proof data at its region's entry contents; a host
   segment per stretch and a region segment per kernel region over the thread state "every unscoped buffer at the
   boundary's contents, the generator register at some state, nothing owed"; the several-region launch over them;
   and the frame claim at any float model F. Regions 0 and 1 keep the class invariant (the scoped rest and the
   generator register, untouched); region 2 carries a scratch between grid points inside its own invariant, entered
   from the class invariant and giving it back at the end. -/
import proofs.«429599_j46402826666302_2_alg».proof.Proof.Gen.KernelIdeal.Launch
import proofs.«429599_j46402826666302_2_alg».proof.Proof.Gen.KernelIdeal.Skeleton
import proofs.«429599_j46402826666302_2_alg».proof.Proof.Gen.KernelIdeal.Points
import proofs.«429599_j46402826666302_2_alg».proof.Proof.Gen.KernelIdeal.Regions
import proofs.«429599_j46402826666302_2_alg».proof.Proof.IdealExpand
import proofs.«429599_j46402826666302_2_alg».proof.Proof.IdealTransform
import proofs.«429599_j46402826666302_2_alg».proof.Proof.IdealPoolBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships among the program's references recurse past the default depth
set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses under which the arrays and the unscoped rest rejoin. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A reference `hostOps0` does not write holds after the stretch what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses under which the arrays and the unscoped rest rejoin. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A reference `hostOps1` does not write holds after the stretch what it held before. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses under which the arrays and the unscoped rest rejoin. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A reference `hostOps2` does not write holds after the stretch what it held before. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-! ## The arguments end as launched: no host operation writes one, and a region reads it through an input window
    (handing the array back as entered) or bypasses it, so the fold at an argument's buffer walks back to the launch
    memory -/

/-- `main_arg0` ends as launched: no host operation writes it; every region bypasses it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- `main_arg1` ends as launched: no host operation writes it; every region bypasses it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg2` ends as launched: no host operation writes it; every region bypasses it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- `main_arg3` ends as launched: no host operation writes it; region 0 reads it through its input window 1 and hands it back as entered; the other regions bypass it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of m ρ c main_arg3 (by decide)
    _ = m ((c : Thread nD τ).loc main_arg3) := rfl

/-- `main_arg4` ends as launched: no host operation writes it; every region bypasses it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- `main_arg5` ends as launched: no host operation writes it; region 0 reads it through its input window 3 and hands it back as entered; the other regions bypass it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := W1_of m ρ c main_arg5 (by decide)
    _ = m ((c : Thread nD τ).loc main_arg5) := rfl

/-- `main_arg6` ends as launched: no host operation writes it; every region bypasses it. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` ends as launched: no host operation writes it; region 1 reads it through its input window 2 and hands it back as entered; the other regions bypass it. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := (W4_arr m ρ c 2).trans (((dat1 (V3 m ρ) c).arrAt_in 2 rfl _).trans (A_eq1 (V3 m ρ) c 2))
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- `main_arg8` ends as launched: no host operation writes it; every region bypasses it. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- `main_arg9` ends as launched: no host operation writes it; region 2 reads it through its input window 4 and hands it back as entered; the other regions bypass it. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := (W6_arr m ρ c 4).trans (((dat2 (V5 m ρ) c).arrAt_in 4 rfl _).trans (A_eq2 (V5 m ρ) c 4))
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-- `main_arg10` ends as launched: no host operation writes it; every region bypasses it. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-- The result array ends at what region 2's write-backs leave in its output window's array. -/
theorem W6_result (c : Dev nD) : W6 m ρ c (Proc.devRef .tc main_v82) = (dat2 (V5 m ρ) c).arrAt 6 cfg2.N :=
  W6_arr m ρ c 6

/-! # The proof data family and the thread state -/

/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post` is
    then those references at the stretch's operations applied to `W c`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the launch's chain ends at it BESIDE the core owing nothing): every
    unscoped buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! # The regions as segments -/

-- a library lemma stated over the pinned configuration unifies with the printed one only when unification may
-- unfold plain definitions in a metavariable's type
set_option backward.isDefEq.respectTransparency.types false in
/-- REGION 0 (custom_call 0) over the thread state: entered from every unscoped buffer at `W1`, left at `W2`
    (what the next segment is entered from). Its arrays split out of the unscoped buffers and put back at the
    exit contents; the generator register into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 (custom_call 1) over the thread state: entered from every unscoped buffer at `W3`, left at `W4`
    (what the next segment is entered from). Its arrays split out of the unscoped buffers and put back at the
    exit contents; the generator register into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 (custom_call 2) over the thread state: entered from every unscoped buffer at `W5`, left at `W6`
    (what the launch reads at the end). Its arrays split out of the unscoped buffers and put back at the
    exit contents; the generator register and the scoped rest into the region's own invariant at its first point and out of it at its last (the carried scratch's contents named inside, forgotten at the end); nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m ρ 2 c).Φ 0 from hin2 (V5 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 6 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: @main is the chain of its items, and the segments' run is the chain of their
    fragments, which are those items one by one. -/
theorem main_run (c : Dev nD) : main (F := F) c = Pipeline.Seg.run (segs m ρ) := by
  rw [main_chain c, Pipeline.Seg.run_eq_chain]
  rfl

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's every unscoped buffer holds the last
    boundary's contents `W6`: the several-region launch over the segments, the last thread state read against the
    final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- THE FRAME: at the compiled mesh, from any memory with zero counters, every weakly fair execution of @main on the
    TensorCores terminates, nothing faulting, and every final state has the eleven argument arrays as launched: each
    argument's buffer is an unscoped buffer, read at the last boundary's contents, which the fold walks back to the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (run_all m ρ)

end Cert.KernelIdeal.Frame

end
-- ==== Proof.IdealExpandValue.lean ====
/- The VALUE half of REGION 0 (the first fused transform layer) at the ideal float values, where a float is an
   extended real, the format changes are the identity and a block product into the zero accumulator is a plain sum:
   the block product read at an index; the payload of the region's one store read at an index, relu(s·w1 + b1) @ w2;
   what every grid point writes back, as block t of ONE function of the arrays the region finds; the cover of the
   output array by the ten row blocks; and the output array after the region, index by index. -/
import proofs.«429599_j46402826666302_2_alg».proof.Proof.IdealExpand
import Idealize.ShloMosaic.Lib.Pipeline.Value
import Idealize.ShloMosaic.Lib.ValueIdx
import Idealize.ShloMosaic.Lib.ValueIdxCoords
import Idealize.ShloMosaic.PureOps.Ideal.Laws

noncomputable section

namespace Cert.KernelIdeal.RegionValue

open Cert.KernelIdeal Cert.KernelIdeal.Gen Cert.KernelIdeal.Frame Idealize.ShloMosaic Idealize.ShloMosaic.ValueIdx
open Idealize.ShloMosaic.TcCoe
open Idealize.ShloMosaic.Pipeline (Dat)
open scoped BigOperators

/-! ## The block product [10000,100] × [100,100] read at an index -/

/-- The left operand's index at output index i and contraction index q: its row is i's row (axis 0 is kept), -/
theorem lhs_blockdot_0 (i : S10000x100.Idx) (q : dot_S10000x100_S100x100_S10000x100_1_0_0_1_n_n.contr.Idx) :
    (dot_S10000x100_S100x100_S10000x100_1_0_0_1_n_n.lhsIdx i q 0).val = (i 0).val := by
  unfold DotDims.lhsIdx
  rw [dif_neg (show ¬(0 : Fin S10000x100.rank) ∈ dot_S10000x100_S100x100_S10000x100_1_0_0_1_n_n.lhsBatch by decide), dif_pos (show (0 : Fin S10000x100.rank) ∈ dot_S10000x100_S100x100_S10000x100_1_0_0_1_n_n.lhsNonContracting by decide)]
  rfl
/-- its column the contraction coordinate (axis 1 is the one contracted axis); -/
theorem lhs_blockdot_1 (i : S10000x100.Idx) (q : dot_S10000x100_S100x100_S10000x100_1_0_0_1_n_n.contr.Idx) :
    (dot_S10000x100_S100x100_S10000x100_1_0_0_1_n_n.lhsIdx i q 1).val = (q ⟨0, by decide⟩).val :=
  dot_S10000x100_S100x100_S10000x100_1_0_0_1_n_n.lhsIdx_val_of_single rfl i q
/-- the right operand's row is the contraction coordinate (axis 0 is contracted), -/
theorem rhs_blockdot_0 (i : S10000x100.Idx) (q : dot_S10000x100_S100x100_S10000x100_1_0_0_1_n_n.contr.Idx) :
    (dot_S10000x100_S100x100_S10000x100_1_0_0_1_n_n.rhsIdx i q 0).val = (q ⟨0, by decide⟩).val :=
  dot_S10000x100_S100x100_S10000x100_1_0_0_1_n_n.rhsIdx_val_of_single rfl i q
/-- and its column i's column (axis 1 is kept). -/
theorem rhs_blockdot_1 (i : S10000x100.Idx) (q : dot_S10000x100_S100x100_S10000x100_1_0_0_1_n_n.contr.Idx) :
    (dot_S10000x100_S100x100_S10000x100_1_0_0_1_n_n.rhsIdx i q 1).val = (i 1).val := by
  unfold DotDims.rhsIdx
  rw [dif_neg (show ¬(1 : Fin S100x100.rank) ∈ dot_S10000x100_S100x100_S10000x100_1_0_0_1_n_n.rhsBatch by decide), dif_pos (show (1 : Fin S100x100.rank) ∈ dot_S10000x100_S100x100_S10000x100_1_0_0_1_n_n.rhsNonContracting by decide)]
  rfl

/-- The block product into the zero accumulator, at (r, q), is the sum over the contraction coordinate k of the
    left operand at (r, k) times the right operand at (k, q): the contraction index is its one coordinate. -/
theorem blockdot_apply {φ₁ φ₂ : FTy} (a : FVec Ideal S10000x100 φ₁) (b : FVec Ideal S100x100 φ₂) (r : Fin 10000) (q : Fin 100) :
    FloatOps.matmul dot_S10000x100_S100x100_S10000x100_1_0_0_1_n_n none a b (constant S10000x100 .f32 0x00000000#32) (ix2 r q)
      = ∑ k : Fin 100, a (ix2 r k) * b (ix2 k q) := by
  rw [Ideal.matmul_constant_zero_apply, ← Equiv.sum_comp (ValueIdx.contrEquiv1 dot_S10000x100_S100x100_S10000x100_1_0_0_1_n_n 100 rfl rfl).symm]
  refine Finset.sum_congr rfl fun k _ => ?_
  have hk := ValueIdx.contrEquiv1_symm_val dot_S10000x100_S100x100_S10000x100_1_0_0_1_n_n 100 rfl rfl k
  have el : dot_S10000x100_S100x100_S10000x100_1_0_0_1_n_n.lhsIdx (ix2 r q) ((ValueIdx.contrEquiv1 dot_S10000x100_S100x100_S10000x100_1_0_0_1_n_n 100 rfl rfl).symm k) = ix2 r k := funext fun a => Fin.ext (by
    match a with
    | ⟨0, _⟩ => exact lhs_blockdot_0 _ _
    | ⟨1, _⟩ => exact (lhs_blockdot_1 _ _).trans hk)
  have er : dot_S10000x100_S100x100_S10000x100_1_0_0_1_n_n.rhsIdx (ix2 r q) ((ValueIdx.contrEquiv1 dot_S10000x100_S100x100_S10000x100_1_0_0_1_n_n 100 rfl rfl).symm k) = ix2 k q := funext fun a => Fin.ext (by
    match a with
    | ⟨0, _⟩ => exact (rhs_blockdot_0 _ _).trans hk
    | ⟨1, _⟩ => exact rhs_blockdot_1 _ _)
  rw [el, er]

/-! ## The payload of region 0's store at an index -/

/-- A row vector [1,100] broadcast down the rows reads its entry of the column. -/
theorem rowBroadcast_apply {α : Type} (x : S1x100.Idx → α) (r : Fin 10000) (k : Fin 100) :
    broadcastTo S10000x100 x broadcasts_S1x100_S10000x100 (ix2 r k) = x (ix2 0 k) :=
  broadcastTo_apply x _ (ix2 r k) (ix2 0 k) (fun a => by
    match a with
    | ⟨0, _⟩ => rfl
    | ⟨1, _⟩ => rfl)

/-- A column vector [10000,1] broadcast along the columns reads its entry of the row. -/
theorem colBroadcast_apply {α : Type} (x : S10000x1.Idx → α) (r : Fin 10000) (k : Fin 100) :
    broadcastTo S10000x100 x broadcasts_S10000x1_S10000x100 (ix2 r k) = x (ix2 r 0) :=
  broadcastTo_apply x _ (ix2 r k) (ix2 r 0) (fun a => by
    match a with
    | ⟨0, _⟩ => rfl
    | ⟨1, _⟩ => rfl)

/-- The stored block at (r, q): relu(s·w1 + b1) @ w2, the sum over k of max (s r · w1 k + b1 k) 0 times w2 (k, q). -/
theorem expand_payload_apply (x0 : Vec Ideal S10000x1 .f32) (x1 : Vec Ideal S1x100 .f32) (x2 : Vec Ideal S1x100 .f32) (x3 : Vec Ideal S100x100 .f32)
    (r : Fin 10000) (q : Fin 100) :
    k0_pay1 (F := Ideal) x0 x1 x2 x3 (ix2 r q)
      = ∑ k : Fin 100, max (x0 (ix2 r 0) * x1 (ix2 0 k) + x2 (ix2 0 k)) 0 * x3 (ix2 k q) := by
  unfold k0_pay1
  rw [truncf_apply]
  simp only [matmul]
  rw [blockdot_apply]
  refine Finset.sum_congr rfl fun k _ => ?_
  rw [truncf_apply, truncf_apply, maximumf_apply, addf_apply, mulf_apply, broadcast_apply, shapeCast_self, shapeCast_self,
    colBroadcast_apply, rowBroadcast_apply, rowBroadcast_apply]
  rw [show (FloatOps.ofBits (F := Ideal) FTy.f32 0x00000000#32) = 0 from Ideal.ofBits_zero_f32]

/-! ## From the blocks to the array -/

section Region
-- the buffer contents when the region is entered
variable (V : (c : Dev nD) → (b : Ref sig .tc) → Buf (Elt Ideal) ((c : Thread nD τ).loc b))

theorem zeroOffsets : (![0, 0] : Fin 2 → Nat) = fun _ => 0 := funext fun a => by fin_cases a <;> rfl

/-- What region 0 leaves in its output array, as ONE function of the arrays it reads: at (p, q) the sum over k of
    max (s p · w1 k + b1 k) 0 times w2 (k, q). -/
def expandOf (s : S100000x1.Idx → EReal) (w1 b1 : S1x100.Idx → EReal) (w2 : S100x100.Idx → EReal) : S100000x100.Idx → EReal :=
  fun i => ∑ k : Fin 100, max (s (ix2 (i 0) 0) * w1 (ix2 0 k) + b1 (ix2 0 k)) 0 * w2 (ix2 k (i 1))

/-- The index maps, decided over the ten grid points: the column of scalars and the output move together, block t
    at point t; the row vectors and the weight matrix are one whole block at every point. -/
theorem expand_idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK is block t of expandOf of the arrays as the region finds them. -/
theorem expand_flushed (c : Dev nD) (t : Fin cfg0.N) :
    (dat0 (F := Ideal) V c).flushed 4 t
      = ((cfg0.win 4).blk t).view.read (Elt Ideal) (expandOf (V c main_v39) (V c main_arg3) (V c main_v40) (V c main_arg5)) := by
  show (cfg0.win 4).cut (grid0.coords t) ((dat0 V c).after 4 t) = _
  rw [after0_4]
  unfold out0_4
  rw [View.canon_unit_zero zeroOffsets]
  simp only [View.ld_unit_zero (S := S10000x1) zeroOffsets, View.ld_unit_zero (S := S1x100) zeroOffsets, View.ld_unit_zero (S := S100x100) zeroOffsets]
  obtain ⟨e00, e01, e10, e11, e20, e21, e30, e31, e40, e41⟩ := expand_idx_facts t
  funext j
  obtain ⟨r, q, rfl⟩ : ∃ (r : Fin 10000) (q : Fin 100), j = ix2 r q := ⟨j 0, j 1, eq_ix2 j⟩
  show k0_pay1 (F := Ideal) (iblk0 V c 0 t) (iblk0 V c 1 t) (iblk0 V c 2 t) (iblk0 V c 3 t) (ix2 r q)
    = expandOf (V c main_v39) (V c main_arg3) (V c main_v40) (V c main_arg5) (((cfg0.win 4).blk t).view.emb (ix2 r q))
  refine (expand_payload_apply (iblk0 V c 0 t) (iblk0 V c 1 t) (iblk0 V c 2 t) (iblk0 V c 3 t) r q).trans ?_
  unfold expandOf
  refine Finset.sum_congr rfl fun k _ => ?_
  -- each input block read where the output's block says: a block's coordinate is index × size + 1 × the coordinate inside
  have h0 : (iblk0 V c 0 t : Vec Ideal S10000x1 .f32) (ix2 r 0) = V c main_v39 (ix2 (((cfg0.win 4).blk t).view.emb (ix2 r q) 0) 0) := by
    show V c main_v39 (((cfg0.win 0).blk t).view.emb (ix2 r 0)) = _
    refine congrArg (V c main_v39) (funext fun a => Fin.ext ?_)
    match a with
    | ⟨0, _⟩ => show win0_0.index t (0 : Fin 2) * 10000 + 1 * r.val = win0_4.index t (0 : Fin 2) * 10000 + 1 * r.val; omega
    | ⟨1, _⟩ => show win0_0.index t (1 : Fin 2) * 1 + 1 * 0 = 0; omega
  have h1 : (iblk0 V c 1 t : Vec Ideal S1x100 .f32) (ix2 0 k) = V c main_arg3 (ix2 0 k) := by
    show V c main_arg3 (((cfg0.win 1).blk t).view.emb (ix2 0 k)) = _
    refine congrArg (V c main_arg3) (funext fun a => Fin.ext ?_)
    match a with
    | ⟨0, _⟩ => show win0_1.index t (0 : Fin 2) * 1 + 1 * 0 = 0; omega
    | ⟨1, _⟩ => show win0_1.index t (1 : Fin 2) * 100 + 1 * k.val = k.val; omega
  have h2 : (iblk0 V c 2 t : Vec Ideal S1x100 .f32) (ix2 0 k) = V c main_v40 (ix2 0 k) := by
    show V c main_v40 (((cfg0.win 2).blk t).view.emb (ix2 0 k)) = _
    refine congrArg (V c main_v40) (funext fun a => Fin.ext ?_)
    match a with
    | ⟨0, _⟩ => show win0_2.index t (0 : Fin 2) * 1 + 1 * 0 = 0; omega
    | ⟨1, _⟩ => show win0_2.index t (1 : Fin 2) * 100 + 1 * k.val = k.val; omega
  have h3 : (iblk0 V c 3 t : Vec Ideal S100x100 .f32) (ix2 k q) = V c main_arg5 (ix2 k (((cfg0.win 4).blk t).view.emb (ix2 r q) 1)) := by
    show V c main_arg5 (((cfg0.win 3).blk t).view.emb (ix2 k q)) = _
    refine congrArg (V c main_arg5) (funext fun a => Fin.ext ?_)
    match a with
    | ⟨0, _⟩ => show win0_3.index t (0 : Fin 2) * 100 + 1 * k.val = k.val; omega
    | ⟨1, _⟩ => show win0_3.index t (1 : Fin 2) * 100 + 1 * q.val = win0_4.index t (1 : Fin 2) * 100 + 1 * q.val; omega
  rw [h0, h1, h2, h3]

/-- An index of the output array is in point t's block iff each coordinate is in the block's range on its axis. -/
theorem expand_mem_blk (t : Fin cfg0.N) (i : S100000x100.Idx) :
    i ∈ ((cfg0.win 4).blk t).view.set ↔ ∀ a : Fin 2, win0_4.index t a * S10000x100.size a ≤ (i a).val ∧ (i a).val < win0_4.index t a * S10000x100.size a + S10000x100.size a := by
  show i ∈ ((View.whole main_v41).slice (win0_4.rect t)).set ↔ _
  rw [View.set_slice_whole, Rect.mem_set_unit]
  exact Iff.rfl

/-- THE COVER: row p of the output array is in the block of point p / 10000. -/
theorem expand_cover (i : S100000x100.Idx) :
    ∃ t : Fin cfg0.N, (cfg0.win 4).flush t = true ∧ i ∈ ((cfg0.win 4).blk t).view.set := by
  have hi0 : (i 0).val < 100000 := (i 0).isLt
  have hi1 : (i 1).val < 100 := (i 1).isLt
  have hN : cfg0.N = 10 := N_0
  let t : Fin cfg0.N := ⟨(i 0).val / 10000, by rw [hN]; omega⟩
  obtain ⟨-, -, -, -, -, -, -, -, e40, e41⟩ := expand_idx_facts t
  have e40' : win0_4.index t (0 : Fin 2) = (i 0).val / 10000 := e40
  refine ⟨t, flush0_4 t, ?_⟩
  rw [expand_mem_blk]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 100 ≤ (i 1).val ∧ (i 1).val < win0_4.index t (1 : Fin 2) * 100 + 100; omega

/-- THE ARRAY after region 0: expandOf of the arrays as the region finds them. -/
theorem expand_array (c : Dev nD) :
    (dat0 (F := Ideal) V c).arrAt 4 cfg0.N = expandOf (V c main_v39) (V c main_arg3) (V c main_v40) (V c main_arg5) :=
  (dat0 (F := Ideal) V c).arrAt_eq_of_cover 4 (expandOf (V c main_v39) (V c main_arg3) (V c main_v40) (V c main_arg5))
    (fun t _ => expand_flushed V c t) expand_cover

/-- expandOf at (p, q), by unfolding. -/
theorem expandOf_apply (s : S100000x1.Idx → EReal) (w1 b1 : S1x100.Idx → EReal) (w2 : S100x100.Idx → EReal) (p : Fin 100000) (q : Fin 100) :
    expandOf s w1 b1 w2 (ix2 p q) = ∑ k : Fin 100, max (s (ix2 p 0) * w1 (ix2 0 k) + b1 (ix2 0 k)) 0 * w2 (ix2 k q) := rfl

/-- Region 0's output array at (p, q): the sum over k of max (s p · w1 k + b1 k) 0 times w2 (k, q), for whatever the
    arrays the region finds are known to be (s the column of scalars, w1 and b1 the row vectors, w2 the weights). -/
theorem expand_final (c : Dev nD) (s : Vec Ideal S100000x1 .f32) (w1 b1 : Vec Ideal S1x100 .f32) (w2 : Vec Ideal S100x100 .f32)
    (hs : V c main_v39 = s) (hw1 : V c main_arg3 = w1) (hb1 : V c main_v40 = b1) (hw2 : V c main_arg5 = w2)
    (p : Fin 100000) (q : Fin 100) :
    (dat0 (F := Ideal) V c).arrAt 4 cfg0.N (ix2 p q)
      = ∑ k : Fin 100, max (s (ix2 p 0) * w1 (ix2 0 k) + b1 (ix2 0 k)) 0 * w2 (ix2 k q) := by
  subst hs hw1 hb1 hw2
  rw [expand_array]
  rfl

end Region

end Cert.KernelIdeal.RegionValue

end
-- ==== Proof.IdealTransformValue.lean ====
/- The VALUE half of REGION 1 (the second fused transform layer) at the ideal float values: the payload of the
   region's one store read at an index, relu(a + b) @ w; what every grid point writes back, as block t of ONE function
   of the arrays the region finds; the cover of the output array by the ten row blocks; and the output array after the
   region, index by index. The block product and the row broadcast at an index are region 0's. -/
import proofs.«429599_j46402826666302_2_alg».proof.Proof.IdealTransform
import proofs.«429599_j46402826666302_2_alg».proof.Proof.IdealExpandValue

noncomputable section

namespace Cert.KernelIdeal.RegionValue

open Cert.KernelIdeal Cert.KernelIdeal.Gen Cert.KernelIdeal.Frame Idealize.ShloMosaic Idealize.ShloMosaic.ValueIdx
open Idealize.ShloMosaic.TcCoe
open Idealize.ShloMosaic.Pipeline (Dat)
open scoped BigOperators

/-! ## The payload of region 1's store at an index -/

/-- The stored block at (r, q): relu(a + b) @ w, the sum over k of max (a (r, k) + b k) 0 times w (k, q). -/
theorem transform_payload_apply (x0 : Vec Ideal S10000x100 .f32) (x1 : Vec Ideal S1x100 .f32) (x2 : Vec Ideal S100x100 .f32)
    (r : Fin 10000) (q : Fin 100) :
    k1_pay1 (F := Ideal) x0 x1 x2 (ix2 r q)
      = ∑ k : Fin 100, max (x0 (ix2 r k) + x1 (ix2 0 k)) 0 * x2 (ix2 k q) := by
  unfold k1_pay1
  rw [truncf_apply]
  simp only [matmul]
  rw [blockdot_apply]
  refine Finset.sum_congr rfl fun k _ => ?_
  rw [truncf_apply, truncf_apply, maximumf_apply, addf_apply, broadcast_apply, shapeCast_self, shapeCast_self,
    rowBroadcast_apply]
  rw [show (FloatOps.ofBits (F := Ideal) FTy.f32 0x00000000#32) = 0 from Ideal.ofBits_zero_f32]

/-! ## From the blocks to the array -/

section Region
-- the buffer contents when the region is entered
variable (V : (c : Dev nD) → (b : Ref sig .tc) → Buf (Elt Ideal) ((c : Thread nD τ).loc b))

/-- What region 1 leaves in its output array, as ONE function of the arrays it reads: at (p, q) the sum over k of
    max (a (p, k) + b k) 0 times w (k, q). -/
def transformOf (a : S100000x100.Idx → EReal) (b : S1x100.Idx → EReal) (w : S100x100.Idx → EReal) : S100000x100.Idx → EReal :=
  fun i => ∑ k : Fin 100, max (a (ix2 (i 0) k) + b (ix2 0 k)) 0 * w (ix2 k (i 1))

/-- The index maps, decided over the ten grid points: the input rows and the output move together, block t at point t;
    the row vector and the weight matrix are one whole block at every point. -/
theorem transform_idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT t WRITES BACK is block t of transformOf of the arrays as the region finds them. -/
theorem transform_flushed (c : Dev nD) (t : Fin cfg1.N) :
    (dat1 (F := Ideal) V c).flushed 3 t
      = ((cfg1.win 3).blk t).view.read (Elt Ideal) (transformOf (V c main_v55) (V c main_v56) (V c main_arg7)) := by
  show (cfg1.win 3).cut (grid1.coords t) ((dat1 V c).after 3 t) = _
  rw [after1_3]
  unfold out1_3
  rw [View.canon_unit_zero zeroOffsets]
  simp only [View.ld_unit_zero (S := S10000x100) zeroOffsets, View.ld_unit_zero (S := S1x100) zeroOffsets, View.ld_unit_zero (S := S100x100) zeroOffsets]
  obtain ⟨e00, e01, e10, e11, e20, e21, e30, e31⟩ := transform_idx_facts t
  funext j
  obtain ⟨r, q, rfl⟩ : ∃ (r : Fin 10000) (q : Fin 100), j = ix2 r q := ⟨j 0, j 1, eq_ix2 j⟩
  show k1_pay1 (F := Ideal) (iblk1 V c 0 t) (iblk1 V c 1 t) (iblk1 V c 2 t) (ix2 r q)
    = transformOf (V c main_v55) (V c main_v56) (V c main_arg7) (((cfg1.win 3).blk t).view.emb (ix2 r q))
  refine (transform_payload_apply (iblk1 V c 0 t) (iblk1 V c 1 t) (iblk1 V c 2 t) r q).trans ?_
  unfold transformOf
  refine Finset.sum_congr rfl fun k _ => ?_
  -- each input block read where the output's block says: a block's coordinate is index × size + 1 × the coordinate inside
  have h0 : (iblk1 V c 0 t : Vec Ideal S10000x100 .f32) (ix2 r k) = V c main_v55 (ix2 (((cfg1.win 3).blk t).view.emb (ix2 r q) 0) k) := by
    show V c main_v55 (((cfg1.win 0).blk t).view.emb (ix2 r k)) = _
    refine congrArg (V c main_v55) (funext fun a => Fin.ext ?_)
    match a with
    | ⟨0, _⟩ => show win1_0.index t (0 : Fin 2) * 10000 + 1 * r.val = win1_3.index t (0 : Fin 2) * 10000 + 1 * r.val; omega
    | ⟨1, _⟩ => show win1_0.index t (1 : Fin 2) * 100 + 1 * k.val = k.val; omega
  have h1 : (iblk1 V c 1 t : Vec Ideal S1x100 .f32) (ix2 0 k) = V c main_v56 (ix2 0 k) := by
    show V c main_v56 (((cfg1.win 1).blk t).view.emb (ix2 0 k)) = _
    refine congrArg (V c main_v56) (funext fun a => Fin.ext ?_)
    match a with
    | ⟨0, _⟩ => show win1_1.index t (0 : Fin 2) * 1 + 1 * 0 = 0; omega
    | ⟨1, _⟩ => show win1_1.index t (1 : Fin 2) * 100 + 1 * k.val = k.val; omega
  have h2 : (iblk1 V c 2 t : Vec Ideal S100x100 .f32) (ix2 k q) = V c main_arg7 (ix2 k (((cfg1.win 3).blk t).view.emb (ix2 r q) 1)) := by
    show V c main_arg7 (((cfg1.win 2).blk t).view.emb (ix2 k q)) = _
    refine congrArg (V c main_arg7) (funext fun a => Fin.ext ?_)
    match a with
    | ⟨0, _⟩ => show win1_2.index t (0 : Fin 2) * 100 + 1 * k.val = k.val; omega
    | ⟨1, _⟩ => show win1_2.index t (1 : Fin 2) * 100 + 1 * q.val = win1_3.index t (1 : Fin 2) * 100 + 1 * q.val; omega
  rw [h0, h1, h2]

/-- An index of the output array is in point t's block iff each coordinate is in the block's range on its axis. -/
theorem transform_mem_blk (t : Fin cfg1.N) (i : S100000x100.Idx) :
    i ∈ ((cfg1.win 3).blk t).view.set ↔ ∀ a : Fin 2, win1_3.index t a * S10000x100.size a ≤ (i a).val ∧ (i a).val < win1_3.index t a * S10000x100.size a + S10000x100.size a := by
  show i ∈ ((View.whole main_v57).slice (win1_3.rect t)).set ↔ _
  rw [View.set_slice_whole, Rect.mem_set_unit]
  exact Iff.rfl

/-- THE COVER: row p of the output array is in the block of point p / 10000. -/
theorem transform_cover (i : S100000x100.Idx) :
    ∃ t : Fin cfg1.N, (cfg1.win 3).flush t = true ∧ i ∈ ((cfg1.win 3).blk t).view.set := by
  have hi0 : (i 0).val < 100000 := (i 0).isLt
  have hi1 : (i 1).val < 100 := (i 1).isLt
  have hN : cfg1.N = 10 := N_1
  let t : Fin cfg1.N := ⟨(i 0).val / 10000, by rw [hN]; omega⟩
  obtain ⟨-, -, -, -, -, -, e30, e31⟩ := transform_idx_facts t
  have e30' : win1_3.index t (0 : Fin 2) = (i 0).val / 10000 := e30
  refine ⟨t, flush1_3 t, ?_⟩
  rw [transform_mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 100 ≤ (i 1).val ∧ (i 1).val < win1_3.index t (1 : Fin 2) * 100 + 100; omega

/-- THE ARRAY after region 1: transformOf of the arrays as the region finds them. -/
theorem transform_array (c : Dev nD) :
    (dat1 (F := Ideal) V c).arrAt 3 cfg1.N = transformOf (V c main_v55) (V c main_v56) (V c main_arg7) :=
  (dat1 (F := Ideal) V c).arrAt_eq_of_cover 3 (transformOf (V c main_v55) (V c main_v56) (V c main_arg7))
    (fun t _ => transform_flushed V c t) transform_cover

/-- transformOf at (p, q), by unfolding. -/
theorem transformOf_apply (a : S100000x100.Idx → EReal) (b : S1x100.Idx → EReal) (w : S100x100.Idx → EReal) (p : Fin 100000) (q : Fin 100) :
    transformOf a b w (ix2 p q) = ∑ k : Fin 100, max (a (ix2 p k) + b (ix2 0 k)) 0 * w (ix2 k q) := rfl

/-- Region 1's output array at (p, q): the sum over k of max (a (p, k) + b k) 0 times w (k, q), for whatever the
    arrays the region finds are known to be (a the input rows, b the row vector, w the weights). -/
theorem transform_final (c : Dev nD) (a : Vec Ideal S100000x100 .f32) (b : Vec Ideal S1x100 .f32) (w : Vec Ideal S100x100 .f32)
    (ha : V c main_v55 = a) (hb : V c main_v56 = b) (hw : V c main_arg7 = w)
    (p : Fin 100000) (q : Fin 100) :
    (dat1 (F := Ideal) V c).arrAt 3 cfg1.N (ix2 p q)
      = ∑ k : Fin 100, max (a (ix2 p k) + b (ix2 0 k)) 0 * w (ix2 k q) := by
  subst ha hb hw
  rw [transform_array]
  rfl

end Region

end Cert.KernelIdeal.RegionValue

end
-- ==== Proof.IdealPoolPayload.lean ====
/- REGION 2 (the pooled linear layer) of the idealized kernel program, VALUE side: the three payloads of its body read at
   an index, at the ideal float model (a float is an extended real, rounding conversions are the identity, arithmetic is
   exact, a matrix product into a zero accumulator is the plain sum over the contracted axis).
   * the zero splat the scratch accumulator starts from is 0 everywhere;
   * the accumulation step adds, at (g, k), the sum over the 5000 rows r of the block of
     onehot(r, g) * (a r k + b k), where onehot(r, g) is 1 when row r's word is g and 0 otherwise;
   * the output step is, at (g, j), the sum over k of (acc g k / count g) * w k j, plus the bias at j. -/
import proofs.«429599_j46402826666302_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen
open Idealize.ShloMosaic Idealize.ShloMosaic.TcCoe Idealize.SL.Sem
open Idealize.ShloMosaic.ValueIdx

/-! ## The zero splat -/

/-- The value the scratch accumulator is zeroed with is 0 at every index. -/
theorem pay_zero_apply (g : Fin 128) (k : Fin 100) : k2_pay1 (F := Ideal) (ix2 g k) = 0 := by
  unfold k2_pay1
  rw [shapeCast_self]
  exact Ideal.ofBits_zero_f32

/-! ## The accumulation step -/

/-- The one-hot entry: the signed reading of a widened one-bit comparison is 1 or 0. -/
theorem onehot_eq (a b : BitVec 32) :
    (FloatOps.sitofp (F := Ideal) .f32 ((IntOp.cmpi .eq a b).setWidth 32)) = if a = b then (1 : EReal) else 0 := by
  by_cases h : a = b
  · rw [if_pos h]
    have e1 : IntOp.cmpi .eq a b = 1#1 := by simp [IntOp.cmpi, h]
    have e2 : (BitVec.setWidth 32 (1#1 : BitVec 1)).toInt = 1 := by decide
    rw [e1]
    show (((BitVec.setWidth 32 (1#1 : BitVec 1)).toInt : ℝ) : EReal) = 1
    rw [e2]; simp
  · rw [if_neg h]
    have e1 : IntOp.cmpi .eq a b = 0#1 := by
      have hb : (a == b) = false := beq_eq_false_iff_ne.mpr h
      show BitVec.ofBool (a == b) = 0#1
      rw [hb]; rfl
    have e2 : (BitVec.setWidth 32 (0#1 : BitVec 1)).toInt = 0 := by decide
    rw [e1]
    show (((BitVec.setWidth 32 (0#1 : BitVec 1)).toInt : ℝ) : EReal) = 0
    rw [e2]; simp

/-! The operand indices of the product that contracts the 5000 rows of both operands: at output (g, k) and row r the
    left operand is read at (r, g), the right at (r, k). One lemma per axis. -/

theorem lhs_acc_0 (i : S128x100.Idx) (q : dot_S5000x128_S5000x100_S128x100_0_0_1_1_n_n.contr.Idx) :
    (dot_S5000x128_S5000x100_S128x100_0_0_1_1_n_n.lhsIdx i q 0).val = (q ⟨0, by decide⟩).val :=
  dot_S5000x128_S5000x100_S128x100_0_0_1_1_n_n.lhsIdx_val_of_single rfl i q
theorem lhs_acc_1 (i : S128x100.Idx) (q : dot_S5000x128_S5000x100_S128x100_0_0_1_1_n_n.contr.Idx) :
    (dot_S5000x128_S5000x100_S128x100_0_0_1_1_n_n.lhsIdx i q 1).val = (i 0).val := by
  unfold DotDims.lhsIdx
  rw [dif_neg (show ¬(1 : Fin S5000x128.rank) ∈ dot_S5000x128_S5000x100_S128x100_0_0_1_1_n_n.lhsBatch by decide), dif_pos (show (1 : Fin S5000x128.rank) ∈ dot_S5000x128_S5000x100_S128x100_0_0_1_1_n_n.lhsNonContracting by decide)]
  rfl
theorem rhs_acc_0 (i : S128x100.Idx) (q : dot_S5000x128_S5000x100_S128x100_0_0_1_1_n_n.contr.Idx) :
    (dot_S5000x128_S5000x100_S128x100_0_0_1_1_n_n.rhsIdx i q 0).val = (q ⟨0, by decide⟩).val :=
  dot_S5000x128_S5000x100_S128x100_0_0_1_1_n_n.rhsIdx_val_of_single rfl i q
theorem rhs_acc_1 (i : S128x100.Idx) (q : dot_S5000x128_S5000x100_S128x100_0_0_1_1_n_n.contr.Idx) :
    (dot_S5000x128_S5000x100_S128x100_0_0_1_1_n_n.rhsIdx i q 1).val = (i 1).val := by
  unfold DotDims.rhsIdx
  rw [dif_neg (show ¬(1 : Fin S5000x100.rank) ∈ dot_S5000x128_S5000x100_S128x100_0_0_1_1_n_n.rhsBatch by decide), dif_pos (show (1 : Fin S5000x100.rank) ∈ dot_S5000x128_S5000x100_S128x100_0_0_1_1_n_n.rhsNonContracting by decide)]
  rfl

/-- The accumulation step at (g, k): the scratch as loaded plus the sum over the block's rows of the one-hot entry
    times the biased row. -/
theorem pay_acc_apply (v3 : Vec Ideal S5000x100 .f32) (v5 : Vec Ideal S1x100 .f32) (v9 : Vec Ideal S5000x1 .i32) (v19 : Vec Ideal S128x100 .f32) (g : Fin 128) (k : Fin 100) :
    k2_pay2 v3 v5 v9 v19 (ix2 g k) = v19 (ix2 g k) + ∑ r : Fin 5000, (if v9 (ix2 r 0) = BitVec.ofNat 32 g.val then (1 : EReal) else 0) * (v3 (ix2 r k) + v5 (ix2 0 k)) := by
  unfold k2_pay2
  simp only [shapeCast_self]
  rw [addf_apply]
  simp only [matmul]
  rw [Ideal.matmul_constant_zero_apply, ← Equiv.sum_comp (contrEquiv1 dot_S5000x128_S5000x100_S128x100_0_0_1_1_n_n 5000 rfl rfl).symm]
  refine congrArg (v19 (ix2 g k) + ·) (Finset.sum_congr rfl fun r _ => ?_)
  have hr := contrEquiv1_symm_val dot_S5000x128_S5000x100_S128x100_0_0_1_1_n_n 5000 rfl rfl r
  have el : dot_S5000x128_S5000x100_S128x100_0_0_1_1_n_n.lhsIdx (ix2 g k) ((contrEquiv1 dot_S5000x128_S5000x100_S128x100_0_0_1_1_n_n 5000 rfl rfl).symm r) = ix2 r g := funext fun a => Fin.ext (by
    match a with
    | ⟨0, _⟩ => exact (lhs_acc_0 _ _).trans hr
    | ⟨1, _⟩ => exact lhs_acc_1 _ _)
  have er : dot_S5000x128_S5000x100_S128x100_0_0_1_1_n_n.rhsIdx (ix2 g k) ((contrEquiv1 dot_S5000x128_S5000x100_S128x100_0_0_1_1_n_n 5000 rfl rfl).symm r) = ix2 r k := funext fun a => Fin.ext (by
    match a with
    | ⟨0, _⟩ => exact (rhs_acc_0 _ _).trans hr
    | ⟨1, _⟩ => exact rhs_acc_1 _ _)
  rw [el, er, truncf_apply, truncf_apply, addf_apply]
  show FloatOps.sitofp (F := Ideal) .f32 ((IntOp.cmpi .eq (broadcastTo S5000x128 v9 broadcasts_S5000x1_S5000x128 (ix2 r g)) (iota .tc S5000x128 32 [1] iota_S5000x128_d1_w32 (ix2 r g))).setWidth 32) * _ = _
  rw [broadcastTo_apply v9 broadcasts_S5000x1_S5000x128 (ix2 r g) (ix2 r 0) (fun a => match a with | ⟨0, _⟩ => rfl | ⟨1, _⟩ => rfl),
    iota_single_apply, onehot_eq,
    broadcastTo_apply v5 broadcasts_S1x100_S5000x100 (ix2 r k) (ix2 0 k) (fun a => match a with | ⟨0, _⟩ => rfl | ⟨1, _⟩ => rfl)]

/-! ## The output step -/

/-! The operand indices of the plain [128,100] × [100,8] product: at output (g, j) and k the left operand is read at
    (g, k), the right at (k, j). One lemma per axis. -/

theorem lhs_out_0 (i : S128x8.Idx) (q : dot_S128x100_S100x8_S128x8_1_0_0_1_n_n.contr.Idx) :
    (dot_S128x100_S100x8_S128x8_1_0_0_1_n_n.lhsIdx i q 0).val = (i 0).val := by
  unfold DotDims.lhsIdx
  rw [dif_neg (show ¬(0 : Fin S128x100.rank) ∈ dot_S128x100_S100x8_S128x8_1_0_0_1_n_n.lhsBatch by decide), dif_pos (show (0 : Fin S128x100.rank) ∈ dot_S128x100_S100x8_S128x8_1_0_0_1_n_n.lhsNonContracting by decide)]
  rfl
theorem lhs_out_1 (i : S128x8.Idx) (q : dot_S128x100_S100x8_S128x8_1_0_0_1_n_n.contr.Idx) :
    (dot_S128x100_S100x8_S128x8_1_0_0_1_n_n.lhsIdx i q 1).val = (q ⟨0, by decide⟩).val :=
  dot_S128x100_S100x8_S128x8_1_0_0_1_n_n.lhsIdx_val_of_single rfl i q
theorem rhs_out_0 (i : S128x8.Idx) (q : dot_S128x100_S100x8_S128x8_1_0_0_1_n_n.contr.Idx) :
    (dot_S128x100_S100x8_S128x8_1_0_0_1_n_n.rhsIdx i q 0).val = (q ⟨0, by decide⟩).val :=
  dot_S128x100_S100x8_S128x8_1_0_0_1_n_n.rhsIdx_val_of_single rfl i q
theorem rhs_out_1 (i : S128x8.Idx) (q : dot_S128x100_S100x8_S128x8_1_0_0_1_n_n.contr.Idx) :
    (dot_S128x100_S100x8_S128x8_1_0_0_1_n_n.rhsIdx i q 1).val = (i 1).val := by
  unfold DotDims.rhsIdx
  rw [dif_neg (show ¬(1 : Fin S100x8.rank) ∈ dot_S128x100_S100x8_S128x8_1_0_0_1_n_n.rhsBatch by decide), dif_pos (show (1 : Fin S100x8.rank) ∈ dot_S128x100_S100x8_S128x8_1_0_0_1_n_n.rhsNonContracting by decide)]
  rfl

/-- The output step at (g, j): the sum over k of the accumulator divided by the group's count, times the weight, plus
    the bias. -/
theorem pay_out_apply (v27 : Vec Ideal S128x100 .f32) (v28 : Vec Ideal S128x1 .f32) (v33 : Vec Ideal S100x8 .f32) (v36 : Vec Ideal S1x8 .f32) (g : Fin 128) (j : Fin 8) :
    k2_pay3 v27 v28 v33 v36 (ix2 g j) = (∑ k : Fin 100, Ideal.div (v27 (ix2 g k)) (v28 (ix2 g 0)) * v33 (ix2 k j)) + v36 (ix2 0 j) := by
  unfold k2_pay3
  simp only [shapeCast_self]
  rw [addf_apply]
  simp only [matmul]
  rw [Ideal.matmul_constant_zero_apply, ← Equiv.sum_comp (contrEquiv1 dot_S128x100_S100x8_S128x8_1_0_0_1_n_n 100 rfl rfl).symm,
    broadcastTo_apply v36 broadcasts_S1x8_S128x8 (ix2 g j) (ix2 0 j) (fun a => match a with | ⟨0, _⟩ => rfl | ⟨1, _⟩ => rfl)]
  refine congrArg (· + v36 (ix2 0 j)) (Finset.sum_congr rfl fun k _ => ?_)
  have hk := contrEquiv1_symm_val dot_S128x100_S100x8_S128x8_1_0_0_1_n_n 100 rfl rfl k
  have el : dot_S128x100_S100x8_S128x8_1_0_0_1_n_n.lhsIdx (ix2 g j) ((contrEquiv1 dot_S128x100_S100x8_S128x8_1_0_0_1_n_n 100 rfl rfl).symm k) = ix2 g k := funext fun a => Fin.ext (by
    match a with
    | ⟨0, _⟩ => exact lhs_out_0 _ _
    | ⟨1, _⟩ => exact (lhs_out_1 _ _).trans hk)
  have er : dot_S128x100_S100x8_S128x8_1_0_0_1_n_n.rhsIdx (ix2 g j) ((contrEquiv1 dot_S128x100_S100x8_S128x8_1_0_0_1_n_n 100 rfl rfl).symm k) = ix2 k j := funext fun a => Fin.ext (by
    match a with
    | ⟨0, _⟩ => exact (rhs_out_0 _ _).trans hk
    | ⟨1, _⟩ => exact rhs_out_1 _ _)
  rw [el, er, truncf_apply, truncf_apply, divf_apply,
    broadcastTo_apply v28 broadcasts_S128x1_S128x100 (ix2 g k) (ix2 g 0) (fun a => match a with | ⟨0, _⟩ => rfl | ⟨1, _⟩ => rfl)]

end Cert.KernelIdeal.RegionValue
-- ==== Proof.IdealPoolValue.lean ====
/- REGION 2 (the pooled linear layer) of the idealized kernel program, VALUE side: what the region leaves in its output
   array, as one index-by-index function of the arrays it finds. -/
import proofs.«429599_j46402826666302_2_alg».proof.Proof.IdealPoolData
import proofs.«429599_j46402826666302_2_alg».proof.Proof.IdealPoolPayload
import Idealize.ShloMosaic.Lib.Pipeline.Value
import Idealize.ShloMosaic.Lib.Tactic

set_option maxRecDepth 16384

noncomputable section

namespace Cert.KernelIdeal.RegionValue

open Cert.KernelIdeal Cert.KernelIdeal.Gen Cert.KernelIdeal.Frame
open Idealize.ShloMosaic Idealize.ShloMosaic.TcCoe Idealize.ShloMosaic.Tactic Idealize.SL.Sem
open Idealize.ShloMosaic.ValueIdx
open Idealize.ShloMosaic.Pipeline (Dat)

variable {F : FTy → Type} [FloatOps F]

/-- Zero offsets, as the stores and loads spell them. -/
theorem hz2 : (![0, 0] : Fin 2 → Nat) = fun _ => 0 := funext fun a => by fin_cases a <;> rfl

/-! ## What each control case leaves, as payloads of the blocks it loads

Each case stores whole buffers only; read back, the scratch holds the accumulation step's payload over the
blocks loaded (over the zero splat at the first point, over the scratch as entered elsewhere), and at the last point the
output buffer holds the output step's payload over the scratch just updated. Generic in the float model. -/

/-- Points 1 to 18: the scratch is left at the accumulation step over the scratch as entered. -/
theorem sout_B (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) :
    sout2_B_0 c i arg1 harg1 arg2 harg2 arg3 harg3 arg4 harg4 arg5 harg5 arg6 harg6 arg7 harg7 arg8 harg8 hc0 hc1 x0 x1 x2 x3 x4 x5 xs0 = k2_pay2 x0 x1 x2 xs0 := by
  unfold sout2_B_0
  rw [View.read_writes_eq_canon _ _ _ (scover2_B_0 c i arg1 harg1 arg2 harg2 arg3 harg3 arg4 harg4 arg5 harg5 arg6 harg6 arg7 harg7 arg8 harg8 hc0 hc1 x0 x1 x2 x3 x4 x5 xs0)]
  unfold kernelRun2_B
  dsimp only
  sl_unfold_words
  rw [View.canon_unit_zero hz2]
  simp only [View.readAt_eq_ld, harg1.read_unread, harg2.read_unread, harg3.read_unread, harg8.read_unread, View.ld_unit_zero (S := S5000x100) hz2, View.ld_unit_zero (S := S1x100) hz2, View.ld_unit_zero (S := S5000x1) hz2, View.ld_unit_zero (S := S128x100) hz2, View.ld_unit_zero (S := S128x1) hz2, View.ld_unit_zero (S := S100x8) hz2, View.ld_unit_zero (S := S1x8) hz2, View.readCov_unit_zero (S := S128x100) _ hz2]

/-- Point 0: the scratch is zeroed, read back, and left at the accumulation step over the zero splat. -/
theorem sout_A (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : cond2_0 i) (hc1 : ¬cond2_1 i)
    (x0 : Vec F S5000x100 .f32) (x1 : Vec F S1x100 .f32) (x2 : Vec F S5000x1 .i32) (x3 : Vec F S128x1 .f32) (x4 : Vec F S100x8 .f32) (x5 : Vec F S1x8 .f32) :
    sout2_A_0 c i arg1 harg1 arg2 harg2 arg3 harg3 arg4 harg4 arg5 harg5 arg6 harg6 arg7 harg7 arg8 harg8 hc0 hc1 x0 x1 x2 x3 x4 x5 = k2_pay2 x0 x1 x2 k2_pay1 := by
  unfold sout2_A_0
  rw [View.read_writes_eq_canon _ _ _ (scover2_A_0 c i arg1 harg1 arg2 harg2 arg3 harg3 arg4 harg4 arg5 harg5 arg6 harg6 arg7 harg7 arg8 harg8 hc0 hc1 x0 x1 x2 x3 x4 x5)]
  unfold kernelRun2_A
  dsimp only
  sl_unfold_words
  rw [View.canon_cons_unit_zero (S := S128x100) hz2]
  simp only [View.readAt_eq_ld, harg1.read_unread, harg2.read_unread, harg3.read_unread, harg8.read_unread, View.ld_unit_zero (S := S5000x100) hz2, View.ld_unit_zero (S := S1x100) hz2, View.ld_unit_zero (S := S5000x1) hz2, View.ld_unit_zero (S := S128x100) hz2, View.ld_unit_zero (S := S128x1) hz2, View.ld_unit_zero (S := S100x8) hz2, View.ld_unit_zero (S := S1x8) hz2, View.readCov_unit_zero (S := S128x100) _ hz2]

/-- Point 19: the scratch is left at the accumulation step over the scratch as entered. -/
theorem sout_C (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) :
    sout2_C_0 c i arg1 harg1 arg2 harg2 arg3 harg3 arg4 harg4 arg5 harg5 arg6 harg6 arg7 harg7 arg8 harg8 hc0 hc1 x0 x1 x2 x3 x4 x5 xs0 = k2_pay2 x0 x1 x2 xs0 := by
  unfold sout2_C_0
  rw [View.read_writes_eq_canon _ _ _ (scover2_C_0 c i arg1 harg1 arg2 harg2 arg3 harg3 arg4 harg4 arg5 harg5 arg6 harg6 arg7 harg7 arg8 harg8 hc0 hc1 x0 x1 x2 x3 x4 x5 xs0)]
  unfold kernelRun2_C
  dsimp only
  sl_unfold_words
  rw [View.canon_unit_zero hz2]
  simp only [View.readAt_eq_ld, harg1.read_unread, harg2.read_unread, harg3.read_unread, harg8.read_unread, View.ld_unit_zero (S := S5000x100) hz2, View.ld_unit_zero (S := S1x100) hz2, View.ld_unit_zero (S := S5000x1) hz2, View.ld_unit_zero (S := S128x100) hz2, View.ld_unit_zero (S := S128x1) hz2, View.ld_unit_zero (S := S100x8) hz2, View.ld_unit_zero (S := S1x8) hz2, View.readCov_unit_zero (S := S128x100) _ hz2]

/-- Point 19: the output buffer is left at the output step over the scratch just updated. -/
theorem out_C (c : Dev nD) (i : grid2.Coords) (arg1 : Memref sig .tc .vmem S5000x100 .f32) (harg1 : arg1.IsWhole) (arg2 : Memref sig .tc .vmem S1x100 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S100x8 .f32) (harg5 : arg5.IsWhole) (arg6 : Memref sig .tc .vmem S1x8 .f32) (harg6 : arg6.IsWhole) (arg7 : Memref sig .tc .vmem S128x8 .f32) (harg7 : arg7.IsWhole) (arg8 : Memref sig .tc .vmem S128x100 .f32) (harg8 : arg8.IsWhole) (hc0 : ¬cond2_0 i) (hc1 : cond2_1 i)
    (x0 : Vec F S5000x100 .f32) (x1 : Vec F S1x100 .f32) (x2 : Vec F S5000x1 .i32) (x3 : Vec F S128x1 .f32) (x4 : Vec F S100x8 .f32) (x5 : Vec F S1x8 .f32) (xs0 : Vec F S128x100 .f32) :
    out2_C_6 c i arg1 harg1 arg2 harg2 arg3 harg3 arg4 harg4 arg5 harg5 arg6 harg6 arg7 harg7 arg8 harg8 hc0 hc1 x0 x1 x2 x3 x4 x5 xs0 = k2_pay3 (k2_pay2 x0 x1 x2 xs0) x3 x4 x5 := by
  unfold out2_C_6
  rw [View.read_writes_eq_canon _ _ _ (cover2_C_6 c i arg1 harg1 arg2 harg2 arg3 harg3 arg4 harg4 arg5 harg5 arg6 harg6 arg7 harg7 arg8 harg8 hc0 hc1 x0 x1 x2 x3 x4 x5 xs0)]
  unfold kernelRun2_C
  dsimp only
  sl_unfold_words
  rw [View.canon_unit_zero hz2]
  simp only [View.readAt_eq_ld, harg1.read_unread, harg2.read_unread, harg3.read_unread, harg4.read_unread, harg5.read_unread, harg6.read_unread, harg8.read_unread, View.ld_unit_zero (S := S5000x100) hz2, View.ld_unit_zero (S := S1x100) hz2, View.ld_unit_zero (S := S5000x1) hz2, View.ld_unit_zero (S := S128x100) hz2, View.ld_unit_zero (S := S128x1) hz2, View.ld_unit_zero (S := S100x8) hz2, View.ld_unit_zero (S := S1x8) hz2, View.readCov_unit_zero (S := S128x100) _ hz2]

/-! ## The pooled sum, row by row -/

/-- Row p's term of the pooled sum at (g, k): the one-hot entry of row p's word at g, times the row's entry at k plus the
    bias at k; 0 beyond the 100000 rows. -/
def rowTerm (a : Vec Ideal S100000x100 .f32) (b3 : Vec Ideal S1x100 .f32) (bt : Vec Ideal S100000x1 .i32) (g : Fin 128) (k : Fin 100) (p : ℕ) : EReal :=
  if h : p < 100000 then (if bt (ix2 ⟨p, h⟩ 0) = BitVec.ofNat 32 g.val then (1 : EReal) else 0) * (a (ix2 ⟨p, h⟩ k) + b3 (ix2 0 k)) else 0

section Final
variable (V : (c : Dev nD) → (b : Ref sig .tc) → Buf (Elt Ideal) ((c : Thread nD τ).loc b))

/-! ## The windows' blocks, read off the arrays the region finds

Windows 0 and 2 walk the 20 row blocks of their arrays (block t is rows 5000 t … 5000 t + 4999); the other input windows
are their whole arrays at every point. -/

/-- The windows' block indices at point t: (t, 0) for the two walking windows, (0, 0) for the others. -/
theorem idx2_0 : ∀ t : Fin cfg2.N, win2_0.index t 0 = t.val ∧ win2_0.index t 1 = 0 := by decide +kernel
theorem idx2_1 : ∀ t : Fin cfg2.N, win2_1.index t 0 = 0 ∧ win2_1.index t 1 = 0 := by decide +kernel
theorem idx2_2 : ∀ t : Fin cfg2.N, win2_2.index t 0 = t.val ∧ win2_2.index t 1 = 0 := by decide +kernel
theorem idx2_3 : ∀ t : Fin cfg2.N, win2_3.index t 0 = 0 ∧ win2_3.index t 1 = 0 := by decide +kernel
theorem idx2_4 : ∀ t : Fin cfg2.N, win2_4.index t 0 = 0 ∧ win2_4.index t 1 = 0 := by decide +kernel
theorem idx2_5 : ∀ t : Fin cfg2.N, win2_5.index t 0 = 0 ∧ win2_5.index t 1 = 0 := by decide +kernel

/-- Window 0's block at point t reads row 5000 t + r of its array. -/
theorem blk0_apply (c : Dev nD) (a : Vec Ideal S100000x100 .f32) (ha : V c main_v71 = a) (t : Fin cfg2.N) (r : Fin 5000) (k : Fin 100)
    (h : 5000 * t.val + r.val < 100000) :
    (iblk2 V c 0 t : Vec Ideal S5000x100 .f32) (ix2 r k) = a (ix2 ⟨5000 * t.val + r.val, h⟩ k) := by
  subst ha
  unfold iblk2
  rw [View.read_apply]
  show V c main_v71 _ = V c main_v71 _
  congr 1
  funext x
  apply Fin.ext
  match x with
  | ⟨0, _⟩ => show win2_0.index t 0 * 5000 + 1 * r.val = 5000 * t.val + r.val; rw [(idx2_0 t).1]; omega
  | ⟨1, _⟩ => show win2_0.index t 1 * 100 + 1 * k.val = k.val; rw [(idx2_0 t).2]; omega

/-- Window 2's block at point t reads row 5000 t + r of the word column. -/
theorem blk2_apply (c : Dev nD) (bt : Vec Ideal S100000x1 .i32) (hbt : V c main_v79 = bt) (t : Fin cfg2.N) (r : Fin 5000) (q : Fin 1)
    (h : 5000 * t.val + r.val < 100000) :
    (iblk2 V c 2 t : Vec Ideal S5000x1 .i32) (ix2 r q) = bt (ix2 ⟨5000 * t.val + r.val, h⟩ q) := by
  subst hbt
  unfold iblk2
  rw [View.read_apply]
  show V c main_v79 _ = V c main_v79 _
  congr 1
  funext x
  apply Fin.ext
  match x with
  | ⟨0, _⟩ => show win2_2.index t 0 * 5000 + 1 * r.val = 5000 * t.val + r.val; rw [(idx2_2 t).1]; omega
  | ⟨1, _⟩ => show win2_2.index t 1 * 1 + 1 * q.val = q.val; rw [(idx2_2 t).2]; omega

/-- Windows 1, 3, 4, 5: the block at every point is the whole array. -/
theorem blk1_apply (c : Dev nD) (b3 : Vec Ideal S1x100 .f32) (hb3 : V c main_v78 = b3) (t : Fin cfg2.N) (p : Fin 1) (q : Fin 100) :
    (iblk2 V c 1 t : Vec Ideal S1x100 .f32) (ix2 p q) = b3 (ix2 p q) := by
  subst hb3
  unfold iblk2
  rw [View.read_apply]
  show V c main_v78 _ = V c main_v78 _
  congr 1
  funext x
  apply Fin.ext
  match x with
  | ⟨0, _⟩ => show win2_1.index t 0 * 1 + 1 * p.val = p.val; rw [(idx2_1 t).1]; omega
  | ⟨1, _⟩ => show win2_1.index t 1 * 100 + 1 * q.val = q.val; rw [(idx2_1 t).2]; omega

theorem blk3_apply (c : Dev nD) (cn : Vec Ideal S128x1 .f32) (hcn : V c main_v80 = cn) (t : Fin cfg2.N) (p : Fin 128) (q : Fin 1) :
    (iblk2 V c 3 t : Vec Ideal S128x1 .f32) (ix2 p q) = cn (ix2 p q) := by
  subst hcn
  unfold iblk2
  rw [View.read_apply]
  show V c main_v80 _ = V c main_v80 _
  congr 1
  funext x
  apply Fin.ext
  match x with
  | ⟨0, _⟩ => show win2_3.index t 0 * 128 + 1 * p.val = p.val; rw [(idx2_3 t).1]; omega
  | ⟨1, _⟩ => show win2_3.index t 1 * 1 + 1 * q.val = q.val; rw [(idx2_3 t).2]; omega

theorem blk4_apply (c : Dev nD) (wl : Vec Ideal S100x8 .f32) (hwl : V c main_arg9 = wl) (t : Fin cfg2.N) (p : Fin 100) (q : Fin 8) :
    (iblk2 V c 4 t : Vec Ideal S100x8 .f32) (ix2 p q) = wl (ix2 p q) := by
  subst hwl
  unfold iblk2
  rw [View.read_apply]
  show V c main_arg9 _ = V c main_arg9 _
  congr 1
  funext x
  apply Fin.ext
  match x with
  | ⟨0, _⟩ => show win2_4.index t 0 * 100 + 1 * p.val = p.val; rw [(idx2_4 t).1]; omega
  | ⟨1, _⟩ => show win2_4.index t 1 * 8 + 1 * q.val = q.val; rw [(idx2_4 t).2]; omega

theorem blk5_apply (c : Dev nD) (bl : Vec Ideal S1x8 .f32) (hbl : V c main_v81 = bl) (t : Fin cfg2.N) (p : Fin 1) (q : Fin 8) :
    (iblk2 V c 5 t : Vec Ideal S1x8 .f32) (ix2 p q) = bl (ix2 p q) := by
  subst hbl
  unfold iblk2
  rw [View.read_apply]
  show V c main_v81 _ = V c main_v81 _
  congr 1
  funext x
  apply Fin.ext
  match x with
  | ⟨0, _⟩ => show win2_5.index t 0 * 1 + 1 * p.val = p.val; rw [(idx2_5 t).1]; omega
  | ⟨1, _⟩ => show win2_5.index t 1 * 8 + 1 * q.val = q.val; rw [(idx2_5 t).2]; omega

/-! ## The scratch after each point: the pooled sum over the rows met so far -/

/-- One accumulation step at point t over the point's blocks: the accumulator plus the terms of the rows 5000 t … 5000 t + 4999. -/
theorem step_eq (c : Dev nD) (a : Vec Ideal S100000x100 .f32) (b3 : Vec Ideal S1x100 .f32) (bt : Vec Ideal S100000x1 .i32) (ha : V c main_v71 = a) (hb3 : V c main_v78 = b3) (hbt : V c main_v79 = bt)
    (t : Fin cfg2.N) (g : Fin 128) (k : Fin 100) (acc : Vec Ideal S128x100 .f32) :
    k2_pay2 (iblk2 V c 0 t) (iblk2 V c 1 t) (iblk2 V c 2 t) acc (ix2 g k)
      = acc (ix2 g k) + ∑ r ∈ Finset.range 5000, rowTerm a b3 bt g k (5000 * t.val + r) := by
  have hN : cfg2.N = 20 := N_2
  refine (pay_acc_apply (iblk2 V c 0 t) (iblk2 V c 1 t) (iblk2 V c 2 t) acc g k).trans ?_
  rw [← Fin.sum_univ_eq_sum_range (fun r => rowTerm a b3 bt g k (5000 * t.val + r)) 5000]
  refine congrArg (acc (ix2 g k) + ·) (Finset.sum_congr rfl fun r _ => ?_)
  have hlt : 5000 * t.val + r.val < 100000 := by have := t.isLt; have := r.isLt; omega
  unfold rowTerm
  rw [dif_pos hlt, blk0_apply V c a ha t r k hlt, blk1_apply V c b3 hb3 t 0 k, blk2_apply V c bt hbt t r 0 hlt]

/-- THE INVARIANT. After point n the scratch holds, at (g, k), the sum of the terms of the rows below 5000 (n + 1): zeroed
    at the first point, one block of rows added at every point. By induction on the point. -/
theorem scratch_eq (c : Dev nD) (a : Vec Ideal S100000x100 .f32) (b3 : Vec Ideal S1x100 .f32) (bt : Vec Ideal S100000x1 .i32) (ha : V c main_v71 = a) (hb3 : V c main_v78 = b3) (hbt : V c main_v79 = bt)
    (g : Fin 128) (k : Fin 100) : ∀ (n : ℕ) (h : n < cfg2.N),
    (outsAt2 V c n h).2 (ix2 g k) = ∑ p ∈ Finset.range (5000 * (n + 1)), rowTerm a b3 bt g k p
  | 0, h => by
    rw [outsAt2_A V c ⟨0, h⟩ (by dsimp only) (by dsimp only; omega)]
    dsimp only
    refine (congrFun (sout_A (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) scM2_0 (Memref.isWhole_whole _) _ _ (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)) (ix2 g k)).trans ?_
    refine (step_eq V c a b3 bt ha hb3 hbt ⟨0, h⟩ g k (k2_pay1 (F := Ideal))).trans ?_
    rw [pay_zero_apply, zero_add]
    show ∑ r ∈ Finset.range 5000, rowTerm a b3 bt g k (5000 * 0 + r) = ∑ p ∈ Finset.range (5000 * (0 + 1)), rowTerm a b3 bt g k p
    simp only [Nat.mul_zero, Nat.zero_add, Nat.mul_one]
  | n + 1, h => by
    have hN : cfg2.N = 20 := N_2
    have ih := scratch_eq c a b3 bt ha hb3 hbt g k n (Nat.lt_of_succ_lt h)
    have h0 : ¬(⟨n + 1, h⟩ : Fin cfg2.N).val % 20 = 0 := by dsimp only; omega
    have hs : 5000 * (n + 1 + 1) = 5000 * (n + 1) + 5000 := by ring
    by_cases h19 : (⟨n + 1, h⟩ : Fin cfg2.N).val % 20 = 19
    · rw [outsAt2_C V c ⟨n + 1, h⟩ h0 h19]
      dsimp only
      refine (congrFun (sout_C (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) scM2_0 (Memref.isWhole_whole _) _ _ (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) _) (ix2 g k)).trans ?_
      refine (step_eq V c a b3 bt ha hb3 hbt ⟨n + 1, h⟩ g k _).trans ?_
      show (outsAt2 V c n _).2 (ix2 g k) + _ = _
      rw [ih, hs, Finset.sum_range_add]
    · rw [outsAt2_B V c ⟨n + 1, h⟩ h0 h19]
      dsimp only
      refine (congrFun (sout_B (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) scM2_0 (Memref.isWhole_whole _) _ _ (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) _) (ix2 g k)).trans ?_
      refine (step_eq V c a b3 bt ha hb3 hbt ⟨n + 1, h⟩ g k _).trans ?_
      show (outsAt2 V c n _).2 (ix2 g k) + _ = _
      rw [ih, hs, Finset.sum_range_add]

/-! ## The output block at the last point, and the result array -/

/-- The last grid point. -/
abbrev t19 : Fin cfg2.N := ⟨19, by rw [show cfg2.N = 20 from N_2]; decide⟩

/-- The sum over the rows below 100000 of the row terms is the sum over the rows. -/
theorem sum_rowTerm (a : Vec Ideal S100000x100 .f32) (b3 : Vec Ideal S1x100 .f32) (bt : Vec Ideal S100000x1 .i32) (g : Fin 128) (k : Fin 100) :
    ∑ p ∈ Finset.range 100000, rowTerm a b3 bt g k p
      = ∑ n : Fin 100000, (if bt (ix2 n 0) = BitVec.ofNat 32 g.val then (1 : EReal) else 0) * (a (ix2 n k) + b3 (ix2 0 k)) := by
  rw [Finset.sum_range]
  refine Finset.sum_congr rfl fun n _ => ?_
  unfold rowTerm
  rw [dif_pos n.isLt]

/-- What the output buffer holds after the last point, at (g, j): the pooled sums divided by the group's count, through the
    linear layer. -/
theorem out_eq (c : Dev nD) (a : Vec Ideal S100000x100 .f32) (b3 : Vec Ideal S1x100 .f32) (bt : Vec Ideal S100000x1 .i32) (cn : Vec Ideal S128x1 .f32) (wl : Vec Ideal S100x8 .f32) (bl : Vec Ideal S1x8 .f32)
    (ha : V c main_v71 = a) (hb3 : V c main_v78 = b3) (hbt : V c main_v79 = bt) (hcn : V c main_v80 = cn) (hwl : V c main_arg9 = wl) (hbl : V c main_v81 = bl) (g : Fin 128) (j : Fin 8) :
    (outsAt2 V c t19.val t19.isLt).1 (ix2 g j)
      = (∑ k : Fin 100, Ideal.div (∑ n : Fin 100000, (if bt (ix2 n 0) = BitVec.ofNat 32 g.val then (1 : EReal) else 0) * (a (ix2 n k) + b3 (ix2 0 k)))
            (cn (ix2 g 0)) * wl (ix2 k j)) + bl (ix2 0 j) := by
  rw [outsAt2_C V c t19 (by decide) (by decide)]
  dsimp only
  refine (congrFun (out_C (F := Ideal) c (grid2.coords t19) (ms2_0 t19) (hs2_0 t19) (ms2_1 t19) (hs2_1 t19) (ms2_2 t19) (hs2_2 t19) (ms2_3 t19) (hs2_3 t19) (ms2_4 t19) (hs2_4 t19) (ms2_5 t19) (hs2_5 t19) (ms2_6 t19) (hs2_6 t19) scM2_0 (Memref.isWhole_whole _) _ _ (iblk2 V c 0 t19) (iblk2 V c 1 t19) (iblk2 V c 2 t19) (iblk2 V c 3 t19) (iblk2 V c 4 t19) (iblk2 V c 5 t19) _) (ix2 g j)).trans ?_
  refine (pay_out_apply _ (iblk2 V c 3 t19) (iblk2 V c 4 t19) (iblk2 V c 5 t19) g j).trans ?_
  rw [blk5_apply V c bl hbl t19 0 j]
  refine congrArg (· + bl (ix2 0 j)) (Finset.sum_congr rfl fun k _ => ?_)
  rw [blk3_apply V c cn hcn t19 g 0, blk4_apply V c wl hwl t19 k j, ← sum_rowTerm a b3 bt g k]
  refine congrArg (fun x => Ideal.div x (cn (ix2 g 0)) * wl (ix2 k j)) ?_
  refine (step_eq V c a b3 bt ha hb3 hbt t19 g k _).trans ?_
  show (outsAt2 V c 18 _).2 (ix2 g k) + _ = _
  rw [scratch_eq V c a b3 bt ha hb3 hbt g k 18 _]
  exact (Finset.sum_range_add (rowTerm a b3 bt g k) 95000 5000).symm

/-- The result array's contents: what the output buffer holds after the last point (its one block is the whole array). -/
abbrev result (c : Dev nD) : Buf (Elt Ideal) ((c : Thread nD τ).loc main_v82) := (outsAt2 V c t19.val t19.isLt).1

/-- The one write-back, at the last point, writes it: block (0, 0) of the [128, 8] array read through zero offsets is the array. -/
theorem flushed_eq (c : Dev nD) (t : Fin cfg2.N) (hf : (cfg2.win 6).flush t = true) :
    (dat2 V c).flushed 6 t = ((cfg2.win 6).blk t).view.read (Elt Ideal) (result V c) := by
  have hN : cfg2.N = 20 := N_2
  have h19 : t.val = 19 := by have := (flush2_6 t).mp hf; have := t.isLt; omega
  obtain rfl : t = t19 := Fin.ext h19
  show (cfg2.win 6).cut (grid2.coords t19) ((dat2 V c).after 6 t19) = _
  rw [after2_6]
  have hz' : (fun a => win2_6.index t19 a * main_v82.ty.shape.size a) = fun _ => 0 := funext fun a => by fin_cases a <;> decide
  exact (Memref.read_access_unit_zero (Elt Ideal) main_v82 hz' (fun a => by rw [congrFun hz' a]; simp) (result V c)).symm

/-- So the result array ends holding it: the last point's block covers the array. -/
theorem final_o (c : Dev nD) : (dat2 V c).arrAt 6 cfg2.N = result V c :=
  (dat2 V c).arrAt_eq_of_cover 6 (result V c) (flushed_eq V c) fun i =>
    ⟨t19, (flush2_6 t19).mpr rfl, by
      show i ∈ ((View.whole main_v82).slice (win2_6.rect t19)).set
      rw [View.set_slice_whole, Rect.mem_set_unit]
      intro x
      have h0 : (i 0 : Nat) < 128 := (i 0).isLt
      have h1 : (i 1 : Nat) < 8 := (i 1).isLt
      match x with
      | ⟨0, _⟩ => show win2_6.index t19 0 * win2_6.size 0 ≤ (i 0 : Nat) ∧ (i 0 : Nat) < win2_6.index t19 0 * win2_6.size 0 + win2_6.xsize (grid2.coords t19) 0
                  rw [show win2_6.index t19 0 * win2_6.size 0 = 0 from by decide +kernel, show win2_6.xsize (grid2.coords t19) 0 = 128 from by decide +kernel]; omega
      | ⟨1, _⟩ => show win2_6.index t19 1 * win2_6.size 1 ≤ (i 1 : Nat) ∧ (i 1 : Nat) < win2_6.index t19 1 * win2_6.size 1 + win2_6.xsize (grid2.coords t19) 1
                  rw [show win2_6.index t19 1 * win2_6.size 1 = 0 from by decide +kernel, show win2_6.xsize (grid2.coords t19) 1 = 8 from by decide +kernel]; omega⟩

/-- REGION 2's value. The region leaves in its output array, at (g, j): the sum over k of the pooled sum at (g, k) — over the
    100000 rows n, the one-hot entry of row n's word at g times the row's entry at k plus the bias — divided by group g's
    count, times the weight at (k, j); plus the bias at j. -/
theorem pool_final (c : Dev nD) (a : Vec Ideal S100000x100 .f32) (b3 : Vec Ideal S1x100 .f32) (bt : Vec Ideal S100000x1 .i32) (cn : Vec Ideal S128x1 .f32) (wl : Vec Ideal S100x8 .f32) (bl : Vec Ideal S1x8 .f32)
    (ha : V c main_v71 = a) (hb3 : V c main_v78 = b3) (hbt : V c main_v79 = bt) (hcn : V c main_v80 = cn) (hwl : V c main_arg9 = wl) (hbl : V c main_v81 = bl) (g : Fin 128) (j : Fin 8) :
    (dat2 (F := Ideal) V c).arrAt 6 cfg2.N (ix2 g j)
      = (∑ k : Fin 100, Ideal.div (∑ n : Fin 100000, (if bt (ix2 n 0) = BitVec.ofNat 32 g.val then (1 : EReal) else 0) * (a (ix2 n k) + b3 (ix2 0 k)))
            (cn (ix2 g 0)) * wl (ix2 k j)) + bl (ix2 0 j) :=
  (congrFun (final_o V c) (ix2 g j)).trans (out_eq V c a b3 bt cn wl bl ha hb3 hbt hcn hwl hbl g j)

end Final

end Cert.KernelIdeal.RegionValue
-- ==== Proof.Spec.lean ====
/-
  THE MATHEMATICS BOTH PROGRAMS COMPUTE, index by index over the extended reals, with no program in sight.

  A graph convolution network of three layers over N = 100000 nodes and E = 1700000 weighted edges (the given edges and
  one loop per node), then a mean over G = 128 groups of nodes and a linear map to C = 8 classes. An edge `e` reads the
  row `rowOf (srcW e)` (its source word read signed and clamped into the rows) and adds into the row its destination word
  `dstW e` names (no row when that word, read signed, is out of range); `nv e` is the edge's weight.

  * `agg t d q`      = the sum over the edges landing at node d of t (source row) q · weight;
  * `dense h W p q`  = Σ_k h p k · W k q;
  * `relu u b p k`   = max (u p k + b k) 0;
  * `classify a g j` = Σ_k (Σ_n [batch n = g] · (a n k + b3 k)) / cnt g · Wl k j + bl j.
  The reference applies the first layer's weight row BEFORE aggregating (`refPre1`), the kernel aggregates the scalar
  feature and multiplies by the weight row afterwards (`kerPre1`): the two agree when every edge weight and every
  feature and weight is a real number (`pre1_eq`: a finite sum of reals times a real distributes), and then the
  two programs' results are one function (`refOut_eq_kerOut`).
-/
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.Spec

open Idealize.ShloMosaic Idealize.ShloMosaic.ValueIdx

/-- A float array of rank 2, and of rank 1, as the extended reals read them; a word array of rank 1. -/
abbrev Arr2 (a b : Nat) : Type := (⟨2, ![a, b]⟩ : Shape).Idx → EReal
abbrev Arr1 (a : Nat) : Type := (⟨1, ![a]⟩ : Shape).Idx → EReal
abbrev Wrd1 (a : Nat) : Type := (⟨1, ![a]⟩ : Shape).Idx → BitVec 32

/-- The row a lookup word names: the word read signed, clamped into the rows 0 … 99999. -/
def rowOf (w : BitVec 32) : Fin 100000 := ⟨min w.toInt.toNat 99999, by omega⟩

/-- A lookup word counted from the end when it is negative: the table has 100000 rows. -/
def wrapW (w : Wrd1 1700000) : Wrd1 1700000 := fun i => if (w i).toInt < 0 then w i + 100000#32 else w i

section
variable (srcW dstW : Wrd1 1700000) (nv : Arr1 1700000)

/-- The edges that land at node `d`: those whose destination word, read signed, is `d`. -/
def landing (d : Fin 100000) : Finset (Fin 1700000) :=
  Finset.univ.filter (fun e : Fin 1700000 => (dstW (ix1 e)).toInt = (d.val : ℤ))

/-- One round of message passing over a table of feature rows. -/
def agg (t : Fin 100000 → Fin 100 → EReal) (d : Fin 100000) (q : Fin 100) : EReal :=
  ∑ e ∈ landing dstW d, t (rowOf (srcW (ix1 e))) q * nv (ix1 e)

/-- The same round over one scalar feature per node. -/
def aggScalar (x : Fin 100000 → EReal) (d : Fin 100000) : EReal :=
  ∑ e ∈ landing dstW d, x (rowOf (srcW (ix1 e))) * nv (ix1 e)

end

/-- A feature table times a square weight matrix. -/
def dense (h : Fin 100000 → Fin 100 → EReal) (W : Arr2 100 100) (p : Fin 100000) (q : Fin 100) : EReal :=
  ∑ k : Fin 100, h p k * W (ix2 k q)

/-- Bias, then the rectifier. -/
def relu (u : Fin 100000 → Fin 100 → EReal) (b : Arr1 100) (p : Fin 100000) (k : Fin 100) : EReal :=
  max (u p k + b (ix1 k)) 0

/-- The mean of the biased third-layer rows over each group, then the classifier. -/
def classify (batch : Wrd1 100000) (cnt : Arr1 128) (b3 : Arr1 100) (Wl : Arr2 100 8) (bl : Arr1 8)
    (a : Fin 100000 → Fin 100 → EReal) (g : Fin 128) (j : Fin 8) : EReal :=
  (∑ k : Fin 100, Ideal.div (∑ n : Fin 100000, (if batch (ix1 n) = BitVec.ofNat 32 g.val then (1 : EReal) else 0) * (a n k + b3 (ix1 k)))
      (cnt (ix1 g)) * Wl (ix2 k j)) + bl (ix1 j)

section
variable (srcW dstW : Wrd1 1700000) (nv : Arr1 1700000) (batch : Wrd1 100000) (cnt : Arr1 128)
variable (x : Arr2 100000 1) (W1 : Arr2 1 100) (b1 : Arr1 100) (W2 : Arr2 100 100) (b2 : Arr1 100) (W3 : Arr2 100 100) (b3 : Arr1 100)
  (Wl : Arr2 100 8) (bl : Arr1 8)

/-- Everything after the first layer's aggregation, as a function of the first layer's rows before the rectifier
    (bias included). -/
def tailOut (pre1 : Fin 100000 → Fin 100 → EReal) (g : Fin 128) (j : Fin 8) : EReal :=
  classify batch cnt b3 Wl bl
    (agg srcW dstW nv (dense (relu (agg srcW dstW nv (dense (fun p k => max (pre1 p k) 0) W2)) b2) W3)) g j

/-- The first layer as the reference computes it: the weight row applied to every node's feature, then aggregated. -/
def refPre1 (d : Fin 100000) (k : Fin 100) : EReal :=
  agg srcW dstW nv (fun p k' => ∑ kk : Fin 1, x (ix2 p kk) * W1 (ix2 kk k')) d k + b1 (ix1 k)

/-- The first layer as the kernel computes it: the scalar feature aggregated, then the weight row applied. -/
def kerPre1 (d : Fin 100000) (k : Fin 100) : EReal :=
  aggScalar srcW dstW nv (fun p => x (ix2 p 0)) d * W1 (ix2 0 k) + b1 (ix1 k)

/-- The reference's result and the kernel's. -/
def refOut : Fin 128 → Fin 8 → EReal := tailOut srcW dstW nv batch cnt W2 b2 W3 b3 Wl bl (refPre1 srcW dstW nv x W1 b1)
def kerOut : Fin 128 → Fin 8 → EReal := tailOut srcW dstW nv batch cnt W2 b2 W3 b3 Wl bl (kerPre1 srcW dstW nv x W1 b1)

end

end Cert.Spec

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.IdealHostValueLib.lean ====
/-
  THE MESSAGE PASSING ROUND AS THE KERNEL PROGRAM'S HOST OPERATIONS WRITE IT, read at one index over the extended reals.

  * a vector cast to a column reads the vector (`shapeCast_a_a1_apply`);
  * the index normalisation (a select on "the word is negative" between the word plus the row count and the word) is
    `Cert.Spec.wrapW` (`wrapOps_apply`);
  * the round over a table of feature rows — normalise the source words, gather the rows, widen, multiply by the edge
    weights spread over the features, scatter-add into zeros at the destination words — is `Cert.Spec.agg` at (d, q)
    (`aggOps_apply`): the scatter at (d, q) is the sum over the edges whose destination word read signed is d, and
    each summand is the table at the clamped signed normalised source word, feature q, times the edge's weight.
-/
import proofs.«429599_j46402826666302_2_alg».proof.Proof.Gen.KernelIdeal.Launch
import proofs.«429599_j46402826666302_2_alg».proof.Proof.Spec
import proofs.«429599_j46402826666302_2_alg».proof.Proof.LibRowGatherScatter
import Idealize.ShloMosaic.Lib.ValueLayout

set_option maxRecDepth 16384

noncomputable section

open scoped BigOperators

namespace Cert.KernelIdeal.HostValue

open Idealize.ShloMosaic Idealize.ShloMosaic.TcCoe Idealize.SL.Sem Idealize.ShloMosaic.StableHlo Cert.KernelIdeal Cert.KernelIdeal.Gen
open Idealize.ShloMosaic.ValueIdx Cert.ReferenceIdeal.Hand

/-- An `[a]` array cast to a column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index normalisation as the program writes it, at one edge. -/
theorem wrapOps_apply (w : (⟨S1700000, .i32⟩ : BufTy).Contents (Elt Ideal)) (i : S1700000.Idx) :
    select (cmpi .slt w (broadcastInDim S1700000 ![] bcast_S_S1700000 (constantI S_ 32 0#32)))
        (addi w (broadcastInDim S1700000 ![] bcast_S_S1700000 (constantI S_ 32 100000#32))) w i
      = Cert.Spec.wrapW w i := by
  rw [select_apply]
  show Scalar.select (IntOp.cmpi .slt (w i) (broadcastInDim S1700000 ![] bcast_S_S1700000 (constantI S_ 32 0#32) i))
      (IntOp.addi (w i) (broadcastInDim S1700000 ![] bcast_S_S1700000 (constantI S_ 32 100000#32) i)) (w i) = _
  rw [bcastScalar_apply, bcastScalar_apply, constantI_apply, constantI_apply, wrap_select]
  rfl

/-- The kernel program's gather of whole rows is the general row gather. -/
theorem gather_eq : gather_S100000x100_S1700000x1_S1700000x100_1_0_n_n_0_1_1100
    = rowGather 100000 1700000 100 Facts₀.gather_S100000x100_S1700000x1_S1700000x100_1_0_n_n_0_1_1100_wf := rfl

/-- The kernel program's scatter of whole rows is the general row scatter. -/
theorem scatter_eq : scatter_S100000x100_S1700000x1_S1700000x100_1_0_0_1
    = rowScatter 100000 1700000 100 Facts₀.scatter_S100000x100_S1700000x1_S1700000x100_1_0_0_1_wf := rfl

/-- ONE ROUND OF MESSAGE PASSING as the host operations write it, at (d, q). -/
theorem aggOps_apply (w3 w6 : (⟨S1700000, .i32⟩ : BufTy).Contents (Elt Ideal))
    (nv : (⟨S1700000, .f32⟩ : BufTy).Contents (Elt Ideal)) (t : (⟨S100000x100, .bf16⟩ : BufTy).Contents (Elt Ideal))
    (d : Fin 100000) (q : Fin 100) :
    Host.scatterAdd (F := Ideal) scatter_S100000x100_S1700000x1_S1700000x100_1_0_0_1
        (broadcastInDim S100000x100 ![] bcast_S_S100000x100 (constant (F := Ideal) S_ .f32 0x00000000#32))
        (broadcastInDim S1700000x1 ![0] bcast_S1700000_S1700000x1_0 w6)
        (mulf
          (extf .f32 (Host.gather gather_S100000x100_S1700000x1_S1700000x100_1_0_n_n_0_1_1100 t
            (broadcastInDim S1700000x1 ![0] bcast_S1700000_S1700000x1_0
              (select (cmpi .slt w3 (broadcastInDim S1700000 ![] bcast_S_S1700000 (constantI S_ 32 0#32)))
                (addi w3 (broadcastInDim S1700000 ![] bcast_S_S1700000 (constantI S_ 32 100000#32))) w3))) bitsLt_bf16_f32)
          (broadcastInDim S1700000x100 ![0, 1] bcast_S1700000x1_S1700000x100_0_1
            (broadcastInDim S1700000x1 ![0] bcast_S1700000_S1700000x1_0 nv)))
        (ix2 d q)
      = Cert.Spec.agg (Cert.Spec.wrapW w3) w6 nv (fun p k => t (ix2 p k)) d q := by
  rw [scatter_eq, gather_eq, rowScatterAdd_apply, bcastScalar_apply, constant_apply, Ideal.ofBits_zero_f32, zero_add]
  unfold Cert.Spec.agg Cert.Spec.landing
  have hcol : ∀ e : Fin 1700000, broadcastInDim S1700000x1 ![0] bcast_S1700000_S1700000x1_0 w6 (ix2 e 0) = w6 (ix1 e) :=
    fun e => bcastCol_apply _ w6 e 0
  simp only [hcol]
  refine Finset.sum_congr rfl fun e _ => ?_
  rw [mulf_apply, extf_apply, bcastFeat_apply, bcastCol_apply,
    rowGather_apply_of_eq (by decide) _ t _ e q (Cert.Spec.wrapW w3 (ix1 e))
      (by rw [bcastCol_apply]; exact wrapOps_apply w3 (ix1 e))]
  rfl

end Cert.KernelIdeal.HostValue

end
-- ==== Proof.LibVecGatherScatter.lean ====
/-
  GENERAL LEMMAS: the two indexed host operations on a VECTOR table, each READ AT AN INDEX, for ARBITRARY extents
  N (table entries) and E (edges): the rank-1 companions of the row gather and the accumulating row scatter.

  * the entry gather (`x[idx]` of an [N] table at a column [E, 1] of start words: `vecGather`, `vecGather_apply`):
    result e is the table at the start word of edge e, read signed and clamped into the entries [0, N − 1];
  * the accumulating entry scatter (the sum of [E] updates into an [N] operand, each at the entry its start word
    names, the start words a column [E, 1]: `vecScatter`, `vecScatter_resultIdx_iff`, `vecScatterAdd_apply`): update e lands at the
    start word of edge e read signed and NOT clamped, or nowhere when that is no entry; so result d is the operand's
    entry plus the sum over the edges whose word, read signed, is d of update e;
  * a sum over a rank-1 index set is the sum over its one coordinate (`idxEquiv1`, `sum_idx1`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## A sum over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The entry gather -/

section Gather
variable {α : Type}

/-- The dimension numbers of a gather of single entries of an [N] table at a column [E, 1] of start words:
    the one table axis collapsed and indexed, no offset axis. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The entry gather at e: the table at the clamped signed start word of e. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The same with the start word of e named: the form a caller uses when the start words are themselves computed. -/
theorem vecGather_apply_of_eq {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) (s : BitVec w)
    (hs : idx (ix2 e 0) = s) :
    Host.gather (vecGather N E wf) x idx (ix1 e) = x (ix1 ⟨min s.toInt.toNat (N - 1), by omega⟩) := by
  subst hs
  exact vecGather_apply hN wf x idx e

end Gather

/-! ## The accumulating entry scatter -/

section Scatter

/-- The dimension numbers of a scatter of single entries [E] into an [N] operand at a column [E, 1] of start
    words: no window axis, the one operand axis inserted and indexed. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

/-- The window of update e starts at the start word of e, read signed … -/
theorem vecScatter_start_zero (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is 0 (the one operand axis is inserted). -/
theorem vecScatter_window_zero (e : Fin E) :
    (vecScatter N E wf).window (ix1 e) 0 = 0 := by
  unfold ScatterDims.window
  rw [dif_neg]
  show (0 : Fin 1) ∉ (List.finRange 1).filter (· ∉ [(0 : Fin 1)])
  decide

/-- Update e lands at d exactly when the start word of e, read signed, is d. -/
theorem vecScatter_resultIdx_iff (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    have h0 := h 0
    rw [vecScatter_start_zero, vecScatter_window_zero] at h0
    constructor
    · intro hf
      have e0 := congrArg (fun f => (f 0).val) hf
      simp only [vecScatter_start_zero, vecScatter_window_zero] at e0
      have : ((ix1 d : (⟨1, ![N]⟩ : Shape).Idx) 0).val = d.val := rfl
      omega
    · intro hd
      funext a
      obtain rfl : a = 0 := Subsingleton.elim _ _
      refine Fin.ext ?_
      show ((vecScatter N E wf).start (ix1 e) idx 0 + ((vecScatter N E wf).window (ix1 e) 0 : ℕ)).toNat = d.val
      rw [vecScatter_start_zero, vecScatter_window_zero]
      omega
  · next h =>
    constructor
    · intro hf
      exact absurd hf (by simp)
    · intro hd
      exfalso
      apply h
      intro a
      obtain rfl : a = 0 := Subsingleton.elim _ _
      show 0 ≤ (vecScatter N E wf).start (ix1 e) idx 0 + ((vecScatter N E wf).window (ix1 e) 0 : ℕ)
        ∧ (vecScatter N E wf).start (ix1 e) idx 0 + ((vecScatter N E wf).window (ix1 e) 0 : ℕ) < (N : ℤ)
      rw [vecScatter_start_zero, vecScatter_window_zero]
      have := d.isLt
      omega

/-- THE ACCUMULATING ENTRY SCATTER AT d: the operand's entry plus the sum, over the edges whose start word read
    signed is d, of update e. The sum over the rank-1 update indices that land at d is the sum over their one
    coordinate. -/
theorem vecScatterAdd_apply {φ : FTy} (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, sum_idx1, Finset.sum_filter]
  refine Finset.sum_congr rfl fun e _ => ?_
  simp only [vecScatter_resultIdx_iff]

end Scatter

end Cert.ReferenceIdeal.Hand

end
-- ==== Proof.IdealHostValue0.lean ====
/-
  THE VALUES THE KERNEL PROGRAM'S HOST OPERATIONS WRITE, over the extended reals (a change of float format is the
  identity, every operation exact): the first stretch of host operations, before the first kernel.

  From ANY valuation U the stretch starts from:
  * the source words, the destination words (the given edges then one loop per node) and the edge weights
    (the product of the two end nodes' inverse square root degrees) are the reference's own terms of the edge list;
  * the aggregated scalar feature at node d is the sum over the edges landing at d of the feature at the edge's
    (normalised, clamped) source row times the edge's weight;
  * the first layer's bias as a row [1, 100] is the bias vector;
  * the reference's normalised source words are `Cert.Spec.wrapW` of its source words.
-/
import proofs.«429599_j46402826666302_2_alg».proof.Proof.Gen.KernelIdeal.Launch
import proofs.«429599_j46402826666302_2_alg».proof.Proof.Gen.ReferenceIdeal.Read
import proofs.«429599_j46402826666302_2_alg».proof.Proof.Spec
import proofs.«429599_j46402826666302_2_alg».proof.Proof.LibRowGatherScatter
import Idealize.ShloMosaic.Lib.StableHlo.Run
import Idealize.ShloMosaic.Lib.ValueLayout
import proofs.«429599_j46402826666302_2_alg».proof.Proof.IdealHostValueLib
import proofs.«429599_j46402826666302_2_alg».proof.Proof.LibVecGatherScatter

set_option maxRecDepth 16384

noncomputable section

open scoped BigOperators

namespace Cert.KernelIdeal.HostValue

open Idealize.ShloMosaic Idealize.ShloMosaic.TcCoe Idealize.SL.Sem Idealize.ShloMosaic.StableHlo Cert.KernelIdeal Cert.KernelIdeal.Gen
open Idealize.ShloMosaic.ValueIdx Cert.ReferenceIdeal.Hand

/-- A column `[a, 1]` cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The kernel program's gather of entries of a vector is the general entry gather. -/
theorem vecGather_eq : gather_S100000_S1700000x1_S1700000_n_0_n_n_0_1_1
    = vecGather 100000 1700000 Facts₀.gather_S100000_S1700000x1_S1700000_n_0_n_n_0_1_1_wf := rfl

/-- The kernel program's scatter of entries into a vector is the general entry scatter. -/
theorem vecScatter_eq : scatter_S100000_S1700000x1_S1700000_n_0_0_1
    = vecScatter 100000 1700000 Facts₀.scatter_S100000_S1700000x1_S1700000_n_0_0_1_wf := rfl

/-- ONE ROUND OF MESSAGE PASSING OVER ONE SCALAR FEATURE as the host operations write it, at d: the source words
    already normalised, the weights an array. -/
theorem aggScalarOps_apply (w16 w6 : (⟨S1700000, .i32⟩ : BufTy).Contents (Elt Ideal))
    (nv : (⟨S1700000, .f32⟩ : BufTy).Contents (Elt Ideal)) (x : (⟨S100000, .f32⟩ : BufTy).Contents (Elt Ideal))
    (d : Fin 100000) :
    Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0 w6)
        (mulf
          (Host.gather gather_S100000_S1700000x1_S1700000_n_0_n_n_0_1_1 x
            (broadcastInDim S1700000x1 ![0] bcast_S1700000_S1700000x1_0 w16))
          nv)
        (ix1 d)
      = Cert.Spec.aggScalar w16 w6 nv (fun p => x (ix1 p)) d := by
  rw [vecScatter_eq, vecGather_eq, vecScatterAdd_apply, bcastScalar_apply, constant_apply, Ideal.ofBits_zero_f32, zero_add]
  unfold Cert.Spec.aggScalar Cert.Spec.landing
  have hcol : ∀ e : Fin 1700000, broadcastInDim S1700000x1 ![0] bcast_S1700000_S1700000x1_0 w6 (ix2 e 0) = w6 (ix1 e) :=
    fun e => bcastCol_apply _ w6 e 0
  simp only [hcol]
  refine Finset.sum_congr rfl fun e _ => ?_
  rw [mulf_apply, vecGather_apply_of_eq (by decide) _ x _ e (w16 (ix1 e)) (bcastCol_apply _ w16 e 0)]
  rfl

variable (U : Valuation τ sig (Elt Ideal))

set_option maxHeartbeats 4000000 in
/-- The source words after the first stretch: the reference's term of the edge list. -/
theorem host0_src :
    StableHlo.after (hostOps0 (F := Ideal)) U (Proc.devRef .tc main_v3)
      = Cert.ReferenceIdeal.Read.val_main_v3 (F := Ideal) (U (Proc.devRef .tc main_arg1)) := by
  after_results_simp; rfl

set_option maxHeartbeats 4000000 in
/-- The destination words after the first stretch. -/
theorem host0_dst :
    StableHlo.after (hostOps0 (F := Ideal)) U (Proc.devRef .tc main_v6)
      = Cert.ReferenceIdeal.Read.val_main_v6 (F := Ideal) (U (Proc.devRef .tc main_arg1)) := by
  after_results_simp; rfl

set_option maxHeartbeats 4000000 in
/-- The edge weights after the first stretch. -/
theorem host0_norm :
    StableHlo.after (hostOps0 (F := Ideal)) U (Proc.devRef .tc main_v26)
      = Cert.ReferenceIdeal.Read.val_main_v26 (F := Ideal) (U (Proc.devRef .tc main_arg1)) := by
  after_results_simp; rfl

set_option maxHeartbeats 4000000 in
/-- The aggregated scalar feature after the first stretch, as a column. -/
theorem host0_scalar (d : Fin 100000) :
    StableHlo.after (hostOps0 (F := Ideal)) U (Proc.devRef .tc main_v39) (ix2 d 0)
      = Cert.Spec.aggScalar (Cert.ReferenceIdeal.Read.val_main_v16 (F := Ideal) (U (Proc.devRef .tc main_arg1)))
          (Cert.ReferenceIdeal.Read.val_main_v6 (F := Ideal) (U (Proc.devRef .tc main_arg1)))
          (Cert.ReferenceIdeal.Read.val_main_v26 (F := Ideal) (U (Proc.devRef .tc main_arg1)))
          (fun p => U (Proc.devRef .tc main_arg0) (ix2 p 0)) d := by
  have e : StableHlo.after (hostOps0 (F := Ideal)) U (Proc.devRef .tc main_v39)
      = shapeCast S100000x1
          (Host.scatterAdd (F := Ideal) scatter_S100000_S1700000x1_S1700000_n_0_0_1
            (broadcastInDim S100000 ![] bcast_S_S100000 (constant (F := Ideal) S_ .f32 0x00000000#32))
            (broadcastInDim S1700000x1 ![0] bcast_S1700000_S1700000x1_0
              (Cert.ReferenceIdeal.Read.val_main_v6 (F := Ideal) (U (Proc.devRef .tc main_arg1))))
            (mulf
              (Host.gather gather_S100000_S1700000x1_S1700000_n_0_n_n_0_1_1
                (shapeCast S100000 (U (Proc.devRef .tc main_arg0)) shapeCasts_S100000x1_S100000)
                (broadcastInDim S1700000x1 ![0] bcast_S1700000_S1700000x1_0
                  (Cert.ReferenceIdeal.Read.val_main_v16 (F := Ideal) (U (Proc.devRef .tc main_arg1)))))
              (Cert.ReferenceIdeal.Read.val_main_v26 (F := Ideal) (U (Proc.devRef .tc main_arg1)))))
          shapeCasts_S100000_S100000x1 := by
    after_results_simp; rfl
  rw [e, shapeCast_a_a1_apply _ _ d 0, aggScalarOps_apply]
  congr 1
  funext p
  exact shapeCast_a1_a_apply _ _ p

set_option maxHeartbeats 4000000 in
/-- The first layer's bias as a row. -/
theorem host0_bias (k : Fin 100) :
    StableHlo.after (hostOps0 (F := Ideal)) U (Proc.devRef .tc main_v40) (ix2 0 k)
      = U (Proc.devRef .tc main_arg4) (ix1 k) := by
  have e : StableHlo.after (hostOps0 (F := Ideal)) U (Proc.devRef .tc main_v40)
      = shapeCast S1x100 (U (Proc.devRef .tc main_arg4)) shapeCasts_S100_S1x100 := by
    after_results_simp; rfl
  rw [e]
  exact shapeCast_a_1a_apply _ _ 0 k

/-- The reference's normalised source words are the specification's normalisation of its source words. -/
theorem wrap_src (x1 : (⟨Cert.ReferenceIdeal.S2x1600000, .i32⟩ : BufTy).Contents (Elt Ideal)) :
    Cert.Spec.wrapW (Cert.ReferenceIdeal.Read.val_main_v3 (F := Ideal) x1)
      = Cert.ReferenceIdeal.Read.val_main_v16 (F := Ideal) x1 := by
  funext i
  rw [Cert.ReferenceIdeal.Read.val_main_v16_apply, Cert.ReferenceIdeal.Read.val_main_v13_apply,
    Cert.ReferenceIdeal.Read.val_main_v15_apply, Cert.ReferenceIdeal.Read.val_main_v12_apply,
    Cert.ReferenceIdeal.Read.val_main_v14_apply, Cert.ReferenceIdeal.Read.val_main_c_apply,
    Cert.ReferenceIdeal.Read.val_main_c_1_apply, wrap_select]
  rfl

end Cert.KernelIdeal.HostValue

end
-- ==== Proof.IdealHostValue1.lean ====
/-
  THE VALUES THE KERNEL PROGRAM'S HOST OPERATIONS WRITE, over the extended reals: the second stretch of host
  operations, between the first kernel and the second.

  From ANY valuation U the stretch starts from:
  * the aggregated rows at (d, q): the sum over the edges landing at d of the first layer's row at the edge's source,
    feature q, times the edge's weight (the source words normalised anew from the source word buffer; the destination
    words, the weights and the table are buffers the stretch only reads);
  * the second layer's bias as a row: the bias vector.
-/
import proofs.«429599_j46402826666302_2_alg».proof.Proof.Gen.KernelIdeal.Launch
import proofs.«429599_j46402826666302_2_alg».proof.Proof.Gen.ReferenceIdeal.Read
import proofs.«429599_j46402826666302_2_alg».proof.Proof.Spec
import proofs.«429599_j46402826666302_2_alg».proof.Proof.LibRowGatherScatter
import Idealize.ShloMosaic.Lib.StableHlo.Run
import Idealize.ShloMosaic.Lib.ValueLayout
import proofs.«429599_j46402826666302_2_alg».proof.Proof.IdealHostValueLib

set_option maxRecDepth 16384

noncomputable section

open scoped BigOperators

namespace Cert.KernelIdeal.HostValue

open Idealize.ShloMosaic Idealize.ShloMosaic.TcCoe Idealize.SL.Sem Idealize.ShloMosaic.StableHlo Cert.KernelIdeal Cert.KernelIdeal.Gen
open Idealize.ShloMosaic.ValueIdx

variable (U : Valuation τ sig (Elt Ideal))

set_option maxHeartbeats 4000000 in
/-- The aggregated rows after the second stretch. -/
theorem host1_agg (d : Fin 100000) (q : Fin 100) :
    StableHlo.after (hostOps1 (F := Ideal)) U (Proc.devRef .tc main_v55) (ix2 d q)
      = Cert.Spec.agg (Cert.Spec.wrapW (U (Proc.devRef .tc main_v3))) (U (Proc.devRef .tc main_v6))
          (U (Proc.devRef .tc main_v26)) (fun p k => U (Proc.devRef .tc main_v41) (ix2 p k)) d q := by
  rw [← aggOps_apply]
  after_results_simp

set_option maxHeartbeats 4000000 in
/-- The second layer's bias as a row. -/
theorem host1_bias (k : Fin 100) :
    StableHlo.after (hostOps1 (F := Ideal)) U (Proc.devRef .tc main_v56) (ix2 0 k)
      = U (Proc.devRef .tc main_arg6) (ix1 k) := by
  have e : StableHlo.after (hostOps1 (F := Ideal)) U (Proc.devRef .tc main_v56)
      = shapeCast S1x100 (U (Proc.devRef .tc main_arg6)) shapeCasts_S100_S1x100 := by
    after_results_simp; rfl
  rw [e]
  exact shapeCast_a_1a_apply _ _ 0 k

end Cert.KernelIdeal.HostValue

end
-- ==== Proof.IdealHostValue2.lean ====
/-
  THE VALUES THE KERNEL PROGRAM'S HOST OPERATIONS WRITE, over the extended reals: the third stretch of host
  operations, between the second kernel and the third.

  From ANY valuation U the stretch starts from:
  * the aggregated rows at (d, q): the sum over the edges landing at d of the second layer's row at the edge's source,
    feature q, times the edge's weight;
  * the third layer's bias as a row, the group words as a column, the classifier's bias as a row: the vectors themselves;
  * the group sizes as a column: the reference's own term (the count of each group's nodes, at least one).
-/
import proofs.«429599_j46402826666302_2_alg».proof.Proof.Gen.KernelIdeal.Launch
import proofs.«429599_j46402826666302_2_alg».proof.Proof.Gen.ReferenceIdeal.Read
import proofs.«429599_j46402826666302_2_alg».proof.Proof.Spec
import proofs.«429599_j46402826666302_2_alg».proof.Proof.LibRowGatherScatter
import Idealize.ShloMosaic.Lib.StableHlo.Run
import Idealize.ShloMosaic.Lib.ValueLayout
import proofs.«429599_j46402826666302_2_alg».proof.Proof.IdealHostValueLib

set_option maxRecDepth 16384

noncomputable section

open scoped BigOperators

namespace Cert.KernelIdeal.HostValue

open Idealize.ShloMosaic Idealize.ShloMosaic.TcCoe Idealize.SL.Sem Idealize.ShloMosaic.StableHlo Cert.KernelIdeal Cert.KernelIdeal.Gen
open Idealize.ShloMosaic.ValueIdx

variable (U : Valuation τ sig (Elt Ideal))

set_option maxHeartbeats 4000000 in
/-- The aggregated rows after the third stretch. -/
theorem host2_agg (d : Fin 100000) (q : Fin 100) :
    StableHlo.after (hostOps2 (F := Ideal)) U (Proc.devRef .tc main_v71) (ix2 d q)
      = Cert.Spec.agg (Cert.Spec.wrapW (U (Proc.devRef .tc main_v3))) (U (Proc.devRef .tc main_v6))
          (U (Proc.devRef .tc main_v26)) (fun p k => U (Proc.devRef .tc main_v57) (ix2 p k)) d q := by
  rw [← aggOps_apply]
  after_results_simp

set_option maxHeartbeats 4000000 in
/-- The third layer's bias as a row. -/
theorem host2_bias (k : Fin 100) :
    StableHlo.after (hostOps2 (F := Ideal)) U (Proc.devRef .tc main_v78) (ix2 0 k)
      = U (Proc.devRef .tc main_arg8) (ix1 k) := by
  have e : StableHlo.after (hostOps2 (F := Ideal)) U (Proc.devRef .tc main_v78)
      = shapeCast S1x100 (U (Proc.devRef .tc main_arg8)) shapeCasts_S100_S1x100 := by
    after_results_simp; rfl
  rw [e]
  exact shapeCast_a_1a_apply _ _ 0 k

set_option maxHeartbeats 4000000 in
/-- The group words as a column. -/
theorem host2_batch (n : Fin 100000) :
    StableHlo.after (hostOps2 (F := Ideal)) U (Proc.devRef .tc main_v79) (ix2 n 0)
      = U (Proc.devRef .tc main_arg2) (ix1 n) := by
  have e : StableHlo.after (hostOps2 (F := Ideal)) U (Proc.devRef .tc main_v79)
      = shapeCast S100000x1 (U (Proc.devRef .tc main_arg2)) shapeCasts_S100000_S100000x1 := by
    after_results_simp; rfl
  rw [e]
  exact shapeCast_a_a1_apply _ _ n 0

set_option maxHeartbeats 4000000 in
/-- The group sizes as a column: the reference's own term of the group words. -/
theorem host2_cnt (g : Fin 128) :
    StableHlo.after (hostOps2 (F := Ideal)) U (Proc.devRef .tc main_v80) (ix2 g 0)
      = Cert.ReferenceIdeal.Read.val_main_v88 (F := Ideal) (U (Proc.devRef .tc main_arg2)) (ix1 g) := by
  have e : StableHlo.after (hostOps2 (F := Ideal)) U (Proc.devRef .tc main_v80)
      = shapeCast S128x1 (Cert.ReferenceIdeal.Read.val_main_v88 (F := Ideal) (U (Proc.devRef .tc main_arg2))) shapeCasts_S128_S128x1 := by
    after_results_simp; rfl
  rw [e]
  exact shapeCast_a_a1_apply _ _ g 0

set_option maxHeartbeats 4000000 in
/-- The classifier's bias as a row. -/
theorem host2_bl (j : Fin 8) :
    StableHlo.after (hostOps2 (F := Ideal)) U (Proc.devRef .tc main_v81) (ix2 0 j)
      = U (Proc.devRef .tc main_arg10) (ix1 j) := by
  have e : StableHlo.after (hostOps2 (F := Ideal)) U (Proc.devRef .tc main_v81)
      = shapeCast S1x8 (U (Proc.devRef .tc main_arg10)) shapeCasts_S8_S1x8 := by
    after_results_simp; rfl
  rw [e]
  exact shapeCast_a_1a_apply _ _ 0 j

end Cert.KernelIdeal.HostValue

end
-- ==== Proof.IdealKernelValue.lean ====
/-
  WHAT THE IDEALIZED KERNEL PROGRAM RETURNS, as the specification's function of its arguments.

  The run leaves every buffer at the last of a chain of valuations: the launch memory, then alternately a stretch of
  host operations and a kernel region that replaces its output array. Reading that chain backwards from the result:
  the third region's output is the group mean and classifier of the array the third stretch aggregated from the second
  region's output; that one is the rectified, transformed aggregate of the first region's output; and the first
  region expands the aggregated scalar feature by the first weight row, rectifies and transforms. The edge words and
  edge weights every stretch reads are the ones the first stretch computed from the edge list, untouched since; so the
  three aggregations are the specification's `agg` over the same edges, and the whole is `Cert.Spec.kerOut`.
-/
import proofs.«429599_j46402826666302_2_alg».proof.Proof.IdealRun
import proofs.«429599_j46402826666302_2_alg».proof.Proof.IdealExpandValue
import proofs.«429599_j46402826666302_2_alg».proof.Proof.IdealTransformValue
import proofs.«429599_j46402826666302_2_alg».proof.Proof.IdealPoolValue
import proofs.«429599_j46402826666302_2_alg».proof.Proof.IdealHostValue0
import proofs.«429599_j46402826666302_2_alg».proof.Proof.IdealHostValue1
import proofs.«429599_j46402826666302_2_alg».proof.Proof.IdealHostValue2
import proofs.«429599_j46402826666302_2_alg».proof.Proof.Spec

set_option maxRecDepth 16384

noncomputable section

open scoped BigOperators

namespace Cert.KernelIdeal.KernelValue

open Cert.KernelIdeal Cert.KernelIdeal.Gen Cert.KernelIdeal.Frame Cert.KernelIdeal.RegionValue Cert.KernelIdeal.HostValue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- An argument array as the launch memory holds it. -/
abbrev arg (r : Ref sig .tc) : Buf (Elt Ideal) ((c : Thread nD τ).loc r) := m ((c : Thread nD τ).loc r)

/-! ## The edge words and weights, at every boundary, are the first stretch's -/

theorem src1 : W1 m ρ c (Proc.devRef .tc main_v3) = Cert.ReferenceIdeal.Read.val_main_v3 (F := Ideal) (arg m c main_arg1) := host0_src (W0 m ρ c)
theorem dst1 : W1 m ρ c (Proc.devRef .tc main_v6) = Cert.ReferenceIdeal.Read.val_main_v6 (F := Ideal) (arg m c main_arg1) := host0_dst (W0 m ρ c)
theorem nrm1 : W1 m ρ c (Proc.devRef .tc main_v26) = Cert.ReferenceIdeal.Read.val_main_v26 (F := Ideal) (arg m c main_arg1) := host0_norm (W0 m ρ c)

theorem src2 : W2 m ρ c (Proc.devRef .tc main_v3) = Cert.ReferenceIdeal.Read.val_main_v3 (F := Ideal) (arg m c main_arg1) :=
  (W2_of_ne m ρ c main_v3 (by decide)).trans (src1 m ρ c)
theorem dst2 : W2 m ρ c (Proc.devRef .tc main_v6) = Cert.ReferenceIdeal.Read.val_main_v6 (F := Ideal) (arg m c main_arg1) :=
  (W2_of_ne m ρ c main_v6 (by decide)).trans (dst1 m ρ c)
theorem nrm2 : W2 m ρ c (Proc.devRef .tc main_v26) = Cert.ReferenceIdeal.Read.val_main_v26 (F := Ideal) (arg m c main_arg1) :=
  (W2_of_ne m ρ c main_v26 (by decide)).trans (nrm1 m ρ c)

theorem src4 : W4 m ρ c (Proc.devRef .tc main_v3) = Cert.ReferenceIdeal.Read.val_main_v3 (F := Ideal) (arg m c main_arg1) :=
  (W4_of_ne m ρ c main_v3 (by decide)).trans ((W3_of m ρ c main_v3 (by decide)).trans (src2 m ρ c))
theorem dst4 : W4 m ρ c (Proc.devRef .tc main_v6) = Cert.ReferenceIdeal.Read.val_main_v6 (F := Ideal) (arg m c main_arg1) :=
  (W4_of_ne m ρ c main_v6 (by decide)).trans ((W3_of m ρ c main_v6 (by decide)).trans (dst2 m ρ c))
theorem nrm4 : W4 m ρ c (Proc.devRef .tc main_v26) = Cert.ReferenceIdeal.Read.val_main_v26 (F := Ideal) (arg m c main_arg1) :=
  (W4_of_ne m ρ c main_v26 (by decide)).trans ((W3_of m ρ c main_v26 (by decide)).trans (nrm2 m ρ c))

/-! ## An argument no stretch writes and no region replaces is the launch memory's at every boundary -/

theorem keep1 (r : Ref sig .tc) (h0 : r ∉ hostOps0_W) : W1 m ρ c (Proc.devRef .tc r) = W0 m ρ c (Proc.devRef .tc r) := W1_of m ρ c r h0
theorem keep2 (r : Ref sig .tc) (h0 : r ∉ hostOps0_W) (h1 : ∀ w, Pipeline.arrRef spec0 w ≠ r) :
    W2 m ρ c (Proc.devRef .tc r) = W0 m ρ c (Proc.devRef .tc r) := (W2_of_ne m ρ c r h1).trans (keep1 m ρ c r h0)
theorem keep3 (r : Ref sig .tc) (h0 : r ∉ hostOps0_W) (h1 : ∀ w, Pipeline.arrRef spec0 w ≠ r) (h2 : r ∉ hostOps1_W) :
    W3 m ρ c (Proc.devRef .tc r) = W0 m ρ c (Proc.devRef .tc r) := (W3_of m ρ c r h2).trans (keep2 m ρ c r h0 h1)
theorem keep4 (r : Ref sig .tc) (h0 : r ∉ hostOps0_W) (h1 : ∀ w, Pipeline.arrRef spec0 w ≠ r) (h2 : r ∉ hostOps1_W)
    (h3 : ∀ w, Pipeline.arrRef spec1 w ≠ r) :
    W4 m ρ c (Proc.devRef .tc r) = W0 m ρ c (Proc.devRef .tc r) := (W4_of_ne m ρ c r h3).trans (keep3 m ρ c r h0 h1 h2)
theorem keep5 (r : Ref sig .tc) (h0 : r ∉ hostOps0_W) (h1 : ∀ w, Pipeline.arrRef spec0 w ≠ r) (h2 : r ∉ hostOps1_W)
    (h3 : ∀ w, Pipeline.arrRef spec1 w ≠ r) (h4 : r ∉ hostOps2_W) :
    W5 m ρ c (Proc.devRef .tc r) = W0 m ρ c (Proc.devRef .tc r) := (W5_of m ρ c r h4).trans (keep4 m ρ c r h0 h1 h2 h3)

/-! ## The edges, as the specification reads them -/

/-- The wrapped source words, the destination words and the edge weights, from the edge list. -/
abbrev eSrc : Cert.Spec.Wrd1 1700000 := Cert.ReferenceIdeal.Read.val_main_v16 (F := Ideal) (arg m c main_arg1)
abbrev eDst : Cert.Spec.Wrd1 1700000 := Cert.ReferenceIdeal.Read.val_main_v6 (F := Ideal) (arg m c main_arg1)
abbrev eNv : Cert.Spec.Arr1 1700000 := Cert.ReferenceIdeal.Read.val_main_v26 (F := Ideal) (arg m c main_arg1)

/-! ## Region by region -/

/-- The first layer's rows before the rectifier, as the kernel program computes them. -/
abbrev pre1 : Fin 100000 → Fin 100 → EReal :=
  Cert.Spec.kerPre1 (eSrc m c) (eDst m c) (eNv m c) (arg m c main_arg0) (arg m c main_arg3) (arg m c main_arg4)

/-- Region 0 leaves the rectified first layer times the second weight matrix. -/
theorem out0 (p : Fin 100000) (q : Fin 100) :
    (W2 m ρ c (Proc.devRef .tc main_v41) : Vec Ideal S100000x100 .bf16) (ix2 p q)
      = Cert.Spec.dense (fun p k => max (pre1 m c p k) 0) (arg m c main_arg5) p q := by
  have hs : ∀ d : Fin 100000, (V1 m ρ c main_v39 : Vec Ideal S100000x1 .f32) (ix2 d 0)
      = Cert.Spec.aggScalar (eSrc m c) (eDst m c) (eNv m c) (fun p => (arg m c main_arg0 : Vec Ideal S100000x1 .f32) (ix2 p 0)) d :=
    fun d => host0_scalar (W0 m ρ c) d
  have hb : ∀ k : Fin 100, (V1 m ρ c main_v40 : Vec Ideal S1x100 .f32) (ix2 0 k) = (arg m c main_arg4 : Vec Ideal S100 .f32) (ix1 k) :=
    fun k => host0_bias (W0 m ρ c) k
  have hw1 : (V1 m ρ c main_arg3 : Vec Ideal S1x100 .f32) = arg m c main_arg3 := keep1 m ρ c main_arg3 (by decide)
  have hw2 : (V1 m ρ c main_arg5 : Vec Ideal S100x100 .f32) = arg m c main_arg5 := keep1 m ρ c main_arg5 (by decide)
  rw [show W2 m ρ c (Proc.devRef .tc main_v41) = (dat0 (V1 m ρ) c).arrAt 4 cfg0.N from W2_arr m ρ c 4]
  rw [expand_final (V1 m ρ) c _ _ _ _ rfl hw1 rfl hw2 p q]
  simp only [hs, hb]
  rfl

/-- Region 1 finds the first aggregation of region 0's output, and leaves its rectified rows times the third matrix. -/
theorem out1 (p : Fin 100000) (q : Fin 100) :
    (W4 m ρ c (Proc.devRef .tc main_v57) : Vec Ideal S100000x100 .bf16) (ix2 p q)
      = Cert.Spec.dense (Cert.Spec.relu (Cert.Spec.agg (eSrc m c) (eDst m c) (eNv m c)
          (Cert.Spec.dense (fun p k => max (pre1 m c p k) 0) (arg m c main_arg5))) (arg m c main_arg6)) (arg m c main_arg7) p q := by
  have ha : ∀ (d : Fin 100000) (k : Fin 100), (V3 m ρ c main_v55 : Vec Ideal S100000x100 .f32) (ix2 d k)
      = Cert.Spec.agg (eSrc m c) (eDst m c) (eNv m c) (Cert.Spec.dense (fun p k => max (pre1 m c p k) 0) (arg m c main_arg5)) d k := by
    intro d k
    refine (host1_agg (W2 m ρ c) d k).trans ?_
    rw [src2 m ρ c, dst2 m ρ c, nrm2 m ρ c, wrap_src]
    have hfun : (fun p k => (W2 m ρ c (Proc.devRef .tc main_v41) : Vec Ideal S100000x100 .bf16) (ix2 p k))
        = Cert.Spec.dense (fun p k => max (pre1 m c p k) 0) (arg m c main_arg5) :=
      funext fun p => funext fun k => out0 m ρ c p k
    exact congrArg (fun t => Cert.Spec.agg (eSrc m c) (eDst m c) (eNv m c) t d k) hfun
  have hb : ∀ k : Fin 100, (V3 m ρ c main_v56 : Vec Ideal S1x100 .f32) (ix2 0 k) = (arg m c main_arg6 : Vec Ideal S100 .f32) (ix1 k) :=
    fun k => (host1_bias (W2 m ρ c) k).trans (congrFun (keep2 m ρ c main_arg6 (by decide) (by decide)) _)
  have hw : (V3 m ρ c main_arg7 : Vec Ideal S100x100 .f32) = arg m c main_arg7 := keep3 m ρ c main_arg7 (by decide) (by decide) (by decide)
  rw [show W4 m ρ c (Proc.devRef .tc main_v57) = (dat1 (V3 m ρ) c).arrAt 3 cfg1.N from W4_arr m ρ c 3]
  rw [transform_final (V3 m ρ) c _ _ _ rfl rfl hw p q]
  simp only [ha, hb]
  rfl

/-- THE RESULT. Region 2 finds the second aggregation, the third bias as a row, the group words as a column, the group
    sizes as a column, the classifier and its bias as a row; its output array is the specification's result. -/
theorem kernel_result (g : Fin 128) (j : Fin 8) :
    (W6 m ρ c (Proc.devRef .tc main_v82) : Vec Ideal S128x8 .f32) (ix2 g j)
      = Cert.Spec.kerOut (eSrc m c) (eDst m c) (eNv m c) (arg m c main_arg2) (Cert.ReferenceIdeal.Read.val_main_v88 (F := Ideal) (arg m c main_arg2))
          (arg m c main_arg0) (arg m c main_arg3) (arg m c main_arg4) (arg m c main_arg5) (arg m c main_arg6) (arg m c main_arg7)
          (arg m c main_arg8) (arg m c main_arg9) (arg m c main_arg10) g j := by
  have ha : ∀ (d : Fin 100000) (k : Fin 100), (V5 m ρ c main_v71 : Vec Ideal S100000x100 .f32) (ix2 d k)
      = Cert.Spec.agg (eSrc m c) (eDst m c) (eNv m c)
          (Cert.Spec.dense (Cert.Spec.relu (Cert.Spec.agg (eSrc m c) (eDst m c) (eNv m c)
            (Cert.Spec.dense (fun p k => max (pre1 m c p k) 0) (arg m c main_arg5))) (arg m c main_arg6)) (arg m c main_arg7)) d k := by
    intro d k
    refine (host2_agg (W4 m ρ c) d k).trans ?_
    rw [src4 m ρ c, dst4 m ρ c, nrm4 m ρ c, wrap_src]
    have hfun : (fun p k => (W4 m ρ c (Proc.devRef .tc main_v57) : Vec Ideal S100000x100 .bf16) (ix2 p k))
        = Cert.Spec.dense (Cert.Spec.relu (Cert.Spec.agg (eSrc m c) (eDst m c) (eNv m c)
            (Cert.Spec.dense (fun p k => max (pre1 m c p k) 0) (arg m c main_arg5))) (arg m c main_arg6)) (arg m c main_arg7) :=
      funext fun p => funext fun k => out1 m ρ c p k
    exact congrArg (fun t => Cert.Spec.agg (eSrc m c) (eDst m c) (eNv m c) t d k) hfun
  have hb3 : ∀ k : Fin 100, (V5 m ρ c main_v78 : Vec Ideal S1x100 .f32) (ix2 0 k) = (arg m c main_arg8 : Vec Ideal S100 .f32) (ix1 k) :=
    fun k => (host2_bias (W4 m ρ c) k).trans (congrFun (keep4 m ρ c main_arg8 (by decide) (by decide) (by decide) (by decide)) _)
  have hbt : ∀ n : Fin 100000, (V5 m ρ c main_v79 : Vec Ideal S100000x1 .i32) (ix2 n 0) = (arg m c main_arg2 : Vec Ideal S100000 .i32) (ix1 n) :=
    fun n => (host2_batch (W4 m ρ c) n).trans (congrFun (keep4 m ρ c main_arg2 (by decide) (by decide) (by decide) (by decide)) _)
  have hcn : ∀ g : Fin 128, (V5 m ρ c main_v80 : Vec Ideal S128x1 .f32) (ix2 g 0) = Cert.ReferenceIdeal.Read.val_main_v88 (F := Ideal) (arg m c main_arg2) (ix1 g) :=
    fun g => (host2_cnt (W4 m ρ c) g).trans (by rw [keep4 m ρ c main_arg2 (by decide) (by decide) (by decide) (by decide)])
  have hwl : (V5 m ρ c main_arg9 : Vec Ideal S100x8 .f32) = arg m c main_arg9 :=
    keep5 m ρ c main_arg9 (by decide) (by decide) (by decide) (by decide) (by decide)
  have hbl : ∀ j : Fin 8, (V5 m ρ c main_v81 : Vec Ideal S1x8 .f32) (ix2 0 j) = (arg m c main_arg10 : Vec Ideal S8 .f32) (ix1 j) :=
    fun j => (host2_bl (W4 m ρ c) j).trans (congrFun (keep4 m ρ c main_arg10 (by decide) (by decide) (by decide) (by decide)) _)
  rw [show W6 m ρ c (Proc.devRef .tc main_v82) = (dat2 (V5 m ρ) c).arrAt 6 cfg2.N from W6_result m ρ c]
  rw [pool_final (V5 m ρ) c _ _ _ _ _ _ rfl rfl rfl rfl hwl rfl g j]
  simp only [ha, hb3, hbt, hcn, hbl]
  rfl

end Cert.KernelIdeal.KernelValue

end
-- ==== Proof.RefLayer.lean ====
/-
  ONE ROUND OF MESSAGE PASSING OF THE REFERENCE, READ AT AN INDEX over the extended reals.

  A round takes a table T of 100000 feature rows of width 100: it gathers, for every edge e, the row the wrapped
  source word of e names (read signed and clamped into the rows), multiplies it by the weight of e (the weight
  spread over the 100 features), and adds it into the row the raw destination word of e names, starting from zeros.
  Read at (d, q) this is the specification's `agg`: the sum over the edges landing at d of T (source row) q · weight.
  The three layers of the reference are three instances of this one round: the three copies of the wrapped source
  column, of the destination column, of the weight block and of the zero table are the same terms.
-/
import proofs.«429599_j46402826666302_2_alg».proof.Proof.Gen.ReferenceIdeal.Read
import proofs.«429599_j46402826666302_2_alg».proof.Proof.LibRowGatherScatter
import proofs.«429599_j46402826666302_2_alg».proof.Proof.Spec
import Idealize.ShloMosaic.Lib.ValueIdx
import Idealize.ShloMosaic.PureOps.Ideal
import Mathlib.Algebra.BigOperators.Group.Finset.Basic

noncomputable section

open scoped BigOperators

namespace Cert.ReferenceIdeal.RefValue

open Cert.ReferenceIdeal Cert.ReferenceIdeal.Gen Idealize.ShloMosaic Idealize.ShloMosaic.ValueIdx

/-- The edge list as the program holds it, and a table of feature rows. -/
abbrev Edges : Type := (⟨S2x1600000, .i32⟩ : BufTy).Contents (Elt Ideal)
abbrev Tab : Type := (⟨S100000x100, .f32⟩ : BufTy).Contents (Elt Ideal)

/-! ## The columns and blocks a round reads, at an index -/

/-- The destination column at (e, 0): the destination word of e. -/
theorem dstCol_apply (x1 : Edges) (e : Fin 1700000) (z : Fin 1) :
    Read.val_main_v39 (F := Ideal) x1 (ix2 e z) = Read.val_main_v6 (F := Ideal) x1 (ix1 e) := by
  unfold Read.val_main_v39
  exact Hand.bcastCol_apply _ _ e z

/-- The wrapped source column at (e, 0): the wrapped source word of e. -/
theorem srcCol_apply (x1 : Edges) (e : Fin 1700000) (z : Fin 1) :
    Read.val_main_v17 (F := Ideal) x1 (ix2 e z) = Read.val_main_v16 (F := Ideal) x1 (ix1 e) := by
  unfold Read.val_main_v17
  exact Hand.bcastCol_apply _ _ e z

/-- The weight block at (e, q): the weight of e. -/
theorem wgt_apply (x1 : Edges) (e : Fin 1700000) (q : Fin 100) :
    Read.val_main_v36 (F := Ideal) x1 (ix2 e q) = Read.val_main_v26 (F := Ideal) x1 (ix1 e) := by
  unfold Read.val_main_v36
  rw [Hand.bcastFeat_apply]
  unfold Read.val_main_v35
  exact Hand.bcastCol_apply _ _ e 0

/-- The zero table reads 0 everywhere. -/
theorem zeros_apply (i : S100000x100.Idx) : Read.val_main_v38 (F := Ideal) i = 0 := by
  unfold Read.val_main_v38
  rw [Hand.bcastScalar_apply]
  unfold Read.val_main_cst_6
  rw [constant_apply, Ideal.ofBits_zero_f32]

/-! ## The round -/

/-- One round over a table: gather at the wrapped source column, times the weight block, scatter-added at the
    destination column into zeros. -/
def round (x1 : Edges) (T : Tab) : Tab :=
  Host.scatterAdd (F := Ideal) (φ := .f32) scatter_S100000x100_S1700000x1_S1700000x100_1_0_0_1 (Read.val_main_v38 (F := Ideal))
    (Read.val_main_v39 (F := Ideal) x1)
    (mulf (F := Ideal) (φ := .f32) (Host.gather gather_S100000x100_S1700000x1_S1700000x100_1_0_n_n_0_1_1100 T (Read.val_main_v17 (F := Ideal) x1))
      (Read.val_main_v36 (F := Ideal) x1))

/-- The program's scatter and gather records are the row scatter and the row gather of the general lemmas. -/
theorem scatterRec_eq : scatter_S100000x100_S1700000x1_S1700000x100_1_0_0_1
    = Hand.rowScatter 100000 1700000 100 Facts₀.scatter_S100000x100_S1700000x1_S1700000x100_1_0_0_1_wf := rfl

theorem gatherRec_eq : gather_S100000x100_S1700000x1_S1700000x100_1_0_n_n_0_1_1100
    = Hand.rowGather 100000 1700000 100 Facts₀.gather_S100000x100_S1700000x1_S1700000x100_1_0_n_n_0_1_1100_wf := rfl

/-- THE ROUND AT (d, q) is the specification's aggregation of the table. -/
theorem round_apply (x1 : Edges) (T : Tab) (d : Fin 100000) (q : Fin 100) :
    round x1 T (ix2 d q)
      = Cert.Spec.agg (Read.val_main_v16 (F := Ideal) x1) (Read.val_main_v6 (F := Ideal) x1) (Read.val_main_v26 (F := Ideal) x1)
          (fun p k => T (ix2 p k)) d q := by
  unfold round
  rw [scatterRec_eq, gatherRec_eq, Hand.rowScatterAdd_apply, zeros_apply, zero_add]
  simp only [dstCol_apply, mulf_apply, Hand.rowGather_apply (by decide : 0 < 100000), srcCol_apply, wgt_apply]
  rfl

/-! ## The three layers are three instances of the round -/

/-- The bias row spread over the rows, at (d, q): the bias at q. -/
theorem biasRows_apply (b : (⟨S100, .f32⟩ : BufTy).Contents (Elt Ideal)) (d : Fin 100000) (q : Fin 100) :
    broadcastInDim S100000x100 ![0, 1] Facts₀.bcast_S1x100_S100000x100_0_1
      (broadcastInDim S1x100 ![1] Facts₀.bcast_S100_S1x100_1 b) (ix2 d q) = b (ix1 q) := by
  rw [Hand.bcastRows_apply, Hand.bcastRow_apply]

/-- First layer: the round over the feature column times the first weight row. -/
theorem v40_eq (x0 : (⟨S100000x1, .f32⟩ : BufTy).Contents (Elt Ideal)) (x1 : Edges) (x3 : (⟨S1x100, .f32⟩ : BufTy).Contents (Elt Ideal)) :
    Read.val_main_v40 (F := Ideal) x0 x1 x3 = round x1 (Read.val_main_v27 (F := Ideal) x0 x3) := rfl

/-- Second layer: the round over the second dense product. -/
theorem v58_eq (x0 : (⟨S100000x1, .f32⟩ : BufTy).Contents (Elt Ideal)) (x1 : Edges) (x3 : (⟨S1x100, .f32⟩ : BufTy).Contents (Elt Ideal)) (x4 : (⟨S100, .f32⟩ : BufTy).Contents (Elt Ideal)) (x5 : (⟨S100x100, .f32⟩ : BufTy).Contents (Elt Ideal)) :
    Read.val_main_v58 (F := Ideal) x0 x1 x3 x4 x5 = round x1 (Read.val_main_v45 (F := Ideal) x0 x1 x3 x4 x5) := rfl

/-- Third layer: the round over the third dense product. -/
theorem v76_eq (x0 : (⟨S100000x1, .f32⟩ : BufTy).Contents (Elt Ideal)) (x1 : Edges) (x3 : (⟨S1x100, .f32⟩ : BufTy).Contents (Elt Ideal)) (x4 : (⟨S100, .f32⟩ : BufTy).Contents (Elt Ideal)) (x5 : (⟨S100x100, .f32⟩ : BufTy).Contents (Elt Ideal))
    (x6 : (⟨S100, .f32⟩ : BufTy).Contents (Elt Ideal)) (x7 : (⟨S100x100, .f32⟩ : BufTy).Contents (Elt Ideal)) :
    Read.val_main_v76 (F := Ideal) x0 x1 x3 x4 x5 x6 x7
      = round x1 (Read.val_main_v63 (F := Ideal) x0 x1 x3 x4 x5 x6 x7) := rfl

end Cert.ReferenceIdeal.RefValue

end
-- ==== Proof.RefValue.lean ====
/-
  THE REFERENCE'S RESULT, INDEX BY INDEX, IS THE SPECIFICATION'S `refOut`.

  Top down: the result is the classifier product plus its bias; the classifier's left operand is the quotient of the
  group sums by the group counts; the group sums are a row scatter of the third layer's rows (bias included) at the
  group column, which read at (g, k) is the sum over the nodes of [group word of n = g] · row n at k; every layer is one
  round of message passing over a dense product (the first over the feature column times the first weight row), plus
  its bias; the rectifier is the maximum with a zero table. Each stage is read at explicit coordinates and named by
  the specification's own function (`refPre1`, `dense`, `agg`, `relu`, `classify`).
-/
import proofs.«429599_j46402826666302_2_alg».proof.Proof.Gen.ReferenceIdeal.Read
import proofs.«429599_j46402826666302_2_alg».proof.Proof.LibRowGatherScatter
import proofs.«429599_j46402826666302_2_alg».proof.Proof.Spec
import proofs.«429599_j46402826666302_2_alg».proof.Proof.RefLayer
import Idealize.ShloMosaic.Lib.ValueIdx
import Idealize.ShloMosaic.PureOps.Ideal
import Mathlib.Algebra.BigOperators.Group.Finset.Basic

noncomputable section

open scoped BigOperators

namespace Cert.ReferenceIdeal.RefValue

open Cert.ReferenceIdeal Cert.ReferenceIdeal.Gen Idealize.ShloMosaic Idealize.ShloMosaic.ValueIdx

/-! ## The index maps of the four dense products, at explicit coordinates -/

theorem lidx27 (p : Fin 100000) (q : Fin 100) (k : Fin 1) : Read.lidx_main_v27 (ix2 p q) k = ix2 p k :=
  funext fun a => Fin.ext (by match a with | ⟨0, _⟩ => rfl | ⟨1, _⟩ => rfl)
theorem ridx27 (p : Fin 100000) (q : Fin 100) (k : Fin 1) : Read.ridx_main_v27 (ix2 p q) k = ix2 k q :=
  funext fun a => Fin.ext (by match a with | ⟨0, _⟩ => rfl | ⟨1, _⟩ => rfl)
theorem lidx45 (p : Fin 100000) (q : Fin 100) (k : Fin 100) : Read.lidx_main_v45 (ix2 p q) k = ix2 p k :=
  funext fun a => Fin.ext (by match a with | ⟨0, _⟩ => rfl | ⟨1, _⟩ => rfl)
theorem ridx45 (p : Fin 100000) (q : Fin 100) (k : Fin 100) : Read.ridx_main_v45 (ix2 p q) k = ix2 k q :=
  funext fun a => Fin.ext (by match a with | ⟨0, _⟩ => rfl | ⟨1, _⟩ => rfl)
theorem lidx63 (p : Fin 100000) (q : Fin 100) (k : Fin 100) : Read.lidx_main_v63 (ix2 p q) k = ix2 p k :=
  funext fun a => Fin.ext (by match a with | ⟨0, _⟩ => rfl | ⟨1, _⟩ => rfl)
theorem ridx63 (p : Fin 100000) (q : Fin 100) (k : Fin 100) : Read.ridx_main_v63 (ix2 p q) k = ix2 k q :=
  funext fun a => Fin.ext (by match a with | ⟨0, _⟩ => rfl | ⟨1, _⟩ => rfl)
theorem lidx92 (g : Fin 128) (j : Fin 8) (k : Fin 100) : Read.lidx_main_v92 (ix2 g j) k = ix2 g k :=
  funext fun a => Fin.ext (by match a with | ⟨0, _⟩ => rfl | ⟨1, _⟩ => rfl)
theorem ridx92 (g : Fin 128) (j : Fin 8) (k : Fin 100) : Read.ridx_main_v92 (ix2 g j) k = ix2 k j :=
  funext fun a => Fin.ext (by match a with | ⟨0, _⟩ => rfl | ⟨1, _⟩ => rfl)

/-! ## The group sums -/

/-- A word read signed is a small natural number exactly when it is that number's word. -/
theorem toInt_eq_iff (w : BitVec 32) (g : Nat) (hg : g < 128) : w.toInt = (g : ℤ) ↔ w = BitVec.ofNat 32 g := by
  constructor
  · intro h
    apply BitVec.eq_of_toNat_eq
    rw [BitVec.toNat_ofNat]
    have := w.isLt
    rw [BitVec.toInt_eq_toNat_cond] at h
    split at h <;> omega
  · rintro rfl
    rw [BitVec.toInt_eq_toNat_cond, BitVec.toNat_ofNat]
    split <;> omega

/-- The group column at (n, 0): the group word of node n. -/
theorem grpCol_apply (x2 : (⟨S100000, .i32⟩ : BufTy).Contents (Elt Ideal)) (n : Fin 100000) (z : Fin 1) :
    Read.val_main_v81 (F := Ideal) x2 (ix2 n z) = x2 (ix1 n) := by
  unfold Read.val_main_v81
  exact Hand.bcastCol_apply _ _ n z

/-- The zero table of the group sums reads 0 everywhere. -/
theorem zerosGrp_apply (i : S128x100.Idx) : Read.val_main_v80 (F := Ideal) i = 0 := by
  unfold Read.val_main_v80
  rw [Hand.bcastScalar_apply]
  unfold Read.val_main_cst_13
  rw [constant_apply, Ideal.ofBits_zero_f32]

theorem scatterGrp_eq : scatter_S128x100_S100000x1_S100000x100_1_0_0_1
    = Hand.rowScatter 128 100000 100 Facts₀.scatter_S128x100_S100000x1_S100000x100_1_0_0_1_wf := rfl

/-- The row scatter of a table at the group column into zeros, at (g, k): the sum over the nodes of
    [group word of n = g] · row n at k. -/
theorem groupSum_apply (x2 : (⟨S100000, .i32⟩ : BufTy).Contents (Elt Ideal)) (A : Tab) (g : Fin 128) (k : Fin 100) :
    Host.scatterAdd (F := Ideal) (φ := .f32) scatter_S128x100_S100000x1_S100000x100_1_0_0_1 (Read.val_main_v80 (F := Ideal))
        (Read.val_main_v81 (F := Ideal) x2) A (ix2 g k)
      = ∑ n : Fin 100000, (if x2 (ix1 n) = BitVec.ofNat 32 g.val then (1 : EReal) else 0) * A (ix2 n k) := by
  rw [scatterGrp_eq, Hand.rowScatterAdd_apply, zerosGrp_apply, zero_add, Finset.sum_filter]
  refine Finset.sum_congr rfl fun n _ => ?_
  rw [grpCol_apply]
  by_cases h : x2 (ix1 n) = BitVec.ofNat 32 g.val
  · rw [if_pos h, if_pos ((toInt_eq_iff _ _ g.isLt).mpr h), one_mul]
  · rw [if_neg h, if_neg (fun h' => h ((toInt_eq_iff _ _ g.isLt).mp h')), zero_mul]

/-- The dense product at (p, q), spelled out. -/
theorem dense_def (h : Fin 100000 → Fin 100 → EReal) (W : Cert.Spec.Arr2 100 100) (p : Fin 100000) (q : Fin 100) :
    Cert.Spec.dense h W p q = ∑ k : Fin 100, h p k * W (ix2 k q) := rfl

/-! ## The stages, top down -/

section Stages
variable (x0 : (⟨S100000x1, .f32⟩ : BufTy).Contents (Elt Ideal)) (x1 : Edges) (x2 : (⟨S100000, .i32⟩ : BufTy).Contents (Elt Ideal))
  (x3 : (⟨S1x100, .f32⟩ : BufTy).Contents (Elt Ideal)) (x4 : (⟨S100, .f32⟩ : BufTy).Contents (Elt Ideal)) (x5 : (⟨S100x100, .f32⟩ : BufTy).Contents (Elt Ideal)) (x6 : (⟨S100, .f32⟩ : BufTy).Contents (Elt Ideal))
  (x7 : (⟨S100x100, .f32⟩ : BufTy).Contents (Elt Ideal)) (x8 : (⟨S100, .f32⟩ : BufTy).Contents (Elt Ideal)) (x9 : (⟨S100x8, .f32⟩ : BufTy).Contents (Elt Ideal)) (x10 : (⟨S8, .f32⟩ : BufTy).Contents (Elt Ideal))

/-- The first layer before the rectifier, bias included. -/
theorem pre1_apply (d : Fin 100000) (k : Fin 100) :
    Read.val_main_v43 (F := Ideal) x0 x1 x3 x4 (ix2 d k) = (Cert.Spec.refPre1 (Read.val_main_v16 (F := Ideal) x1) (Read.val_main_v6 (F := Ideal) x1) (Read.val_main_v26 (F := Ideal) x1) x0 x3 x4) d k := by
  have hT : (fun p k' => Read.val_main_v27 (F := Ideal) x0 x3 (ix2 p k'))
      = (fun p k' => ∑ kk : Fin 1, x0 (ix2 p kk) * x3 (ix2 kk k')) := by
    funext p k'
    rw [Read.val_main_v27_apply]
    refine Finset.sum_congr rfl fun kk _ => ?_
    rw [lidx27, ridx27]
  rw [Read.val_main_v43_apply, Ideal.addf_def, v40_eq, round_apply, hT]
  unfold Read.val_main_v42 Read.val_main_v41
  rw [biasRows_apply]
  rfl

/-- The first layer after the rectifier. -/
theorem h1_apply (p : Fin 100000) (k : Fin 100) :
    Read.val_main_v44 (F := Ideal) x0 x1 x3 x4 (ix2 p k) = max ((Cert.Spec.refPre1 (Read.val_main_v16 (F := Ideal) x1) (Read.val_main_v6 (F := Ideal) x1) (Read.val_main_v26 (F := Ideal) x1) x0 x3 x4) p k) 0 := by
  unfold Read.val_main_v44 Read.val_main_call0_v0 Read.val_main_call0_cst
  rw [Hand.reluOps_apply, pre1_apply]

/-- The second dense product. -/
theorem d2_apply (p : Fin 100000) (q : Fin 100) :
    Read.val_main_v45 (F := Ideal) x0 x1 x3 x4 x5 (ix2 p q) = (Cert.Spec.dense (fun p k => max ((Cert.Spec.refPre1 (Read.val_main_v16 (F := Ideal) x1) (Read.val_main_v6 (F := Ideal) x1) (Read.val_main_v26 (F := Ideal) x1) x0 x3 x4) p k) 0) x5) p q := by
  rw [Read.val_main_v45_apply]
  rw [dense_def]
  refine Finset.sum_congr rfl fun k _ => ?_
  rw [lidx45, ridx45, h1_apply]

/-- The second layer after bias and rectifier. -/
theorem h2_apply (p : Fin 100000) (k : Fin 100) :
    Read.val_main_v62 (F := Ideal) x0 x1 x3 x4 x5 x6 (ix2 p k) = (Cert.Spec.relu (Cert.Spec.agg (Read.val_main_v16 (F := Ideal) x1) (Read.val_main_v6 (F := Ideal) x1) (Read.val_main_v26 (F := Ideal) x1) (Cert.Spec.dense (fun p k => max ((Cert.Spec.refPre1 (Read.val_main_v16 (F := Ideal) x1) (Read.val_main_v6 (F := Ideal) x1) (Read.val_main_v26 (F := Ideal) x1) x0 x3 x4) p k) 0) x5)) x6) p k := by
  have hT : (fun p k' => Read.val_main_v45 (F := Ideal) x0 x1 x3 x4 x5 (ix2 p k')) = (Cert.Spec.dense (fun p k => max ((Cert.Spec.refPre1 (Read.val_main_v16 (F := Ideal) x1) (Read.val_main_v6 (F := Ideal) x1) (Read.val_main_v26 (F := Ideal) x1) x0 x3 x4) p k) 0) x5) := by
    funext p k'
    exact d2_apply x0 x1 x3 x4 x5 p k'
  unfold Read.val_main_v62 Read.val_main_call1_v0 Read.val_main_call1_cst
  rw [Hand.reluOps_apply, Read.val_main_v61_apply, Ideal.addf_def, v58_eq, round_apply, hT]
  unfold Read.val_main_v60 Read.val_main_v59
  rw [biasRows_apply]
  rfl

/-- The third dense product. -/
theorem d3_apply (p : Fin 100000) (q : Fin 100) :
    Read.val_main_v63 (F := Ideal) x0 x1 x3 x4 x5 x6 x7 (ix2 p q) = (Cert.Spec.dense (Cert.Spec.relu (Cert.Spec.agg (Read.val_main_v16 (F := Ideal) x1) (Read.val_main_v6 (F := Ideal) x1) (Read.val_main_v26 (F := Ideal) x1) (Cert.Spec.dense (fun p k => max ((Cert.Spec.refPre1 (Read.val_main_v16 (F := Ideal) x1) (Read.val_main_v6 (F := Ideal) x1) (Read.val_main_v26 (F := Ideal) x1) x0 x3 x4) p k) 0) x5)) x6) x7) p q := by
  rw [Read.val_main_v63_apply]
  rw [dense_def]
  refine Finset.sum_congr rfl fun k _ => ?_
  rw [lidx63, ridx63, h2_apply]

/-- The third layer, bias included. -/
theorem a3_apply (n : Fin 100000) (k : Fin 100) :
    Read.val_main_v79 (F := Ideal) x0 x1 x3 x4 x5 x6 x7 x8 (ix2 n k) = (Cert.Spec.agg (Read.val_main_v16 (F := Ideal) x1) (Read.val_main_v6 (F := Ideal) x1) (Read.val_main_v26 (F := Ideal) x1) (Cert.Spec.dense (Cert.Spec.relu (Cert.Spec.agg (Read.val_main_v16 (F := Ideal) x1) (Read.val_main_v6 (F := Ideal) x1) (Read.val_main_v26 (F := Ideal) x1) (Cert.Spec.dense (fun p k => max ((Cert.Spec.refPre1 (Read.val_main_v16 (F := Ideal) x1) (Read.val_main_v6 (F := Ideal) x1) (Read.val_main_v26 (F := Ideal) x1) x0 x3 x4) p k) 0) x5)) x6) x7)) n k + x8 (ix1 k) := by
  have hT : (fun p k' => Read.val_main_v63 (F := Ideal) x0 x1 x3 x4 x5 x6 x7 (ix2 p k')) = (Cert.Spec.dense (Cert.Spec.relu (Cert.Spec.agg (Read.val_main_v16 (F := Ideal) x1) (Read.val_main_v6 (F := Ideal) x1) (Read.val_main_v26 (F := Ideal) x1) (Cert.Spec.dense (fun p k => max ((Cert.Spec.refPre1 (Read.val_main_v16 (F := Ideal) x1) (Read.val_main_v6 (F := Ideal) x1) (Read.val_main_v26 (F := Ideal) x1) x0 x3 x4) p k) 0) x5)) x6) x7) := by
    funext p k'
    exact d3_apply x0 x1 x3 x4 x5 x6 x7 p k'
  rw [Read.val_main_v79_apply, Ideal.addf_def, v76_eq, round_apply, hT]
  unfold Read.val_main_v78 Read.val_main_v77
  rw [biasRows_apply]

/-- The group counts spread over the features, at (g, k): the count of g. -/
theorem cnt_apply (g : Fin 128) (k : Fin 100) :
    Read.val_main_v90 (F := Ideal) x2 (ix2 g k) = Read.val_main_v88 (F := Ideal) x2 (ix1 g) := by
  unfold Read.val_main_v90
  rw [Hand.bcastFeat_apply]
  unfold Read.val_main_v89
  exact Hand.bcastCol_apply _ _ g 0

/-- The classifier's bias spread over the groups, at (g, j): the bias at j. -/
theorem biasOut_apply (g : Fin 128) (j : Fin 8) : Read.val_main_v94 (F := Ideal) x10 (ix2 g j) = x10 (ix1 j) := by
  unfold Read.val_main_v94 Read.val_main_v93
  rw [Hand.bcastRows_apply, Hand.bcastRow_apply]

/-- The group means. -/
theorem mean_apply (g : Fin 128) (k : Fin 100) :
    Read.val_main_v91 (F := Ideal) x0 x1 x2 x3 x4 x5 x6 x7 x8 (ix2 g k)
      = Ideal.div (∑ n : Fin 100000, (if x2 (ix1 n) = BitVec.ofNat 32 g.val then (1 : EReal) else 0)
            * ((Cert.Spec.agg (Read.val_main_v16 (F := Ideal) x1) (Read.val_main_v6 (F := Ideal) x1) (Read.val_main_v26 (F := Ideal) x1) (Cert.Spec.dense (Cert.Spec.relu (Cert.Spec.agg (Read.val_main_v16 (F := Ideal) x1) (Read.val_main_v6 (F := Ideal) x1) (Read.val_main_v26 (F := Ideal) x1) (Cert.Spec.dense (fun p k => max ((Cert.Spec.refPre1 (Read.val_main_v16 (F := Ideal) x1) (Read.val_main_v6 (F := Ideal) x1) (Read.val_main_v26 (F := Ideal) x1) x0 x3 x4) p k) 0) x5)) x6) x7)) n k + x8 (ix1 k)))
          (Read.val_main_v88 (F := Ideal) x2 (ix1 g)) := by
  rw [Read.val_main_v91_apply, Ideal.hostDivf_def, cnt_apply]
  unfold Read.val_main_v82
  rw [groupSum_apply]
  refine congrArg (fun s => Ideal.div s (Read.val_main_v88 (F := Ideal) x2 (ix1 g))) (Finset.sum_congr rfl fun n _ => ?_)
  rw [a3_apply]

/-- THE REFERENCE'S RESULT at (g, j) is the specification's. -/
theorem ref_result (g : Fin 128) (j : Fin 8) :
    Read.val_main_v95 (F := Ideal) x0 x1 x2 x3 x4 x5 x6 x7 x8 x9 x10 (ix2 g j)
      = Cert.Spec.refOut (Read.val_main_v16 (F := Ideal) x1) (Read.val_main_v6 (F := Ideal) x1) (Read.val_main_v26 (F := Ideal) x1) x2 (Read.val_main_v88 (F := Ideal) x2) x0 x3 x4 x5 x6 x7 x8 x9 x10 g j := by
  rw [Read.val_main_v95_apply, Ideal.addf_def, Read.val_main_v92_apply, biasOut_apply]
  unfold Cert.Spec.refOut Cert.Spec.tailOut Cert.Spec.classify
  refine congrArg (fun s => s + x10 (ix1 j)) (Finset.sum_congr rfl fun k _ => ?_)
  rw [lidx92, ridx92, mean_apply]

end Stages

end Cert.ReferenceIdeal.RefValue

end
-- ==== Proof.NormFinite.lean ====
/-
  EVERY EDGE WEIGHT IS A POSITIVE REAL.

  The destination words are the edge list's second row followed by the self loops n ↦ n (n < 100000). The degree of a
  node d is the accumulating entry scatter of ones into zeros at the destination words: 0 plus the sum of 1 over the
  edges whose destination word, read signed, is d, which is the (real) number of those edges (`deg_apply`, `deg_eq_card`).
  The self loop of d, edge 1600000 + d, has destination word d (`dst_selfLoop`: the joined array read in its second
  piece, the counting array at d, a word whose signed reading is d), so that number is at least 1 (`deg_ge_one`).
  The reciprocal square root of a real r ≥ 1 is the positive real (√r)⁻¹ (`rsqrt_deg_real`). An entry gather clamps its
  start word into the table, so it always reads SOME entry of the table (`gatherNorm_apply`); the edge weight is the
  product of two such reads, a product of two positive reals (`norm_pos`, `norm_real`).
  Every step is at one index; no array is evaluated.
-/
import proofs.«429599_j46402826666302_2_alg».proof.Proof.LibVecGatherScatter
import proofs.«429599_j46402826666302_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Mathlib.Data.EReal.Basic
import Mathlib.Algebra.BigOperators.Group.Finset.Basic

noncomputable section

open scoped BigOperators

namespace Cert.ReferenceIdeal.Hand

open Cert.ReferenceIdeal Cert.ReferenceIdeal.Gen Cert.ReferenceIdeal.Read Idealize.ShloMosaic Idealize.ShloMosaic.ValueIdx

/-! ## Words -/

/-- A node number as a 32-bit word reads back, signed, as the node number. -/
theorem toInt_ofNat_node (n : Nat) (h : n < 100000) : (BitVec.ofNat 32 n).toInt = (n : ℤ) := by
  rw [BitVec.toInt_eq_toNat_cond, BitVec.toNat_ofNat]
  have hm : n % 2 ^ 32 = n := Nat.mod_eq_of_lt (by omega)
  rw [hm]
  split <;> omega

/-- A sum of ones over a finite set is the (real) number of its elements. -/
theorem sum_one_eq_card {ι : Type*} (S : Finset ι) : ∑ _e ∈ S, (1 : EReal) = ((S.card : ℝ) : EReal) := by
  rw [Finset.sum_const, ← EReal.coe_one, ← EReal.coe_nsmul, nsmul_eq_mul, mul_one]

/-! ## The degree -/

/-- The destination word of the self loop of d (edge 1600000 + d) is the word d: the joined destination array read
    past its first piece is the counting array, at d. -/
theorem dst_selfLoop (x1 : (⟨S2x1600000, .i32⟩ : BufTy).Contents (Elt Ideal)) (d : Fin 100000) :
    val_main_v9 (F := Ideal) x1 (ix2 (⟨1600000 + d.val, by omega⟩ : Fin 1700000) 0) = BitVec.ofNat 32 d.val := by
  rw [val_main_v9_apply]
  unfold val_main_v6
  exact concatenate_pair_apply_right (0 : Fin S1700000.rank) (val_main_v5 (F := Ideal) x1) (val_main_v0 (F := Ideal))
    concatenates_S1600000_S100000_S1700000_d0 _ rfl rfl (ix1 d)
    (fun b hb => absurd (Subsingleton.elim _ _) hb)
    (by show d.val + 1600000 = 1600000 + d.val; omega)

/-- The degree of d: the operand's entry plus the sum of the updates over the edges whose destination word, read
    signed, is d. -/
theorem deg_apply (x1 : (⟨S2x1600000, .i32⟩ : BufTy).Contents (Elt Ideal)) (d : Fin 100000) :
    val_main_v10 (F := Ideal) x1 (ix1 d)
      = val_main_v8 (F := Ideal) (ix1 d)
        + ∑ e ∈ Finset.univ.filter (fun e : Fin 1700000 => (val_main_v9 (F := Ideal) x1 (ix2 e 0)).toInt = (d.val : ℤ)),
            val_main_v7 (F := Ideal) (ix1 e) :=
  vecScatterAdd_apply (N := 100000) (E := 1700000) scatter_S100000_S1700000x1_S1700000_n_0_0_1_wf
    (val_main_v9 (F := Ideal) x1) (val_main_v8 (F := Ideal)) (val_main_v7 (F := Ideal)) d

/-- The operand is zero and every update is one, so the degree is the number of edges landing at d. -/
theorem deg_eq_card (x1 : (⟨S2x1600000, .i32⟩ : BufTy).Contents (Elt Ideal)) (d : Fin 100000) :
    val_main_v10 (F := Ideal) x1 (ix1 d)
      = (((Finset.univ.filter (fun e : Fin 1700000 =>
          (val_main_v9 (F := Ideal) x1 (ix2 e 0)).toInt = (d.val : ℤ))).card : ℝ) : EReal) := by
  have h8 : val_main_v8 (F := Ideal) (ix1 d) = 0 := by
    rw [val_main_v8_apply, val_main_cst_0_apply]
    exact Ideal.ofBits_zero_f32
  have h7 : ∀ e : Fin 1700000, val_main_v7 (F := Ideal) (ix1 e) = 1 := by
    intro e
    rw [val_main_v7_apply, val_main_cst_apply]
    exact Ideal.ofBits_one_f32
  rw [deg_apply, h8, Finset.sum_congr rfl (fun e _ => h7 e)]
  exact (zero_add _).trans (sum_one_eq_card _)

/-- THE DEGREE IS A REAL AT LEAST ONE: the self loop of d lands at d. -/
theorem deg_ge_one (x1 : (⟨S2x1600000, .i32⟩ : BufTy).Contents (Elt Ideal)) (d : Fin 100000) :
    ∃ r : ℝ, 1 ≤ r ∧ Cert.ReferenceIdeal.Read.val_main_v10 (F := Ideal) x1 (ix1 d) = (r : EReal) := by
  refine ⟨_, ?_, deg_eq_card x1 d⟩
  have hmem : (⟨1600000 + d.val, by omega⟩ : Fin 1700000) ∈ Finset.univ.filter (fun e : Fin 1700000 =>
      (val_main_v9 (F := Ideal) x1 (ix2 e 0)).toInt = (d.val : ℤ)) := by
    refine Finset.mem_filter.mpr ⟨Finset.mem_univ _, ?_⟩
    rw [dst_selfLoop]
    exact toInt_ofNat_node d.val d.isLt
  exact_mod_cast Finset.card_pos.mpr ⟨_, hmem⟩

/-! ## The reciprocal square root of the degree -/

/-- The reciprocal square root of the degree of n is a positive real. -/
theorem rsqrt_deg_real (x1 : (⟨S2x1600000, .i32⟩ : BufTy).Contents (Elt Ideal)) (n : Fin 100000) :
    ∃ r : ℝ, 0 < r ∧ val_main_v11 (F := Ideal) x1 (ix1 n) = (r : EReal) := by
  obtain ⟨r, hr, h⟩ := deg_ge_one x1 n
  have hpos : 0 < r := lt_of_lt_of_le one_pos hr
  refine ⟨(Real.sqrt r)⁻¹, inv_pos.mpr (Real.sqrt_pos.mpr hpos), ?_⟩
  rw [val_main_v11_apply, h, Ideal.hostUnary_rsqrt_def, Ideal.rsqrt_coe, if_neg (not_lt.mpr hpos.le), if_neg hpos.ne']

/-! ## The edge weight -/

/-- The entry gather of the reciprocal square roots at any column of start words reads SOME node's entry: the one at
    the start word of e, read signed and clamped into the nodes. -/
theorem gatherNorm_apply (x1 : (⟨S2x1600000, .i32⟩ : BufTy).Contents (Elt Ideal)) (idx : IVec S1700000x1 32)
    (e : Fin 1700000) :
    Host.gather gather_S100000_S1700000x1_S1700000_n_0_n_n_0_1_1 (val_main_v11 (F := Ideal) x1) idx (ix1 e)
      = val_main_v11 (F := Ideal) x1 (ix1 ⟨min (idx (ix2 e 0)).toInt.toNat (100000 - 1), by omega⟩) :=
  vecGather_apply (N := 100000) (E := 1700000) (by omega) gather_S100000_S1700000x1_S1700000_n_0_n_n_0_1_1_wf
    (val_main_v11 (F := Ideal) x1) idx e

/-- THE EDGE WEIGHT IS A POSITIVE REAL: a product of two reciprocal square roots of degrees. -/
theorem norm_pos (x1 : (⟨S2x1600000, .i32⟩ : BufTy).Contents (Elt Ideal)) (e : Fin 1700000) :
    ∃ r : ℝ, 0 < r ∧ val_main_v26 (F := Ideal) x1 (ix1 e) = (r : EReal) := by
  obtain ⟨a, ha0, ha⟩ := rsqrt_deg_real x1
    ⟨min (val_main_v17 (F := Ideal) x1 (ix2 e 0)).toInt.toNat (100000 - 1), by omega⟩
  obtain ⟨b, hb0, hb⟩ := rsqrt_deg_real x1
    ⟨min (val_main_v24 (F := Ideal) x1 (ix2 e 0)).toInt.toNat (100000 - 1), by omega⟩
  have h18 : val_main_v18 (F := Ideal) x1 (ix1 e) = (a : EReal) := by
    unfold val_main_v18
    rw [gatherNorm_apply]
    exact ha
  have h25 : val_main_v25 (F := Ideal) x1 (ix1 e) = (b : EReal) := by
    unfold val_main_v25
    rw [gatherNorm_apply]
    exact hb
  refine ⟨a * b, mul_pos ha0 hb0, ?_⟩
  rw [val_main_v26_apply, h18, h25]
  exact (EReal.coe_mul a b).symm

/-- Every edge weight is a real. -/
theorem norm_real (x1 : (⟨S2x1600000, .i32⟩ : BufTy).Contents (Elt Ideal)) (e : Fin 1700000) :
    ∃ r : ℝ, Cert.ReferenceIdeal.Read.val_main_v26 (F := Ideal) x1 (ix1 e) = (r : EReal) := by
  obtain ⟨r, _, h⟩ := norm_pos x1 e
  exact ⟨r, h⟩

end Cert.ReferenceIdeal.Hand

end
-- ==== Proof.FiniteInputs.lean ====
/- From the precondition to finiteness, at the ideal (extended-real) float model: the precondition is the
   conjunction, over the nine float inputs x, of "every entry of |x| is below +∞" (an all-reduction by "and" of the
   entrywise comparison against the +∞ bit pattern). That the conjunction is 1 gives each conjunct 1, an
   all-reduction that is 1 gives the comparison 1 at every entry, and an extended real whose absolute value is below
   the top element is a real number. -/
import proofs.«429599_j46402826666302_2_alg».proof.Pre_finite_inputs
import Idealize.ShloMosaic.Lib.ReduceAll
import Idealize.ShloMosaic.Lib.ValueIdx

noncomputable section

namespace Cert.FiniteInputs

open Idealize.ShloMosaic Idealize.ShloMosaic.ValueIdx
open Cert.Pre_finite_inputs

/-- The rank-0 shape has one index. -/
instance : Subsingleton S_.Idx := ⟨fun a b => funext fun d => d.elim0⟩

/-- The +∞ bit pattern of f32 is the top extended real. -/
theorem ofBits_inf : Ideal.ofBits .f32 0x7F800000#32 = (⊤ : EReal) := by simp [Ideal.ofBits, Ideal.ieee]

/-- An extended real whose absolute value max x (-x) compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- One input: if the all-reduction by "and" of the entrywise test |x| < +∞ is 1, every entry of x is a real. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
        (constantI S_ 1 1#1) hr hu j = 1#1) :
    ∀ i, ∃ r : ℝ, x i = (r : EReal) := fun i =>
  real_of_abs_lt_inf (x i) (Host.reduce_andi_all _ _ hr hu j e i)

variable [Cert.Pre_finite_inputs.Facts]
variable (a0 : FVec Ideal S100000x1 .f32) (a1 : IVec S2x1600000 32) (a2 : IVec S100000 32) (a3 : FVec Ideal S1x100 .f32)
  (a4 : FVec Ideal S100 .f32) (a5 : FVec Ideal S100x100 .f32) (a6 : FVec Ideal S100 .f32) (a7 : FVec Ideal S100x100 .f32)
  (a8 : FVec Ideal S100 .f32) (a9 : FVec Ideal S100x8 .f32) (a10 : FVec Ideal S8 .f32)

/-- Under the precondition every entry of every float input is a real number. -/
theorem finite_of_pre (h : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) := by
  have h0 := congrFun h ix0
  unfold fn fn_part1 fn_part2 at h0
  dsimp only at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all a0 _ _ _ _ e0, real_of_all a3 _ _ _ _ e3, real_of_all a4 _ _ _ _ e4, real_of_all a5 _ _ _ _ e5,
    real_of_all a6 _ _ _ _ e6, real_of_all a7 _ _ _ _ e7, real_of_all a8 _ _ _ _ e8, real_of_all a9 _ _ _ _ e9,
    real_of_all a10 _ _ _ _ e10⟩

end Cert.FiniteInputs

end
-- ==== Proof.SpecAlgebra.lean ====
/-
  THE ONE ALGEBRAIC LAW BETWEEN THE TWO PROGRAMS. The reference multiplies every node's scalar feature by the first
  layer's weight row and then sums the weighted rows over the edges landing at a node; the kernel sums the weighted
  scalars and multiplies the sum by the weight row. On the extended reals a finite sum distributes over a product only
  away from the infinities, so the law is stated where every feature, every weight of the row and every edge weight is
  a real number: there both sides are the same real, by distributivity in ℝ. Everything after the first layer is the
  same function of the first layer's rows on both sides.
-/
import proofs.«429599_j46402826666302_2_alg».proof.Proof.Spec
import Mathlib.Algebra.BigOperators.Ring.Finset
import Mathlib.Tactic.Ring

noncomputable section

open scoped BigOperators

namespace Cert.Spec

open Idealize.ShloMosaic Idealize.ShloMosaic.ValueIdx

/-- The real numbers sit in the extended reals additively, also under finite sums. -/
theorem coe_finsum {ι : Type} (s : Finset ι) (f : ι → ℝ) :
    ((∑ i ∈ s, f i : ℝ) : EReal) = ∑ i ∈ s, ((f i : ℝ) : EReal) := by
  classical
  refine Finset.induction_on s (by simp) (fun a s ha ih => ?_)
  rw [Finset.sum_insert ha, Finset.sum_insert ha, EReal.coe_add, ih]

section
variable (srcW dstW : Wrd1 1700000) (nv : Arr1 1700000) (batch : Wrd1 100000) (cnt : Arr1 128)
variable (x : Arr2 100000 1) (W1 : Arr2 1 100) (b1 : Arr1 100) (W2 : Arr2 100 100) (b2 : Arr1 100) (W3 : Arr2 100 100) (b3 : Arr1 100)
  (Wl : Arr2 100 8) (bl : Arr1 8)

/-- Weight row first or aggregation first: the same rows, where features, weight row and edge weights are reals. -/
theorem pre1_eq (hx : ∀ i, ∃ r : ℝ, x i = (r : EReal)) (hW1 : ∀ i, ∃ r : ℝ, W1 i = (r : EReal))
    (hnv : ∀ i, ∃ r : ℝ, nv i = (r : EReal)) :
    refPre1 srcW dstW nv x W1 b1 = kerPre1 srcW dstW nv x W1 b1 := by
  funext d k
  show (∑ e ∈ landing dstW d, (∑ kk : Fin 1, x (ix2 (rowOf (srcW (ix1 e))) kk) * W1 (ix2 kk k)) * nv (ix1 e)) + b1 (ix1 k)
    = (∑ e ∈ landing dstW d, x (ix2 (rowOf (srcW (ix1 e))) 0) * nv (ix1 e)) * W1 (ix2 0 k) + b1 (ix1 k)
  refine congrArg (· + b1 (ix1 k)) ?_
  choose xr hxr using hx
  choose wr hwr using hW1
  choose nr hnr using hnv
  have hl : ∀ e : Fin 1700000,
      (∑ kk : Fin 1, x (ix2 (rowOf (srcW (ix1 e))) kk) * W1 (ix2 kk k)) * nv (ix1 e)
        = ((xr (ix2 (rowOf (srcW (ix1 e))) 0) * wr (ix2 0 k) * nr (ix1 e) : ℝ) : EReal) := by
    intro e
    rw [Fin.sum_univ_one, hxr, hwr, hnr, ← EReal.coe_mul, ← EReal.coe_mul]
  have hr : ∀ e : Fin 1700000,
      x (ix2 (rowOf (srcW (ix1 e))) 0) * nv (ix1 e)
        = ((xr (ix2 (rowOf (srcW (ix1 e))) 0) * nr (ix1 e) : ℝ) : EReal) := by
    intro e
    rw [hxr, hnr, ← EReal.coe_mul]
  rw [Finset.sum_congr rfl (fun e _ => hl e), Finset.sum_congr rfl (fun e _ => hr e), ← coe_finsum, ← coe_finsum, hwr,
    ← EReal.coe_mul, Finset.sum_mul]
  exact congrArg _ (Finset.sum_congr rfl fun e _ => by ring)

/-- So the two programs' results are one function. -/
theorem refOut_eq_kerOut (hx : ∀ i, ∃ r : ℝ, x i = (r : EReal)) (hW1 : ∀ i, ∃ r : ℝ, W1 i = (r : EReal))
    (hnv : ∀ i, ∃ r : ℝ, nv i = (r : EReal)) :
    refOut srcW dstW nv batch cnt x W1 b1 W2 b2 W3 b3 Wl bl = kerOut srcW dstW nv batch cnt x W1 b1 W2 b2 W3 b3 Wl bl := by
  unfold refOut kerOut
  rw [pre1_eq srcW dstW nv x W1 b1 hx hW1 hnv]

end

end Cert.Spec

end
-- ==== Proof.lean ====
/-
  THE CERTIFICATE: a three-layer graph convolution network with a mean pool and a linear classifier, computed by a
  program of three tiled kernels around host-side gathers and scatter-adds, against the plain reference.

  The frames. The kernel program (read at the word level and at the extended reals alike) is six stretches in a row:
  host operations, the first-layer kernel over ten blocks of 10000 nodes, host operations, the second transform over ten
  blocks, host operations, the pooling kernel over twenty blocks of 5000 nodes with an accumulator carried from block to
  block. Each stretch is run from the buffer contents the one before it leaves; no stretch writes an argument array,
  so every argument ends as it began. The reference is host operations only and its run is read off directly.

  The values, at the extended reals. The reference multiplies each node's scalar feature by the first layer's weight
  row and aggregates the rows over the edges; the kernel aggregates the scalars and multiplies by the weight row
  afterwards. With every float input finite, and every edge weight a real number (each node has its self loop, so every
  degree is at least one and its inverse square root is a positive real), a finite sum of reals times a real
  distributes and the two first layers agree; from there on both programs apply the same functions: aggregation over
  the same edges, bias, rectifier, a 100 x 100 product, twice; then the sum of each group's rows (a scatter-add in the
  reference, a one-hot product accumulated block by block in the kernel: the same sum of the same terms), the quotient
  by the group's size, the classifier and its bias. No rewrite was applied by the idealization, so nothing is owed
  for it.
-/
import proofs.«429599_j46402826666302_2_alg».proof.Defs
import proofs.«429599_j46402826666302_2_alg».proof.Proof.Gen.Kernel
import proofs.«429599_j46402826666302_2_alg».proof.Proof.Gen.Kernel.Skeleton
import proofs.«429599_j46402826666302_2_alg».proof.Proof.Gen.Kernel.Launch
import proofs.«429599_j46402826666302_2_alg».proof.Proof.Gen.Kernel.Regions
import proofs.«429599_j46402826666302_2_alg».proof.Proof.Gen.Kernel.Points
import proofs.«429599_j46402826666302_2_alg».proof.Proof.Gen.KernelIdeal
import proofs.«429599_j46402826666302_2_alg».proof.Proof.Gen.KernelIdeal.Skeleton
import proofs.«429599_j46402826666302_2_alg».proof.Proof.Gen.KernelIdeal.Launch
import proofs.«429599_j46402826666302_2_alg».proof.Proof.Gen.KernelIdeal.Regions
import proofs.«429599_j46402826666302_2_alg».proof.Proof.Gen.KernelIdeal.Points
import proofs.«429599_j46402826666302_2_alg».proof.Proof.Gen.ReferenceIdeal
import proofs.«429599_j46402826666302_2_alg».proof.Proof.Gen.Pre_finite_inputs
import proofs.«429599_j46402826666302_2_alg».proof.Proof.Gen.ReferenceIdeal.Run
import proofs.«429599_j46402826666302_2_alg».proof.Proof.Gen.ReferenceIdeal.Read
import proofs.«429599_j46402826666302_2_alg».proof.Proof.BitsRun
import proofs.«429599_j46402826666302_2_alg».proof.Proof.IdealRun
import proofs.«429599_j46402826666302_2_alg».proof.Proof.IdealKernelValue
import proofs.«429599_j46402826666302_2_alg».proof.Proof.RefValue
import proofs.«429599_j46402826666302_2_alg».proof.Proof.NormFinite
import proofs.«429599_j46402826666302_2_alg».proof.Proof.FiniteInputs
import proofs.«429599_j46402826666302_2_alg».proof.Proof.SpecAlgebra
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level program runs to the end and leaves its arguments alone. -/
theorem frame_k : Cert.frame_Kernel := fun m ρ _ => Cert.Kernel.Frame.frame m ρ

/-- So does the program read at the extended reals. -/
theorem frame_ki : Cert.frame_KernelIdeal := fun m ρ _ => Cert.KernelIdeal.Frame.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: the reference's is the
    specification with the weight row applied before the first aggregation, the kernel's the one with it applied
    after, and under the precondition (finite inputs, hence real edge weights) these are one function. -/
theorem algebraic : Cert.algebraic_KernelIdeal_ReferenceIdeal := by
  intro m ρ m' ρ' hpre hagree
  refine ⟨fun c => Cert.KernelIdeal.Frame.W6 (F := Ideal) m ρ c (Proc.devRef .tc Cert.KernelIdeal.main_v82), ?_, ?_⟩
  · refine (θ_run Cert.KernelIdeal.defs _ _).mono (fun r h c => ?_) (Cert.KernelIdeal.Frame.run_all (F := Ideal) m ρ)
    exact ⟨h c _ (Cert.KernelIdeal.Frame.mem_uc Cert.KernelIdeal.main_v82 (by decide)),
      (h c _ (Cert.KernelIdeal.Frame.mem_uc Cert.KernelIdeal.main_arg0 (by decide))).trans (Cert.KernelIdeal.Frame.W6_main_arg0 m ρ c),
      (h c _ (Cert.KernelIdeal.Frame.mem_uc Cert.KernelIdeal.main_arg1 (by decide))).trans (Cert.KernelIdeal.Frame.W6_main_arg1 m ρ c),
      (h c _ (Cert.KernelIdeal.Frame.mem_uc Cert.KernelIdeal.main_arg2 (by decide))).trans (Cert.KernelIdeal.Frame.W6_main_arg2 m ρ c),
      (h c _ (Cert.KernelIdeal.Frame.mem_uc Cert.KernelIdeal.main_arg3 (by decide))).trans (Cert.KernelIdeal.Frame.W6_main_arg3 m ρ c),
      (h c _ (Cert.KernelIdeal.Frame.mem_uc Cert.KernelIdeal.main_arg4 (by decide))).trans (Cert.KernelIdeal.Frame.W6_main_arg4 m ρ c),
      (h c _ (Cert.KernelIdeal.Frame.mem_uc Cert.KernelIdeal.main_arg5 (by decide))).trans (Cert.KernelIdeal.Frame.W6_main_arg5 m ρ c),
      (h c _ (Cert.KernelIdeal.Frame.mem_uc Cert.KernelIdeal.main_arg6 (by decide))).trans (Cert.KernelIdeal.Frame.W6_main_arg6 m ρ c),
      (h c _ (Cert.KernelIdeal.Frame.mem_uc Cert.KernelIdeal.main_arg7 (by decide))).trans (Cert.KernelIdeal.Frame.W6_main_arg7 m ρ c),
      (h c _ (Cert.KernelIdeal.Frame.mem_uc Cert.KernelIdeal.main_arg8 (by decide))).trans (Cert.KernelIdeal.Frame.W6_main_arg8 m ρ c),
      (h c _ (Cert.KernelIdeal.Frame.mem_uc Cert.KernelIdeal.main_arg9 (by decide))).trans (Cert.KernelIdeal.Frame.W6_main_arg9 m ρ c),
      (h c _ (Cert.KernelIdeal.Frame.mem_uc Cert.KernelIdeal.main_arg10 (by decide))).trans (Cert.KernelIdeal.Frame.W6_main_arg10 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    obtain ⟨fx, fW1, -⟩ := Cert.FiniteInputs.finite_of_pre _ _ _ _ _ _ _ _ _ _ _ (hpre c)
    rw [Cert.ReferenceIdeal.Read.val_main_v95_eq, e0, e1, e2, e3, e4, e5, e6, e7, e8, e9, e10]
    funext i
    obtain ⟨g, j, rfl⟩ : ∃ (g : Fin 128) (j : Fin 8), i = ix2 g j := ⟨i 0, i 1, eq_ix2 i⟩
    rw [Cert.ReferenceIdeal.RefValue.ref_result,
      Cert.Spec.refOut_eq_kerOut _ _ _ _ _ _ _ _ _ _ _ _ _ _ fx fW1 (fun i => by
        obtain ⟨e, rfl⟩ : ∃ e : Fin 1700000, i = ix1 e := ⟨i 0, funext fun a => by match a with | ⟨0, _⟩ => rfl⟩
        exact Cert.ReferenceIdeal.Hand.norm_real _ e)]
    exact (Cert.KernelIdeal.KernelValue.kernel_result m ρ c g j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
